-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S32768x4096 : Shape := ⟨2, ![32768, 4096]⟩
abbrev S4096x4096 : Shape := ⟨2, ![4096, 4096]⟩
abbrev S4096 : Shape := ⟨1, ![4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S32768x4096 : S_.BroadcastsInDim S32768x4096 (![] : Fin 0 → Fin S32768x4096.rank)
  reducesTo_S32768x4096_S_d0_1 : S32768x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x4096 .f32) (main_arg8 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S4096 .f32) (main_arg7 : FVec F S4096x4096 .f32) (main_arg8 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S1x4096 .f32) (main_arg1 : FVec F S32768x4096 .f32) (main_arg2 : FVec F S32768x4096 .f32) (main_arg3 : FVec F S4096x4096 .f32) (main_arg4 : FVec F S4096 .f32) (main_arg5 : FVec F S4096x4096 .f32) (main_arg6 : FVec F S4096 .f32) (main_arg7 : FVec F S4096x4096 .f32) (main_arg8 : FVec F S4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S32768x4096 .f32 := Host.absf main_arg1
  let main_cst_0 : FVec F S_ .f32 := constant S_ .f32 0x7F800000#32
  let main_v5 : FVec F S32768x4096 .f32 := broadcastInDim S32768x4096 ![] bcast_S_S32768x4096 main_cst_0
  let main_v6 : IVec S32768x4096 1 := cmpf .olt main_v4 main_v5
  let main_c_1 : IVec S_ 1 := constantI S_ 1 1#1
  let main_v7 : IVec S_ 1 := (fun x v => Host.reduce IntOp.andi x v reducesTo_S32768x4096_S_d0_1 h_S_) main_v6 main_c_1
  let main_v8 : IVec S_ 1 := andi main_v3 main_v7
  let main_v9 : FVec F S32768x4096 .f32 := Host.absf main_arg2
  let main_cst_2 : FVec F S_ .f32 := constant S_ .f32 0x7F800000#32
  let main_v10 : FVec F S32768x4096 .f32 := broadcastInDim S32768x4096 ![] bcast_S_S32768x4096 main_cst_2
  let main_v11 : IVec S32768x4096 1 := cmpf .olt main_v9 main_v10
  let main_c_3 : IVec S_ 1 := constantI S_ 1 1#1
  let main_v12 : IVec S_ 1 := (fun x v => Host.reduce IntOp.andi x v reducesTo_S32768x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S1x4096 : Shape := ⟨2, ![1, 4096]⟩
abbrev S32768x4096 : Shape := ⟨2, ![32768, 4096]⟩
abbrev S4096x4096 : Shape := ⟨2, ![4096, 4096]⟩
abbrev S4096 : Shape := ⟨1, ![4096]⟩
abbrev S256x4096 : Shape := ⟨2, ![256, 4096]⟩
abbrev S256 : Shape := ⟨1, ![256]⟩
abbrev S1x256 : Shape := ⟨2, ![1, 256]⟩
abbrev S1x1 : Shape := ⟨2, ![1, 1]⟩
abbrev S1 : Shape := ⟨1, ![1]⟩
abbrev S_ : Shape := ⟨0, ![]⟩

abbrev nBuf : Space → Nat
  | .hbm => 36
  | .vmem => 30
  | .smem => 0
  | _ => 0

abbrev bufTy : (tb : Table) → Fin (tcTables nBuf tb) → BufTy
  | .hbm, ⟨0, _⟩ => ⟨S1x4096, .f32⟩
  | .hbm, ⟨1, _⟩ => ⟨S32768x4096, .f32⟩
  | .hbm, ⟨2, _⟩ => ⟨S32768x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x1, .f32⟩
  | .hbm, ⟨13, _⟩ => ⟨S1x1, .f32⟩
  | .hbm, ⟨14, _⟩ => ⟨S1x4096, .f32⟩
  | .hbm, ⟨15, _⟩ => ⟨S1x4096, .f32⟩
  | .hbm, ⟨16, _⟩ => ⟨S_, .f32⟩
  | .hbm, ⟨17, _⟩ => ⟨S1, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .local _ .vmem, ⟨0, _⟩ => ⟨S1x4096, .f32⟩
  | .local _ .vmem, ⟨1, _⟩ => ⟨S256x4096, .f32⟩
  | .local _ .vmem, ⟨2, _⟩ => ⟨S256x4096, .f32⟩
  | .local _ .vmem, ⟨3, _⟩ => ⟨S256, .f32⟩
  | .local _ .vmem, ⟨4, _⟩ => ⟨S256, .f32⟩
  | .local _ .vmem, ⟨5, _⟩ => ⟨S256x4096, .f32⟩
  | .local _ .vmem, ⟨6, _⟩ => ⟨S256x4096, .f32⟩
  | .local _ .vmem, ⟨7, _⟩ => ⟨S256, .f32⟩
  | .local _ .vmem, ⟨8, _⟩ => ⟨S256, .f32⟩
  | .local _ .vmem, ⟨9, _⟩ => ⟨S256x4096, .f32⟩
  | .local _ .vmem, ⟨10, _⟩ => ⟨S256x4096, .f32⟩
  | .local _ .vmem, ⟨11, _⟩ => ⟨S256, .f32⟩
  | .local _ .vmem, ⟨12, _⟩ => ⟨S256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x4096, .f32⟩
  | .local _ .vmem, ⟨20, _⟩ => ⟨S256x4096, .f32⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | .local _ .vmem, ⟨24, _⟩ => ⟨S1x1, .f32⟩
  | .local _ .vmem, ⟨25, _⟩ => ⟨S1x1, .f32⟩
  | .local _ .vmem, ⟨26, _⟩ => ⟨S1x4096, .f32⟩
  | .local _ .vmem, ⟨27, _⟩ => ⟨S1x1, .f32⟩
  | .local _ .vmem, ⟨28, _⟩ => ⟨S1x1, .f32⟩
  | .local _ .vmem, ⟨29, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v43 : BitVec 1 := Scalar.cmpi .eq arg0 c127_i32
  let v44 : BitVec 32 := Scalar.extui v43
  let c0_i32_24 : BitVec 32 := 0#32
  let v45 : BitVec 1 := Scalar.cmpi .ne v44 c0_i32_24
  v45

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x4096_S1x4096_0_0 : ∀ a, (![0, 0] : Fin 2 → Nat) a + S1x4096.size a ≤ S1x4096.size a
  h_S1x4096 : 0 < S1x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  shapeCasts_S256_S1x256 : S256.ShapeCasts S1x256
  inb_S1x256_S1x256_0_0 : ∀ a, (![0, 0] : Fin 2 → Nat) a + S1x256.size a ≤ S1x256.size a
  h_S1x256 : 0 < S1x256.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x4096_S1x4096 : S1x4096.ShapeCasts S1x4096
  reduces_S1x256_S1 : S1x256.Reduces [1] S1
  shapeCasts_S1_S1x1 : S1.ShapeCasts S1x1
  broadcasts_S1x1_S1x256 : S1x1.Broadcasts S1x256
  broadcasts_S1x1_S1x4096 : S1x1.Broadcasts S1x4096
  reducesTo_S1x4096_S1_d1 : S1x4096.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x4096_0_1 : S1x1.BroadcastsInDim S1x4096 (![0, 1] : Fin 2 → Fin S1x4096.rank)
  dot_S1x4096_S256x4096_S1x256_1_1_0_0_n_n_wf : DotDims.WF S1x4096 S256x4096 S1x256 [1] [1] [0] [0] [] []
  dot_S1x256_S256x4096_S1x4096_1_0_0_1_n_n_wf : DotDims.WF S1x256 S256x4096 S1x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4096.size a
  hwx0_4 : ∀ i : grid0.Coords, EltTy.bits .f32 = 32 ∨ (Rect.block (s := S4096) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .f32 = 32 ∨ (Rect.block (s := S4096x4096) S256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S4096.size a
  hwx0_6 : ∀ i : grid0.Coords, EltTy.bits .f32 = 32 ∨ (Rect.block (s := S4096) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x4096.size a
  hwx0_7 : ∀ i : grid0.Coords, EltTy.bits .f32 = 32 ∨ (Rect.block (s := S1x4096) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x4096.size a
  hwx0_8 : ∀ i : grid0.Coords, EltTy.bits .f32 = 32 ∨ (Rect.block (s := S1x4096) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x4096.size a
  hwx0_9 : ∀ i : grid0.Coords, EltTy.bits .f32 = 32 ∨ (Rect.block (s := S1x4096) S1x256.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S32768x4096.size a
  hwx1_1 : ∀ i : grid1.Coords, EltTy.bits .f32 = 32 ∨ (Rect.block (s := S32768x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S32768x4096.size a
  hwx1_2 : ∀ i : grid1.Coords, EltTy.bits .f32 = 32 ∨ (Rect.block (s := S32768x4096) S256x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)

variable [Facts₀]

def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf
def dot_S1x256_S256x4096_S1x4096_1_0_0_1_n_n : DotDims S1x256 S256x4096 S1x4096 where
  lhsContracting := [1]
  rhsContracting := [0]
  lhsNonContracting := [0]
  rhsNonContracting := [1]
  lhsBatch := []
  rhsBatch := []
  wf := dot_S1x256_S256x4096_S1x4096_1_0_0_1_n_n_wf

abbrev win0_0 : Pipeline.Window sig grid0 :=
  Pipeline.Window.ofSpec (Memref.whole main_arg0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1_2) S1x4096.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun i => !(k1_cond2 i == 1#1) | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1x4096 : Shape := ⟨2, ![1, 4096]⟩
abbrev S32768x4096 : Shape := ⟨2, ![32768, 4096]⟩
abbrev S4096x4096 : Shape := ⟨2, ![4096, 4096]⟩
abbrev S4096 : Shape := ⟨1, ![4096]⟩
abbrev S32769x4096 : Shape := ⟨2, ![32769, 4096]⟩
abbrev S4096x32769 : Shape := ⟨2, ![4096, 32769]⟩
abbrev S1x32769 : Shape := ⟨2, ![1, 32769]⟩
abbrev S_ : Shape := ⟨0, ![]⟩
abbrev S1 : Shape := ⟨1, ![1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S32768x4096, .f32⟩
  | .hbm, ⟨2, _⟩ => ⟨S32768x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S4096x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S4096x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S32769x4096, .f32⟩
  | .hbm, ⟨22, _⟩ => ⟨S32769x4096, .f32⟩
  | .hbm, ⟨23, _⟩ => ⟨S4096x32769, .f32⟩
  | .hbm, ⟨24, _⟩ => ⟨S1x32769, .f32⟩
  | .hbm, ⟨25, _⟩ => ⟨S_, .f32⟩
  | .hbm, ⟨26, _⟩ => ⟨S1x32769, .f32⟩
  | .hbm, ⟨27, _⟩ => ⟨S1x32769, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S1x1, .f32⟩
  | .hbm, ⟨34, _⟩ => ⟨S1x32769, .f32⟩
  | .hbm, ⟨35, _⟩ => ⟨S1x32769, .f32⟩
  | .hbm, ⟨36, _⟩ => ⟨S1x32769, .f32⟩
  | .hbm, ⟨37, _⟩ => ⟨S_, .f32⟩
  | .hbm, ⟨38, _⟩ => ⟨S1, .f32⟩
  | .hbm, ⟨39, _⟩ => ⟨S1x1, .f32⟩
  | .hbm, ⟨40, _⟩ => ⟨S1x32769, .f32⟩
  | .hbm, ⟨41, _⟩ => ⟨S1x32769, .f32⟩
  | .hbm, ⟨42, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  concatenates_S32768x4096_S1x4096_S32769x4096_d0 : Shape.Concatenates [S32768x4096, S1x4096] S32769x4096 0
  transposes_S32769x4096_S4096x32769_1_0 : S32769x4096.Transposes [1, 0] S4096x32769
  bcast_S_S1x32769 : S_.BroadcastsInDim S1x32769 (![] : Fin 0 → Fin S1x32769.rank)
  reducesTo_S1x32769_S1_d1 : S1x32769.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32769_0_1 : S1x1.BroadcastsInDim S1x32769 (![0, 1] : Fin 2 → Fin S1x32769.rank)
  dot_S1x4096_S4096x4096_S1x4096_1_0_0_1_n_n_wf : DotDims.WF S1x4096 S4096x4096 S1x4096 [1] [0] [0] [1] [] []
  dot_S1x4096_S4096x32769_S1x32769_1_0_0_1_n_n_wf : DotDims.WF S1x4096 S4096x32769 S1x32769 [1] [0] [0] [1] [] []
  dot_S1x32769_S32769x4096_S1x4096_1_0_0_1_n_n_wf : DotDims.WF S1x32769 S32769x4096 S1x4096 [1] [0] [0] [1] [] []

variable [Facts₀]

def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S1x4096_S4096x32769_S1x32769_1_0_0_1_n_n : DotDims S1x4096 S4096x32769 S1x32769 where
  lhsContracting := [1]
  rhsContracting := [0]
  lhsNonContracting := [0]
  rhsNonContracting := [1]
  lhsBatch := []
  rhsBatch := []
  wf := dot_S1x4096_S4096x32769_S1x32769_1_0_0_1_n_n_wf
def dot_S1x32769_S32769x4096_S1x4096_1_0_0_1_n_n : DotDims S1x32769 S32769x4096 S1x4096 where
  lhsContracting := [1]
  rhsContracting := [0]
  lhsNonContracting := [0]
  rhsNonContracting := [1]
  lhsBatch := []
  rhsBatch := []
  wf := dot_S1x32769_S32769x4096_S1x4096_1_0_0_1_n_n_wf

class Facts : Prop extends Facts₀ where

variable [Facts]
-- ==== Proof.BitsProj.lean ====
/-
  The frame of the projection kernel (the first pallas_call): q, k and v as three products of the one input row with 256-row
  tiles of the three weight matrices, plus the bias tiles, one tile per grid point (16 points).

  At every point the body reads its seven input blocks — the row x, and per projection a 256×4096 weight tile and a 256-entry
  bias tile — and stores one 1×256 block into each of the three outputs; it keeps nothing between points. So after the body each
  output's staging buffer holds ONE whole-block store of a pure function of the input blocks (`outQ`, `outK`, `outV`), the inputs
  are handed back as they were, and the region's invariant is the untouched rest. Everything is stated at the contents `V` the
  region is entered with, and for any float instance.
-/
import proofs.«148700_j48034914238768_1_alg».proof.Proof.Gen.Kernel.Launch
import proofs.«148700_j48034914238768_1_alg».proof.Proof.Gen.Kernel.Skeleton
import proofs.«148700_j48034914238768_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched window's
    block index has not moved), for any proof data whose array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole block -/

abbrev rX : Rect S1x4096 := Rect.unit (s := S1x4096) ![0, 0] S1x4096.size inb_S1x4096_S1x4096_0_0
abbrev rW : Rect S256x4096 := Rect.unit (s := S256x4096) ![0, 0] S256x4096.size inb_S256x4096_S256x4096_0_0
abbrev rB : Rect S256 := Rect.unit (s := S256) ![0] S256.size inb_S256_S256_0
abbrev rO : Rect S1x256 := Rect.unit (s := S1x256) ![0, 0] S1x256.size inb_S1x256_S1x256_0_0

/-! ## What the body leaves in each output's buffer: one whole-block store of the projection of the point's blocks -/

/-- The q tile: x · Wqᵀ + bq over the point's 256 rows of Wq. -/
def outQ (x0 : Vec F S1x4096 .f32) (x1 : Vec F S256x4096 .f32) (x2 : Vec F S256 .f32) : Vec F S1x256 .f32 :=
  View.canon [⟨rO, k0_pay2 (View.ld x0 rX) (View.ld x1 rW) (View.ld x2 rB)⟩]
/-- The k tile. -/
def outK (x0 : Vec F S1x4096 .f32) (x3 : Vec F S256x4096 .f32) (x4 : Vec F S256 .f32) : Vec F S1x256 .f32 :=
  View.canon [⟨rO, k0_pay3 (View.ld x0 rX) (View.ld x3 rW) (View.ld x4 rB)⟩]
/-- The v tile. -/
def outV (x0 : Vec F S1x4096 .f32) (x5 : Vec F S256x4096 .f32) (x6 : Vec F S256 .f32) : Vec F S1x256 .f32 :=
  View.canon [⟨rO, k0_pay4 (View.ld x0 rX) (View.ld x5 rW) (View.ld x6 rB)⟩]

/-- One whole-block store covers the block. -/
theorem coverO (p0 : Vec F S1x256 .f32) (y : S1x256.Idx) :
    ∃ pc ∈ ([⟨rO, p0⟩] : List (View.Piece (Elt F) S1x256 .f32)), y ∈ pc.1.set :=
  View.cover_of_tiled [⟨rO, p0⟩] S1x256.size (by rfl) y

/-! ## The body's triple -/

set_option maxHeartbeats 2000000 in
/-- On whole staging memrefs, the inputs' at contents `xW` and the outputs' at anything, the body runs to the continuation
    holding the inputs' as they were and the three outputs' at the projections of the inputs'. -/
theorem sound_kernel (c : Dev nD) (E : Set ℕ) (i : grid0.Coords) (arg1 : Memref sig .tc .vmem S1x4096 .f32) (harg1 : arg1.IsWhole) (arg2 : Memref sig .tc .vmem S256x4096 .f32) (harg2 : arg2.IsWhole) (arg3 : Memref sig .tc .vmem S256 .f32) (harg3 : arg3.IsWhole) (arg4 : Memref sig .tc .vmem S256x4096 .f32) (harg4 : arg4.IsWhole) (arg5 : Memref sig .tc .vmem S256 .f32) (harg5 : arg5.IsWhole) (arg6 : Memref sig .tc .vmem S256x4096 .f32) (harg6 : arg6.IsWhole) (arg7 : Memref sig .tc .vmem S256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (x0 : Vec F S1x4096 .f32) (x1 : Vec F S256x4096 .f32) (x2 : Vec F S256 .f32) (x3 : Vec F S256x4096 .f32) (x4 : Vec F S256 .f32) (x5 : Vec F S256x4096 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outQ x0 x1 x2) ∗ owns (c : Thread nD τ) arg9 fullShare (outK x0 x3 x4) ∗ owns (c : Thread nD τ) arg10 fullShare (outV x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  isplitl [H8]
  · iexists _; isplitr
    swap; · iexact H8
    ipureintro
    exact View.read_writes_eq_canon _ _ _ (coverO _)
  iexists _; isplitr
  swap; · iexact H9
  ipureintro
  exact View.read_writes_eq_canon _ _ _ (coverO _)

/-! ## The region's proof data -/

/-- The proof data of the projection region on core `c`: the arrays as the region finds them; after the body at point `t` each
    input's buffer at its block and each output's at the projection of the point's blocks; the invariant the untouched rest;
    nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outQ (blk V c 0 t) (blk V c 1 t) (blk V c 2 t)
    | ⟨8, _⟩ => outK (blk V c 0 t) (blk V c 3 t) (blk V c 4 t)
    | ⟨9, _⟩ => outV (blk V c 0 t) (blk V c 5 t) (blk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = outQ (blk V c 0 t) (blk V c 1 t) (blk V c 2 t) := by dsimp only [dat]
theorem after_8 (c : Dev nD) (t : Fin cfg0.N) : (dat V c).after 8 t = outK (blk V c 0 t) (blk V c 3 t) (blk V c 4 t) := by dsimp only [dat]
theorem after_9 (c : Dev nD) (t : Fin cfg0.N) : (dat V c).after 9 t = outV (blk V c 0 t) (blk V c 5 t) (blk V c 6 t) := by dsimp only [dat]

theorem before_0 (c : Dev nD) (t : Fin cfg0.N) (d) : (dat V c).before 0 t d = blk V c 0 t :=
  before_0_of V (dat V c) (A_eq V c 0) (after_0 V c) t d
theorem before_1 (c : Dev nD) (t : Fin cfg0.N) (d) : (dat V c).before 1 t d = blk V c 1 t :=
  before_1_of V (dat V c) (A_eq V c 1) (after_1 V c) t d
theorem before_2 (c : Dev nD) (t : Fin cfg0.N) (d) : (dat V c).before 2 t d = blk V c 2 t :=
  before_2_of V (dat V c) (A_eq V c 2) (after_2 V c) t d
theorem before_3 (c : Dev nD) (t : Fin cfg0.N) (d) : (dat V c).before 3 t d = blk V c 3 t :=
  before_3_of V (dat V c) (A_eq V c 3) (after_3 V c) t d
theorem before_4 (c : Dev nD) (t : Fin cfg0.N) (d) : (dat V c).before 4 t d = blk V c 4 t :=
  before_4_of V (dat V c) (A_eq V c 4) (after_4 V c) t d
theorem before_5 (c : Dev nD) (t : Fin cfg0.N) (d) : (dat V c).before 5 t d = blk V c 5 t :=
  before_5_of V (dat V c) (A_eq V c 5) (after_5 V c) t d
theorem before_6 (c : Dev nD) (t : Fin cfg0.N) (d) : (dat V c).before 6 t d = blk V c 6 t :=
  before_6_of V (dat V c) (A_eq V c 6) (after_6 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.BitsFlashBase.lean ====
import proofs.«148700_j48034914238768_1_alg».proof.Proof.Gen.Kernel.Launch
import proofs.«148700_j48034914238768_1_alg».proof.Proof.Gen.Kernel.Skeleton
import proofs.«148700_j48034914238768_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 256 x 4096 extents: the structural look recurses once per coordinate of the long axes
set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call's frame: what its three control cases share

The second call streams the key and value caches through the core in 128 tiles of 256 rows and keeps the running
maximum m, the running denominator l and the running weighted sum acc of the online softmax in three scratch
buffers carried from tile to tile. The first tile resets the three; the last tile copies them to the three outputs.
Everything here is stated at a parameter V: the core's buffer contents when the call is entered. -/

section Blocks
variable (V : (c : Dev nD) → (b : Ref sig .tc) → Buf (Elt F) ((c : Thread nD τ).loc b))

/-- window w's block at point t, read off its array as the region finds it -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query row's staging buffer holds the query at every tile, though it is fetched at the first tile only: its
    block index never moves, the window is uncut and never idle. -/
theorem before_q_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The key tile's staging buffer holds tile t of the key cache. -/
theorem before_k_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The value tile's staging buffer holds tile t of the value cache. -/
theorem before_v_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

end Blocks

/-! ## The two tests on the tile number -/

/-- The test guarding the reset of the running statistics (the scalar chain of the body's first branch): the tile is the first. -/
abbrev atFirst (i : grid1.Coords) : Prop := (Scalar.cmpi .ne (Scalar.extui (Scalar.cmpi .eq (BitVec.ofNat 32 (i 0).val) 0#32)) 0#32) = 1#1
/-- It holds at tile 0 only. -/
theorem atFirst_iff : ∀ t : Fin cfg1.N, atFirst (grid1.coords t) ↔ t.val % 128 = 0 :=
  (by decide +kernel : ∀ t : Fin grid1.N, atFirst (grid1.coords t) ↔ t.val % 128 = 0)

/-- The test guarding the copy of the statistics to the outputs: the tile is the last. -/
abbrev atLast (i : grid1.Coords) : Prop := k1_cond2 i = 1#1
/-- It holds at tile 127 only. -/
theorem atLast_iff : ∀ t : Fin cfg1.N, atLast (grid1.coords t) ↔ t.val % 128 = 127 :=
  (by decide +kernel : ∀ t : Fin grid1.N, atLast (grid1.coords t) ↔ t.val % 128 = 127)

/-! ## Where the windows are idle -/

/-- The three inputs are never idle. -/
theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Before the last tile nothing is stored into the three outputs: they are idle there, -/
theorem idle_m : ∀ t : Fin cfg1.N, ¬atLast (grid1.coords t) → cfg1.idle 3 (grid1.coords t) = true := by decide +kernel
theorem idle_l : ∀ t : Fin cfg1.N, ¬atLast (grid1.coords t) → cfg1.idle 4 (grid1.coords t) = true := by decide +kernel
theorem idle_acc : ∀ t : Fin cfg1.N, ¬atLast (grid1.coords t) → cfg1.idle 5 (grid1.coords t) = true := by decide +kernel
/-- and not written back, -/
theorem noFlush_m : ∀ t : Fin cfg1.N, ¬atLast (grid1.coords t) → (cfg1.win 3).flush t = false := by decide +kernel
theorem noFlush_l : ∀ t : Fin cfg1.N, ¬atLast (grid1.coords t) → (cfg1.win 4).flush t = false := by decide +kernel
theorem noFlush_acc : ∀ t : Fin cfg1.N, ¬atLast (grid1.coords t) → (cfg1.win 5).flush t = false := by decide +kernel
/-- while the last tile stores into all three. -/
theorem live_m : ∀ t : Fin cfg1.N, atLast (grid1.coords t) → cfg1.idle 3 (grid1.coords t) = false := by decide +kernel
theorem live_l : ∀ t : Fin cfg1.N, atLast (grid1.coords t) → cfg1.idle 4 (grid1.coords t) = false := by decide +kernel
theorem live_acc : ∀ t : Fin cfg1.N, atLast (grid1.coords t) → cfg1.idle 5 (grid1.coords t) = false := by decide +kernel

/-! ## The memrefs the body is called on -/

/-- Each window's current staging memref at tile t, spelled as the pipeline passes it, and its wholeness. -/
abbrev stQ (t : Fin cfg1.N) : Memref sig .tc .vmem S1x4096 .f32 := win1_0.stage (cfg1.slots t 0)
abbrev hstQ (t : Fin cfg1.N) : (stQ t).IsWhole := hstage1_0 ((cfg1.slots t 0).cast nbuf1_0)
abbrev stK (t : Fin cfg1.N) : Memref sig .tc .vmem S256x4096 .f32 := win1_1.stage (cfg1.slots t 1)
abbrev hstK (t : Fin cfg1.N) : (stK t).IsWhole := hstage1_1 ((cfg1.slots t 1).cast nbuf1_1)
abbrev stV (t : Fin cfg1.N) : Memref sig .tc .vmem S256x4096 .f32 := win1_2.stage (cfg1.slots t 2)
abbrev hstV (t : Fin cfg1.N) : (stV t).IsWhole := hstage1_2 ((cfg1.slots t 2).cast nbuf1_2)
abbrev stM (t : Fin cfg1.N) : Memref sig .tc .vmem S1x1 .f32 := win1_3.stage (cfg1.slots t 3)
abbrev hstM (t : Fin cfg1.N) : (stM t).IsWhole := hstage1_3 ((cfg1.slots t 3).cast nbuf1_3)
abbrev stL (t : Fin cfg1.N) : Memref sig .tc .vmem S1x1 .f32 := win1_4.stage (cfg1.slots t 4)
abbrev hstL (t : Fin cfg1.N) : (stL t).IsWhole := hstage1_4 ((cfg1.slots t 4).cast nbuf1_4)
abbrev stAcc (t : Fin cfg1.N) : Memref sig .tc .vmem S1x4096 .f32 := win1_5.stage (cfg1.slots t 5)
abbrev hstAcc (t : Fin cfg1.N) : (stAcc t).IsWhole := hstage1_5 ((cfg1.slots t 5).cast nbuf1_5)

/-- The three scratch operands: whole scoped buffers of the kernel's own, carried from tile to tile. -/
abbrev scrM : Memref sig .tc .vmem S1x1 .f32 := Memref.whole cc1_scratch0
abbrev scrL : Memref sig .tc .vmem S1x1 .f32 := Memref.whole cc1_scratch1
abbrev scrAcc : Memref sig .tc .vmem S1x4096 .f32 := Memref.whole cc1_scratch2

/-- The views through which the contents of the outputs' one staging buffer each and of the scratch are stated. -/
abbrev viewOutM : View sig .tc .vmem S1x1 .f32 := (Memref.whole cc1_stg3_0 : Memref sig .tc .vmem S1x1 .f32).view
abbrev viewOutL : View sig .tc .vmem S1x1 .f32 := (Memref.whole cc1_stg4_0 : Memref sig .tc .vmem S1x1 .f32).view
abbrev viewOutAcc : View sig .tc .vmem S1x4096 .f32 := (Memref.whole cc1_stg5_0 : Memref sig .tc .vmem S1x4096 .f32).view
abbrev viewM : View sig .tc .vmem S1x1 .f32 := scrM.view
abbrev viewL : View sig .tc .vmem S1x1 .f32 := scrL.view
abbrev viewAcc : View sig .tc .vmem S1x4096 .f32 := scrAcc.view

/-! ## The class invariant with the scratch named -/

/-- The staging buffers of the projection call, each whole at some contents: scoped buffers this call never touches. -/
def projStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- What the launch hands the call, opened: the projection call's staging buffers, the three scratch buffers at some
    contents each, and the generator register at some state. -/
theorem PhiA_open (c : Dev nD) : (Pipeline.ΦA spec1 c : sProp 𝕄) ⊢ iprop(iprop(projStaging c ∗ (∃ d, owns (c : Thread nD τ) scrM fullShare d) ∗ (∃ d, owns (c : Thread nD τ) scrL fullShare d) ∗ (∃ d, owns (c : Thread nD τ) scrAcc fullShare d)) ∗ (∃ r, prngReg c r)) := by
  unfold Pipeline.ΦA; rw [scopedRest1_eq]; simp only [scrM, scrL, scrAcc, owns_whole]
  unfold projStaging
  iintro ⟨⟨H1, H2, H3, H4, H5, H6, H7, H8, H9, H10, H11, H12, H13, H14, H15, H16, H17, H18, H19, S0, S1, S2⟩, Hg⟩
  iframe

/-- And closed again. -/
theorem PhiA_close (c : Dev nD) : iprop(iprop(projStaging c ∗ (∃ d, owns (c : Thread nD τ) scrM fullShare d) ∗ (∃ d, owns (c : Thread nD τ) scrL fullShare d) ∗ (∃ d, owns (c : Thread nD τ) scrAcc fullShare d)) ∗ (∃ r, prngReg c r)) ⊢ (Pipeline.ΦA spec1 c : sProp 𝕄) := by
  unfold Pipeline.ΦA; rw [scopedRest1_eq]; simp only [scrM, scrL, scrAcc, owns_whole]
  unfold projStaging
  iintro ⟨⟨⟨H1, H2, H3, H4, H5, H6, H7, H8, H9, H10, H11, H12, H13, H14, H15, H16, H17, H18, H19⟩, S0, S1, S2⟩, Hg⟩
  iframe

/-- The two are one proposition. -/
theorem PhiA_eq (c : Dev nD) : (Pipeline.ΦA spec1 c : sProp 𝕄) = iprop(iprop(projStaging c ∗ (∃ d, owns (c : Thread nD τ) scrM fullShare d) ∗ (∃ d, owns (c : Thread nD τ) scrL fullShare d) ∗ (∃ d, owns (c : Thread nD τ) scrAcc fullShare d)) ∗ (∃ r, prngReg c r)) :=
  BI.equiv_iff.mp ⟨PhiA_open c, PhiA_close c⟩

end Cert.Kernel.Flash

end
-- ==== Proof.BitsFlashMid.lean ====
import proofs.«148700_j48034914238768_1_alg».proof.Proof.BitsFlashBase

-- membership in a rectangle of 256 x 4096 extents: the structural look recurses once per coordinate of the long axes
set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- A MIDDLE TILE (neither the first nor the last): the pieces the body's stores leave in the three scratch buffers
    (last first), WITH the proof that on whole memrefs — the query row, the key tile and the value tile at their
    contents, the three outputs at whatever they hold (om, ol, oa: nothing is stored into them and they are handed
    back untouched), the running maximum, denominator and weighted sum at what the tile before left (m0, l0, a0) —
    the body runs to the continuation holding the inputs and the outputs as they were and each scratch buffer with
    its pieces written. Neither branch is taken. The pieces are the witness the run finds. -/
noncomputable def runMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) :
    Σ' (LM : List (View.Piece (Elt F) S1x1 .f32)) (LL : List (View.Piece (Elt F) S1x1 .f32)), { LA : List (View.Piece (Elt F) S1x4096 .f32) //
      ∀ (om : Vec F S1x1 .f32) (ol : Vec F S1x1 .f32) (oa : Vec F S1x4096 .f32) (E : Set ℕ) (K : PUnit → sProp 𝕄),
        iprop(owns (c : Thread nD τ) arg1 fullShare xq ∗ owns (c : Thread nD τ) arg2 fullShare xk ∗ owns (c : Thread nD τ) arg3 fullShare xv ∗ owns (c : Thread nD τ) arg4 fullShare om ∗ owns (c : Thread nD τ) arg5 fullShare ol ∗ owns (c : Thread nD τ) arg6 fullShare oa ∗ owns (c : Thread nD τ) arg7 fullShare m0 ∗ owns (c : Thread nD τ) arg8 fullShare l0 ∗ owns (c : Thread nD τ) arg9 fullShare a0
            ∗ (iprop(owns (c : Thread nD τ) arg1 fullShare xq ∗ owns (c : Thread nD τ) arg2 fullShare xk ∗ owns (c : Thread nD τ) arg3 fullShare xv ∗ owns (c : Thread nD τ) arg4 fullShare om ∗ owns (c : Thread nD τ) arg5 fullShare ol ∗ owns (c : Thread nD τ) arg6 fullShare oa ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg1 harg1 arg2 harg2 arg3 harg3 arg4 harg4 arg5 harg5 arg6 harg6 arg7 harg7 arg8 harg8 arg9 harg9) K } := by
  refine ⟨?_, ?_, ?_, fun om ol oa E K => ?run⟩
  case run =>
    simp only [cc1__flash_kernel_eq_skeleton]; unfold cc1__flash_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.Flash

end
-- ==== Proof.BitsFlashFirst.lean ====
import proofs.«148700_j48034914238768_1_alg».proof.Proof.BitsFlashMid

-- membership in a rectangle of 256 x 4096 extents: the structural look recurses once per coordinate of the long axes
set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE FIRST TILE: the pieces the body's stores leave in the three scratch buffers (last first), WITH the proof that
    on whole memrefs — the query row, the key tile and the value tile at their contents, the three outputs at
    whatever they hold (om, ol, oa: handed back untouched), the three scratch buffers at ANYTHING (the reset branch
    stores each whole before anything reads it) — the body runs to the continuation holding the inputs and the outputs
    as they were and each scratch buffer with its pieces written. The reset branch is taken, the copy-out branch is
    not. The pieces are the witness the run finds. -/
noncomputable def runFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) :
    Σ' (LM : List (View.Piece (Elt F) S1x1 .f32)) (LL : List (View.Piece (Elt F) S1x1 .f32)), { LA : List (View.Piece (Elt F) S1x4096 .f32) //
      ∀ (om : Vec F S1x1 .f32) (ol : Vec F S1x1 .f32) (oa : Vec F S1x4096 .f32) (E : Set ℕ) (K : PUnit → sProp 𝕄),
        iprop(owns (c : Thread nD τ) arg1 fullShare xq ∗ owns (c : Thread nD τ) arg2 fullShare xk ∗ owns (c : Thread nD τ) arg3 fullShare xv ∗ owns (c : Thread nD τ) arg4 fullShare om ∗ owns (c : Thread nD τ) arg5 fullShare ol ∗ owns (c : Thread nD τ) arg6 fullShare oa ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare xq ∗ owns (c : Thread nD τ) arg2 fullShare xk ∗ owns (c : Thread nD τ) arg3 fullShare xv ∗ owns (c : Thread nD τ) arg4 fullShare om ∗ owns (c : Thread nD τ) arg5 fullShare ol ∗ owns (c : Thread nD τ) arg6 fullShare oa ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg1 harg1 arg2 harg2 arg3 harg3 arg4 harg4 arg5 harg5 arg6 harg6 arg7 harg7 arg8 harg8 arg9 harg9) K } := by
  refine ⟨?_, ?_, ?_, fun om ol oa E K => ?run⟩
  case run =>
    simp only [cc1__flash_kernel_eq_skeleton]; unfold cc1__flash_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.Flash

end
-- ==== Proof.BitsFlashLast.lean ====
import proofs.«148700_j48034914238768_1_alg».proof.Proof.BitsFlashFirst

-- membership in a rectangle of 256 x 4096 extents: the structural look recurses once per coordinate of the long axes
set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE LAST TILE: the pieces the body's stores leave in the three outputs' staging buffers and in the three scratch
    buffers (last first), WITH the proof that on whole memrefs — the query row, the key tile and the value tile at
    their contents, the three outputs at ANYTHING (each is stored whole), the running maximum, denominator and
    weighted sum at what the tile before left (m0, l0, a0) — the body runs to the continuation holding the inputs as
    they were and each output and each scratch buffer with its pieces written. The reset branch is not taken, the
    copy-out branch is. The pieces are the witness the run finds. -/
noncomputable def runLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) :
    Σ' (OM : List (View.Piece (Elt F) S1x1 .f32)) (OL : List (View.Piece (Elt F) S1x1 .f32)) (OA : List (View.Piece (Elt F) S1x4096 .f32))
       (LM : List (View.Piece (Elt F) S1x1 .f32)) (LL : List (View.Piece (Elt F) S1x1 .f32)), { LA : List (View.Piece (Elt F) S1x4096 .f32) //
      ∀ (E : Set ℕ) (K : PUnit → sProp 𝕄),
        iprop(owns (c : Thread nD τ) arg1 fullShare xq ∗ owns (c : Thread nD τ) arg2 fullShare xk ∗ owns (c : Thread nD τ) arg3 fullShare xv ∗ (∃ d, owns (c : Thread nD τ) arg4 fullShare d) ∗ (∃ d, owns (c : Thread nD τ) arg5 fullShare d) ∗ (∃ d, owns (c : Thread nD τ) arg6 fullShare d) ∗ owns (c : Thread nD τ) arg7 fullShare m0 ∗ owns (c : Thread nD τ) arg8 fullShare l0 ∗ owns (c : Thread nD τ) arg9 fullShare a0
            ∗ (iprop(owns (c : Thread nD τ) arg1 fullShare xq ∗ owns (c : Thread nD τ) arg2 fullShare xk ∗ owns (c : Thread nD τ) arg3 fullShare xv ∗ (∃ f, arg4.view.loc (c : Thread nD τ) ↦[arg4.view.set]{fullShare} arg4.view.writes (Elt F) f OM) ∗ (∃ f, arg5.view.loc (c : Thread nD τ) ↦[arg5.view.set]{fullShare} arg5.view.writes (Elt F) f OL) ∗ (∃ f, arg6.view.loc (c : Thread nD τ) ↦[arg6.view.set]{fullShare} arg6.view.writes (Elt F) f OA) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc1__flash_kernel_eq_skeleton]; unfold cc1__flash_kernel_skel
    simp only [k1_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Kernel.Flash

end
-- ==== Proof.BitsFlash.lean ====
import proofs.«148700_j48034914238768_1_alg».proof.Proof.BitsFlashLast

-- membership in a rectangle of 256 x 4096 extents: the structural look recurses once per coordinate of the long axes
set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call's frame: what the scratch and the outputs hold tile by tile, the proof data, the obligation

Stated at a parameter V, the core's buffer contents when the call is entered. -/

/-! ## What each control case leaves: the pieces its run found, read back -/

/-- The running maximum after the first tile: its pieces cover the buffer (they tile it, checked by evaluating the run's witness). -/
theorem cover_mAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) (y : S1x1.Idx) :
    ∃ pc ∈ (runFirst c i arg1 harg1 arg2 harg2 arg3 harg3 arg4 harg4 arg5 harg5 arg6 harg6 arg7 harg7 arg8 harg8 arg9 harg9 hc0 hc1 xq xk xv).1, y ∈ pc.1.set :=
  View.cover_of_tiledL (runFirst c i arg1 harg1 arg2 harg2 arg3 harg3 arg4 harg4 arg5 harg5 arg6 harg6 arg7 harg7 arg8 harg8 arg9 harg9 hc0 hc1 xq xk xv).1 S1x1.size (by sl_kernel_rfl) y

/-- The running maximum after the first tile: the pieces read back over junk. -/
def mAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) : Vec F S1x1 .f32 :=
  viewM.read (Elt F) (viewM.writes (Elt F) viewM.junk (runFirst c i arg1 harg1 arg2 harg2 arg3 harg3 arg4 harg4 arg5 harg5 arg6 harg6 arg7 harg7 arg8 harg8 arg9 harg9 hc0 hc1 xq xk xv).1)

/-- The running denominator after the first tile: its pieces cover the buffer (they tile it, checked by evaluating the run's witness). -/
theorem cover_lAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) (y : S1x1.Idx) :
    ∃ pc ∈ (runFirst c i arg1 harg1 arg2 harg2 arg3 harg3 arg4 harg4 arg5 harg5 arg6 harg6 arg7 harg7 arg8 harg8 arg9 harg9 hc0 hc1 xq xk xv).2.1, y ∈ pc.1.set :=
  View.cover_of_tiledL (runFirst c i arg1 harg1 arg2 harg2 arg3 harg3 arg4 harg4 arg5 harg5 arg6 harg6 arg7 harg7 arg8 harg8 arg9 harg9 hc0 hc1 xq xk xv).2.1 S1x1.size (by sl_kernel_rfl) y

/-- The running denominator after the first tile: the pieces read back over junk. -/
def lAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) : Vec F S1x1 .f32 :=
  viewL.read (Elt F) (viewL.writes (Elt F) viewL.junk (runFirst c i arg1 harg1 arg2 harg2 arg3 harg3 arg4 harg4 arg5 harg5 arg6 harg6 arg7 harg7 arg8 harg8 arg9 harg9 hc0 hc1 xq xk xv).2.1)

/-- The running weighted sum after the first tile: its pieces cover the buffer (they tile it, checked by evaluating the run's witness). -/
theorem cover_accAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) (y : S1x4096.Idx) :
    ∃ pc ∈ (runFirst c i arg1 harg1 arg2 harg2 arg3 harg3 arg4 harg4 arg5 harg5 arg6 harg6 arg7 harg7 arg8 harg8 arg9 harg9 hc0 hc1 xq xk xv).2.2.1, y ∈ pc.1.set :=
  View.cover_of_tiledL (runFirst c i arg1 harg1 arg2 harg2 arg3 harg3 arg4 harg4 arg5 harg5 arg6 harg6 arg7 harg7 arg8 harg8 arg9 harg9 hc0 hc1 xq xk xv).2.2.1 S1x4096.size (by sl_kernel_rfl) y

/-- The running weighted sum after the first tile: the pieces read back over junk. -/
def accAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) : Vec F S1x4096 .f32 :=
  viewAcc.read (Elt F) (viewAcc.writes (Elt F) viewAcc.junk (runFirst c i arg1 harg1 arg2 harg2 arg3 harg3 arg4 harg4 arg5 harg5 arg6 harg6 arg7 harg7 arg8 harg8 arg9 harg9 hc0 hc1 xq xk xv).2.2.1)

/-- The running maximum after a middle tile: its pieces cover the buffer (they tile it, checked by evaluating the run's witness). -/
theorem cover_mAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runMid c i arg1 harg1 arg2 harg2 arg3 harg3 arg4 harg4 arg5 harg5 arg6 harg6 arg7 harg7 arg8 harg8 arg9 harg9 hc0 hc1 xq xk xv m0 l0 a0).1, y ∈ pc.1.set :=
  View.cover_of_tiledL (runMid c i arg1 harg1 arg2 harg2 arg3 harg3 arg4 harg4 arg5 harg5 arg6 harg6 arg7 harg7 arg8 harg8 arg9 harg9 hc0 hc1 xq xk xv m0 l0 a0).1 S1x1.size (by sl_kernel_rfl) y

/-- The running maximum after a middle tile: the pieces read back over junk. -/
def mAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewM.read (Elt F) (viewM.writes (Elt F) viewM.junk (runMid c i arg1 harg1 arg2 harg2 arg3 harg3 arg4 harg4 arg5 harg5 arg6 harg6 arg7 harg7 arg8 harg8 arg9 harg9 hc0 hc1 xq xk xv m0 l0 a0).1)

/-- The running denominator after a middle tile: its pieces cover the buffer (they tile it, checked by evaluating the run's witness). -/
theorem cover_lAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runMid c i arg1 harg1 arg2 harg2 arg3 harg3 arg4 harg4 arg5 harg5 arg6 harg6 arg7 harg7 arg8 harg8 arg9 harg9 hc0 hc1 xq xk xv m0 l0 a0).2.1, y ∈ pc.1.set :=
  View.cover_of_tiledL (runMid c i arg1 harg1 arg2 harg2 arg3 harg3 arg4 harg4 arg5 harg5 arg6 harg6 arg7 harg7 arg8 harg8 arg9 harg9 hc0 hc1 xq xk xv m0 l0 a0).2.1 S1x1.size (by sl_kernel_rfl) y

/-- The running denominator after a middle tile: the pieces read back over junk. -/
def lAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewL.read (Elt F) (viewL.writes (Elt F) viewL.junk (runMid c i arg1 harg1 arg2 harg2 arg3 harg3 arg4 harg4 arg5 harg5 arg6 harg6 arg7 harg7 arg8 harg8 arg9 harg9 hc0 hc1 xq xk xv m0 l0 a0).2.1)

/-- The running weighted sum after a middle tile: its pieces cover the buffer (they tile it, checked by evaluating the run's witness). -/
theorem cover_accAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) (y : S1x4096.Idx) :
    ∃ pc ∈ (runMid c i arg1 harg1 arg2 harg2 arg3 harg3 arg4 harg4 arg5 harg5 arg6 harg6 arg7 harg7 arg8 harg8 arg9 harg9 hc0 hc1 xq xk xv m0 l0 a0).2.2.1, y ∈ pc.1.set :=
  View.cover_of_tiledL (runMid c i arg1 harg1 arg2 harg2 arg3 harg3 arg4 harg4 arg5 harg5 arg6 harg6 arg7 harg7 arg8 harg8 arg9 harg9 hc0 hc1 xq xk xv m0 l0 a0).2.2.1 S1x4096.size (by sl_kernel_rfl) y

/-- The running weighted sum after a middle tile: the pieces read back over junk. -/
def accAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) : Vec F S1x4096 .f32 :=
  viewAcc.read (Elt F) (viewAcc.writes (Elt F) viewAcc.junk (runMid c i arg1 harg1 arg2 harg2 arg3 harg3 arg4 harg4 arg5 harg5 arg6 harg6 arg7 harg7 arg8 harg8 arg9 harg9 hc0 hc1 xq xk xv m0 l0 a0).2.2.1)

/-- The maximum output's staging buffer after the last tile: its pieces cover the buffer (they tile it, checked by evaluating the run's witness). -/
theorem cover_outMAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runLast c i arg1 harg1 arg2 harg2 arg3 harg3 arg4 harg4 arg5 harg5 arg6 harg6 arg7 harg7 arg8 harg8 arg9 harg9 hc0 hc1 xq xk xv m0 l0 a0).1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).1 S1x1.size (by sl_kernel_rfl) y

/-- The maximum output's staging buffer after the last tile: the pieces read back over junk. -/
def outMAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewOutM.read (Elt F) (viewOutM.writes (Elt F) viewOutM.junk (runLast c i arg1 harg1 arg2 harg2 arg3 harg3 arg4 harg4 arg5 harg5 arg6 harg6 arg7 harg7 arg8 harg8 arg9 harg9 hc0 hc1 xq xk xv m0 l0 a0).1)

/-- The denominator output's staging buffer after the last tile: its pieces cover the buffer (they tile it, checked by evaluating the run's witness). -/
theorem cover_outLAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runLast c i arg1 harg1 arg2 harg2 arg3 harg3 arg4 harg4 arg5 harg5 arg6 harg6 arg7 harg7 arg8 harg8 arg9 harg9 hc0 hc1 xq xk xv m0 l0 a0).2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.1 S1x1.size (by sl_kernel_rfl) y

/-- The denominator output's staging buffer after the last tile: the pieces read back over junk. -/
def outLAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewOutL.read (Elt F) (viewOutL.writes (Elt F) viewOutL.junk (runLast c i arg1 harg1 arg2 harg2 arg3 harg3 arg4 harg4 arg5 harg5 arg6 harg6 arg7 harg7 arg8 harg8 arg9 harg9 hc0 hc1 xq xk xv m0 l0 a0).2.1)

/-- The weighted-sum output's staging buffer after the last tile: its pieces cover the buffer (they tile it, checked by evaluating the run's witness). -/
theorem cover_outAccAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x4096.Idx) :
    ∃ pc ∈ (runLast c i arg1 harg1 arg2 harg2 arg3 harg3 arg4 harg4 arg5 harg5 arg6 harg6 arg7 harg7 arg8 harg8 arg9 harg9 hc0 hc1 xq xk xv m0 l0 a0).2.2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.2.1 S1x4096.size (by sl_kernel_rfl) y

/-- The weighted-sum output's staging buffer after the last tile: the pieces read back over junk. -/
def outAccAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x4096 .f32 :=
  viewOutAcc.read (Elt F) (viewOutAcc.writes (Elt F) viewOutAcc.junk (runLast c i arg1 harg1 arg2 harg2 arg3 harg3 arg4 harg4 arg5 harg5 arg6 harg6 arg7 harg7 arg8 harg8 arg9 harg9 hc0 hc1 xq xk xv m0 l0 a0).2.2.1)

/-- The running maximum after the last tile: its pieces cover the buffer (they tile it, checked by evaluating the run's witness). -/
theorem cover_mAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runLast c i arg1 harg1 arg2 harg2 arg3 harg3 arg4 harg4 arg5 harg5 arg6 harg6 arg7 harg7 arg8 harg8 arg9 harg9 hc0 hc1 xq xk xv m0 l0 a0).2.2.2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.2.2.1 S1x1.size (by sl_kernel_rfl) y

/-- The running maximum after the last tile: the pieces read back over junk. -/
def mAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewM.read (Elt F) (viewM.writes (Elt F) viewM.junk (runLast c i arg1 harg1 arg2 harg2 arg3 harg3 arg4 harg4 arg5 harg5 arg6 harg6 arg7 harg7 arg8 harg8 arg9 harg9 hc0 hc1 xq xk xv m0 l0 a0).2.2.2.1)

/-- The running denominator after the last tile: its pieces cover the buffer (they tile it, checked by evaluating the run's witness). -/
theorem cover_lAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runLast c i arg1 harg1 arg2 harg2 arg3 harg3 arg4 harg4 arg5 harg5 arg6 harg6 arg7 harg7 arg8 harg8 arg9 harg9 hc0 hc1 xq xk xv m0 l0 a0).2.2.2.2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.2.2.2.1 S1x1.size (by sl_kernel_rfl) y

/-- The running denominator after the last tile: the pieces read back over junk. -/
def lAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewL.read (Elt F) (viewL.writes (Elt F) viewL.junk (runLast c i arg1 harg1 arg2 harg2 arg3 harg3 arg4 harg4 arg5 harg5 arg6 harg6 arg7 harg7 arg8 harg8 arg9 harg9 hc0 hc1 xq xk xv m0 l0 a0).2.2.2.2.1)

/-- The running weighted sum after the last tile: its pieces cover the buffer (they tile it, checked by evaluating the run's witness). -/
theorem cover_accAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x4096.Idx) :
    ∃ pc ∈ (runLast c i arg1 harg1 arg2 harg2 arg3 harg3 arg4 harg4 arg5 harg5 arg6 harg6 arg7 harg7 arg8 harg8 arg9 harg9 hc0 hc1 xq xk xv m0 l0 a0).2.2.2.2.2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.2.2.2.2.1 S1x4096.size (by sl_kernel_rfl) y

/-- The running weighted sum after the last tile: the pieces read back over junk. -/
def accAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x4096 .f32 :=
  viewAcc.read (Elt F) (viewAcc.writes (Elt F) viewAcc.junk (runLast c i arg1 harg1 arg2 harg2 arg3 harg3 arg4 harg4 arg5 harg5 arg6 harg6 arg7 harg7 arg8 harg8 arg9 harg9 hc0 hc1 xq xk xv m0 l0 a0).2.2.2.2.2.1)

/-! ## Which case a tile is in -/

theorem first_of (t : Fin cfg1.N) (h0 : t.val % 128 = 0) : atFirst (grid1.coords t) := (atFirst_iff t).mpr h0
theorem notFirst_of (t : Fin cfg1.N) (h0 : ¬t.val % 128 = 0) : ¬atFirst (grid1.coords t) := fun h => h0 ((atFirst_iff t).mp h)
theorem last_of (t : Fin cfg1.N) (h1 : t.val % 128 = 127) : atLast (grid1.coords t) := (atLast_iff t).mpr h1
theorem notLast_of (t : Fin cfg1.N) (h1 : ¬t.val % 128 = 127) : ¬atLast (grid1.coords t) := fun h => h1 ((atLast_iff t).mp h)
/-- Tile 0 is not the last of the 128. -/
theorem zero_not_last : ¬(0 : ℕ) % 128 = 127 := by omega
/-- A tile after the first is not tile 0 again: there are 128 of them. -/
theorem succ_not_first (n : ℕ) (hn : n + 1 < cfg1.N) : ¬(n + 1) % 128 = 0 := by
  have hN : n + 1 < 128 := lt_of_lt_of_eq hn (show cfg1.N = 128 from N_1); omega

/-! ## What the outputs and the carried scratch hold after each tile -/

/-- An output's staging buffer before the last tile stores into it: a placeholder nothing consults (the window is
    idle there: neither written back nor read at the next tile). -/
def unsetM : Vec F S1x1 .f32 := viewOutM.read (Elt F) viewOutM.junk
def unsetL : Vec F S1x1 .f32 := viewOutL.read (Elt F) viewOutL.junk
def unsetAcc : Vec F S1x4096 .f32 := viewOutAcc.read (Elt F) viewOutAcc.junk

section State
variable (V : (c : Dev nD) → (b : Ref sig .tc) → Buf (Elt F) ((c : Thread nD τ).loc b))

/-- after the body at position n: ((output 3, output 4, output 5), (scratch m, scratch l, scratch acc)) — THE ONLINE
    SOFTMAX'S RECURRENCE: tile 0 resets the statistics and folds its own tile in; every later tile folds its tile
    into what the tile before left; tile 127 also copies the statistics to the outputs. -/
def stateAt (c : Dev nD) : (n : ℕ) → n < cfg1.N → (Vec F S1x1 .f32 × Vec F S1x1 .f32 × Vec F S1x4096 .f32) × (Vec F S1x1 .f32 × Vec F S1x1 .f32 × Vec F S1x4096 .f32)
  | 0, hn => ((unsetM, unsetL, unsetAcc), (mAfterFirst c (grid1.coords ⟨0, hn⟩) (stQ ⟨0, hn⟩) (hstQ ⟨0, hn⟩) (stK ⟨0, hn⟩) (hstK ⟨0, hn⟩) (stV ⟨0, hn⟩) (hstV ⟨0, hn⟩) (stM ⟨0, hn⟩) (hstM ⟨0, hn⟩) (stL ⟨0, hn⟩) (hstL ⟨0, hn⟩) (stAcc ⟨0, hn⟩) (hstAcc ⟨0, hn⟩) scrM (Memref.isWhole_whole _) scrL (Memref.isWhole_whole _) scrAcc (Memref.isWhole_whole _) (first_of ⟨0, hn⟩ (Nat.zero_mod _)) (notLast_of ⟨0, hn⟩ zero_not_last) (blk V c 0 ⟨0, hn⟩) (blk V c 1 ⟨0, hn⟩) (blk V c 2 ⟨0, hn⟩),
        lAfterFirst c (grid1.coords ⟨0, hn⟩) (stQ ⟨0, hn⟩) (hstQ ⟨0, hn⟩) (stK ⟨0, hn⟩) (hstK ⟨0, hn⟩) (stV ⟨0, hn⟩) (hstV ⟨0, hn⟩) (stM ⟨0, hn⟩) (hstM ⟨0, hn⟩) (stL ⟨0, hn⟩) (hstL ⟨0, hn⟩) (stAcc ⟨0, hn⟩) (hstAcc ⟨0, hn⟩) scrM (Memref.isWhole_whole _) scrL (Memref.isWhole_whole _) scrAcc (Memref.isWhole_whole _) (first_of ⟨0, hn⟩ (Nat.zero_mod _)) (notLast_of ⟨0, hn⟩ zero_not_last) (blk V c 0 ⟨0, hn⟩) (blk V c 1 ⟨0, hn⟩) (blk V c 2 ⟨0, hn⟩),
        accAfterFirst c (grid1.coords ⟨0, hn⟩) (stQ ⟨0, hn⟩) (hstQ ⟨0, hn⟩) (stK ⟨0, hn⟩) (hstK ⟨0, hn⟩) (stV ⟨0, hn⟩) (hstV ⟨0, hn⟩) (stM ⟨0, hn⟩) (hstM ⟨0, hn⟩) (stL ⟨0, hn⟩) (hstL ⟨0, hn⟩) (stAcc ⟨0, hn⟩) (hstAcc ⟨0, hn⟩) scrM (Memref.isWhole_whole _) scrL (Memref.isWhole_whole _) scrAcc (Memref.isWhole_whole _) (first_of ⟨0, hn⟩ (Nat.zero_mod _)) (notLast_of ⟨0, hn⟩ zero_not_last) (blk V c 0 ⟨0, hn⟩) (blk V c 1 ⟨0, hn⟩) (blk V c 2 ⟨0, hn⟩)))
  | n + 1, hn =>
    if h1 : (n + 1) % 128 = 127 then
      ((outMAtLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        outLAtLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        outAccAtLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2),
       (mAfterLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        lAfterLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        accAfterLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2))
    else
      ((unsetM, unsetL, unsetAcc), (mAfterMid c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (notLast_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        lAfterMid c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (notLast_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        accAfterMid c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (notLast_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2))

/-- stateAt at the first tile: the reset and one fold. -/
theorem stateAt_first (c : Dev nD) (t : Fin cfg1.N) (h0 : t.val % 128 = 0) (h1 : ¬t.val % 128 = 127) :
    stateAt V c t.val t.isLt = ((unsetM, unsetL, unsetAcc), (mAfterFirst c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t),
        lAfterFirst c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t),
        accAfterFirst c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t))) := by
  obtain ⟨n, hn⟩ := t
  cases n with
  | zero => exact rfl
  | succ n => exact absurd h0 (succ_not_first n hn)

/-- stateAt at a middle tile: one fold over what the tile before left. -/
theorem stateAt_mid (c : Dev nD) (t : Fin cfg1.N) (h0 : ¬t.val % 128 = 0) (h1 : ¬t.val % 128 = 127) :
    stateAt V c t.val t.isLt = ((unsetM, unsetL, unsetAcc), (mAfterMid c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        lAfterMid c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        accAfterMid c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2)) := by
  obtain ⟨n, hn⟩ := t
  cases n with
  | zero => exact absurd (Nat.zero_mod _) h0
  | succ n => exact (dif_neg h1).trans rfl

/-- stateAt at the last tile: one fold over what the tile before left, and the copy to the outputs. -/
theorem stateAt_last (c : Dev nD) (t : Fin cfg1.N) (h0 : ¬t.val % 128 = 0) (h1 : t.val % 128 = 127) :
    stateAt V c t.val t.isLt = ((outMAtLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        outLAtLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        outAccAtLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2),
       (mAfterLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        lAfterLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        accAfterLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2)) := by
  obtain ⟨n, hn⟩ := t
  cases n with
  | zero => exact absurd (Nat.zero_mod _) h0
  | succ n => exact (dif_pos h1).trans rfl

/-! ## The invariant -/

/-- The region invariant before position n: before the first tile what the launch hands over (every scratch buffer at
    anything); afterwards the projection call's staging buffers, the three scratch buffers at what the tile before left
    in them, and the generator register at some state. -/
def carry (c : Dev nD) : (n : ℕ) → n ≤ cfg1.N → sProp 𝕄
  | 0, _ => Pipeline.ΦA spec1 c
  | n + 1, hn => iprop(iprop(projStaging c ∗ owns (c : Thread nD τ) scrM fullShare (stateAt V c n hn).2.1 ∗ owns (c : Thread nD τ) scrL fullShare (stateAt V c n hn).2.2.1 ∗ owns (c : Thread nD τ) scrAcc fullShare (stateAt V c n hn).2.2.2) ∗ (∃ r, prngReg c r))

theorem carry_zero (c : Dev nD) (n : ℕ) (h : n ≤ cfg1.N) (hz : n = 0) : carry V c n h = Pipeline.ΦA spec1 c := by
  subst hz; rfl

/-- After tile n (before tile n + 1): the scratch at that tile's statistics. -/
theorem carry_succ (c : Dev nD) (n : ℕ) (hn : n < cfg1.N) :
    carry V c (n + 1) hn = iprop(iprop(projStaging c ∗ owns (c : Thread nD τ) scrM fullShare (stateAt V c n hn).2.1 ∗ owns (c : Thread nD τ) scrL fullShare (stateAt V c n hn).2.2.1 ∗ owns (c : Thread nD τ) scrAcc fullShare (stateAt V c n hn).2.2.2) ∗ (∃ r, prngReg c r)) := rfl

/-- Before a tile that is not the first: the scratch at what the tile before left. -/
theorem carry_pos (c : Dev nD) (n : ℕ) (h : n ≤ cfg1.N) (hz : n ≠ 0) :
    carry V c n h = iprop(iprop(projStaging c ∗ owns (c : Thread nD τ) scrM fullShare (stateAt V c (n - 1) (by omega)).2.1 ∗ owns (c : Thread nD τ) scrL fullShare (stateAt V c (n - 1) (by omega)).2.2.1 ∗ owns (c : Thread nD τ) scrAcc fullShare (stateAt V c (n - 1) (by omega)).2.2.2) ∗ (∃ r, prngReg c r)) := by
  cases n with
  | zero => exact absurd rfl hz
  | succ n => rfl

/-! ## The proof data -/

/-- The proof data of the attention call on core c: the arrays as the region finds them; after the body at tile t each
    input's buffer at its block and the outputs' at stateAt's output components; the invariant carry; nothing owed;
    full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (stateAt V c t.val t.isLt).1.1
    | ⟨4, _⟩ => (stateAt V c t.val t.isLt).1.2.1
    | ⟨5, _⟩ => (stateAt V c t.val t.isLt).1.2.2
  Φ t := carry V c t.val (Nat.le_of_lt_succ t.isLt)
  q _ := fullShare
  owed _ := 0

/-- The proof data's arrays are the region-entry contents (the definition projected, V never unfolded). -/
theorem A_eq (c : Dev nD) (w : Fin cfg1.W) : (dat V c).A w = V c (Pipeline.arrRef spec1 w) := by
  dsimp only [dat]

/-- The invariant at a tile's start, restated at the tile's number. -/
theorem carry_castSucc (c : Dev nD) (t : Fin cfg1.N) :
    (dat V c).Φ t.castSucc = carry V c t.val (Nat.le_of_lt t.isLt) := by
  dsimp only [dat]; simp only [Fin.coe_castSucc]

/-- What the body leaves, window by window. -/
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = (stateAt V c t.val t.isLt).1.1 := by dsimp only [dat]
theorem after_4 (c : Dev nD) (t : Fin cfg1.N) : (dat V c).after 4 t = (stateAt V c t.val t.isLt).1.2.1 := by dsimp only [dat]
theorem after_5 (c : Dev nD) (t : Fin cfg1.N) : (dat V c).after 5 t = (stateAt V c t.val t.isLt).1.2.2 := by dsimp only [dat]

/-- Each input's current staging buffer holds its block at every tile, fetched there or not. -/
theorem before_q (c : Dev nD) (t : Fin cfg1.N) (d) : (dat V c).before 0 t d = blk V c 0 t :=
  before_q_of V (dat V c) (A_eq V c 0) (after_0 V c) t d
theorem before_k (c : Dev nD) (t : Fin cfg1.N) (d) : (dat V c).before 1 t d = blk V c 1 t :=
  before_k_of V (dat V c) (A_eq V c 1) (after_1 V c) t d
theorem before_v (c : Dev nD) (t : Fin cfg1.N) (d) : (dat V c).before 2 t d = blk V c 2 t :=
  before_v_of V (dat V c) (A_eq V c 2) (after_2 V c) t d

/-- The inputs are left at their blocks. -/
theorem leaves_q (c : Dev nD) (t : Fin cfg1.N) : (dat V c).leavesExact 0 t = owns (c : Thread nD τ) (stQ t) fullShare (blk V c 0 t) := by
  unfold Dat.leavesExact; rw [live_q t, after_0]
theorem leaves_k (c : Dev nD) (t : Fin cfg1.N) : (dat V c).leavesExact 1 t = owns (c : Thread nD τ) (stK t) fullShare (blk V c 1 t) := by
  unfold Dat.leavesExact; rw [live_k t, after_1]
theorem leaves_v (c : Dev nD) (t : Fin cfg1.N) : (dat V c).leavesExact 2 t = owns (c : Thread nD τ) (stV t) fullShare (blk V c 2 t) := by
  unfold Dat.leavesExact; rw [live_v t, after_2]
/-- At the last tile the outputs are left at stateAt's output components. -/
theorem leaves_m_last (c : Dev nD) (t : Fin cfg1.N) (h : atLast (grid1.coords t)) : (dat V c).leavesExact 3 t = owns (c : Thread nD τ) (stM t) fullShare (stateAt V c t.val t.isLt).1.1 := by
  unfold Dat.leavesExact; rw [live_m t h, after_3]
theorem leaves_l_last (c : Dev nD) (t : Fin cfg1.N) (h : atLast (grid1.coords t)) : (dat V c).leavesExact 4 t = owns (c : Thread nD τ) (stL t) fullShare (stateAt V c t.val t.isLt).1.2.1 := by
  unfold Dat.leavesExact; rw [live_l t h, after_4]
theorem leaves_acc_last (c : Dev nD) (t : Fin cfg1.N) (h : atLast (grid1.coords t)) : (dat V c).leavesExact 5 t = owns (c : Thread nD τ) (stAcc t) fullShare (stateAt V c t.val t.isLt).1.2.2 := by
  unfold Dat.leavesExact; rw [live_acc t h, after_5]

/-! ## The body obligation, at a generic tile -/

/-- What the body is called with at tile t, the windows one by one, -/
def bodyPre (c : Dev nD) (t : Fin cfg1.N) : sProp 𝕄 :=
  iprop((dat V c).Φ t.castSucc ∗ (dat V c).owesAt () t.castSucc
    ∗ (∃ d, owns (c : Thread nD τ) (stQ t) fullShare ((dat V c).before 0 t d))
    ∗ (∃ d, owns (c : Thread nD τ) (stK t) fullShare ((dat V c).before 1 t d))
    ∗ (∃ d, owns (c : Thread nD τ) (stV t) fullShare ((dat V c).before 2 t d))
    ∗ (∃ d, owns (c : Thread nD τ) (stM t) fullShare ((dat V c).before 3 t d))
    ∗ (∃ d, owns (c : Thread nD τ) (stL t) fullShare ((dat V c).before 4 t d))
    ∗ (∃ d, owns (c : Thread nD τ) (stAcc t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
/-- The body at any tile: the inputs' memrefs hold their blocks; the tile's number says which case it is in; so that
    case's run applies; the invariant hands the body the scratch at what the tile before left (at anything at the first
    tile) and takes it back at this tile's statistics (the pieces cover each buffer); before the last tile the outputs
    are handed back as found, at the last tile they are left at the copied statistics; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).owesAt () t.succ = (dat V c).owesAt () t.castSucc from rfl]
  rw [show (dat V c).Φ t.succ = carry V c (t.val + 1) t.isLt from rfl, carry_succ]
  rw [leaves_q, leaves_k, leaves_v]
  have hN : t.val < 128 := lt_of_lt_of_eq t.isLt (show cfg1.N = 128 from N_1)
  by_cases h0 : t.val % 128 = 0
  · have h1 : ¬t.val % 128 = 127 := by omega
    have hz : t.val = 0 := by omega
    rw [Dat.leavesExact_idle (dat V c) 3 t (idle_m t (notLast_of t h1)) (noFlush_m t (notLast_of t h1)),
      Dat.leavesExact_idle (dat V c) 4 t (idle_l t (notLast_of t h1)) (noFlush_l t (notLast_of t h1)),
      Dat.leavesExact_idle (dat V c) 5 t (idle_acc t (notLast_of t h1)) (noFlush_acc t (notLast_of t h1))]
    rw [stateAt_first V c t h0 h1]
    unfold mAfterFirst lAfterFirst accAfterFirst; (try dsimp only)
    rw [carry_castSucc V c t, carry_zero V c _ _ hz, PhiA_eq]
    iintro ⟨⟨⟨Hp, HS0, HS1, HS2⟩, Hg⟩, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ _ _ _ _ _ _ (first_of t h0) (notLast_of t h1) (blk V c 0 t) (blk V c 1 t) (blk V c 2 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%e0, HS0⟩, ⟨%e1, HS1⟩, ⟨%e2, HS2⟩⟩
    isplitl [Hp HS0 HS1 HS2 Hg]
    · isplitl [Hp HS0 HS1 HS2]
      · isplitl [Hp]; · iexact Hp
        isplitl [HS0]
        · unfold owns; iexists _; isplitr
          swap; · iexact HS0
          ipureintro; exact View.read_writes_of_cover _ _ _ _ _ (cover_mAfterFirst c _ _ _ _ _ _ _ _ _ _ _ _ _ _ _ _ _ _ _ _ _ _ _ _)
        isplitl [HS1]
        · unfold owns; iexists _; isplitr
          swap; · iexact HS1
          ipureintro; exact View.read_writes_of_cover _ _ _ _ _ (cover_lAfterFirst c _ _ _ _ _ _ _ _ _ _ _ _ _ _ _ _ _ _ _ _ _ _ _ _)
        unfold owns; iexists _; isplitr
        swap; · iexact HS2
        ipureintro; exact View.read_writes_of_cover _ _ _ _ _ (cover_accAfterFirst c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5
  · have hz : t.val ≠ 0 := by omega
    by_cases h1 : t.val % 128 = 127
    · rw [leaves_m_last V c t (last_of t h1), leaves_l_last V c t (last_of t h1), leaves_acc_last V c t (last_of t h1)]
      rw [stateAt_last V c t h0 h1]
      unfold outMAtLast outLAtLast outAccAtLast mAfterLast lAfterLast accAfterLast; (try dsimp only)
      rw [carry_castSucc V c t, carry_pos V c _ _ hz]
      iintro ⟨⟨⟨Hp, HS0, HS1, HS2⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ _ _ _ _ (notFirst_of t h0) (last_of t h1) (blk V c 0 t) (blk V c 1 t) (blk V c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%o3, H3⟩, ⟨%o4, H4⟩, ⟨%o5, H5⟩, ⟨%e0, HS0⟩, ⟨%e1, HS1⟩, ⟨%e2, HS2⟩⟩
      isplitl [Hp HS0 HS1 HS2 Hg]
      · isplitl [Hp HS0 HS1 HS2]
        · isplitl [Hp]; · iexact Hp
          isplitl [HS0]
          · unfold owns; iexists _; isplitr
            swap; · iexact HS0
            ipureintro; exact View.read_writes_of_cover _ _ _ _ _ (cover_mAfterLast c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover_lAfterLast c _ _ _ _ _ _ _ _ _ _ _ _ _ _ _ _ _ _ _ _ _ _ _ _ _ _ _)
          unfold owns; iexists _; isplitr
          swap; · iexact HS2
          ipureintro; exact View.read_writes_of_cover _ _ _ _ _ (cover_accAfterLast c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_outMAtLast c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover_outLAtLast c _ _ _ _ _ _ _ _ _ _ _ _ _ _ _ _ _ _ _ _ _ _ _ _ _ _ _)
      unfold owns; iexists _; isplitr
      swap; · iexact H5
      ipureintro; exact View.read_writes_of_cover _ _ _ _ _ (cover_outAccAtLast c _ _ _ _ _ _ _ _ _ _ _ _ _ _ _ _ _ _ _ _ _ _ _ _ _ _ _)
    · rw [Dat.leavesExact_idle (dat V c) 3 t (idle_m t (notLast_of t h1)) (noFlush_m t (notLast_of t h1)),
        Dat.leavesExact_idle (dat V c) 4 t (idle_l t (notLast_of t h1)) (noFlush_l t (notLast_of t h1)),
        Dat.leavesExact_idle (dat V c) 5 t (idle_acc t (notLast_of t h1)) (noFlush_acc t (notLast_of t h1))]
      rw [stateAt_mid V c t h0 h1]
      unfold mAfterMid lAfterMid accAfterMid; (try dsimp only)
      rw [carry_castSucc V c t, carry_pos V c _ _ hz]
      iintro ⟨⟨⟨Hp, HS0, HS1, HS2⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ _ _ _ _ (notFirst_of t h0) (notLast_of t h1) (blk V c 0 t) (blk V c 1 t) (blk V c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%e0, HS0⟩, ⟨%e1, HS1⟩, ⟨%e2, HS2⟩⟩
      isplitl [Hp HS0 HS1 HS2 Hg]
      · isplitl [Hp HS0 HS1 HS2]
        · isplitl [Hp]; · iexact Hp
          isplitl [HS0]
          · unfold owns; iexists _; isplitr
            swap; · iexact HS0
            ipureintro; exact View.read_writes_of_cover _ _ _ _ _ (cover_mAfterMid c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover_lAfterMid c _ _ _ _ _ _ _ _ _ _ _ _ _ _ _ _ _ _ _ _ _ _ _ _ _ _ _)
          unfold owns; iexists _; isplitr
          swap; · iexact HS2
          ipureintro; exact View.read_writes_of_cover _ _ _ _ _ (cover_accAfterMid c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every tile. -/
theorem body_obligation (c : Dev nD) : BodyObligation (dat (F := F) V c) (defs₀ (F := F)) Variants.none () Set.univ := fun t => by
  rw [bigSep_W1, bigSep_W1]
  exact sound_body V c t

/-- What the launch hands the region is the invariant before the first tile. -/
theorem hin (c : Dev nD) : Pipeline.ΦA spec1 c ⊢ (dat V c).Φ 0 := by
  rw [show (dat V c).Φ 0 = carry V c 0 (Nat.zero_le _) from rfl, carry_zero V c 0 _ rfl]
  try exact Idealize.SL.BI.Entails.refl _

/-- After any tile the invariant gives the launch's back: the scratch's named contents are forgotten. -/
theorem carry_out (c : Dev nD) (t : Fin (cfg1.N + 1)) (ht : t.val ≠ 0) : (dat V c).Φ t ⊢ Pipeline.ΦA spec1 c := by
  rw [show (dat V c).Φ t = carry V c t.val (Nat.le_of_lt_succ t.isLt) from rfl, carry_pos V c _ _ ht, PhiA_eq]
  iintro ⟨⟨Hp, HS0, HS1, HS2⟩, Hg⟩
  isplitl [Hp HS0 HS1 HS2]
  · isplitl [Hp]; · iexact Hp
    isplitl [HS0]; · iexists _; iexact HS0
    isplitl [HS1]; · iexists _; iexact HS1
    iexists _; iexact HS2
  iexact Hg

/-- The same after the last tile. -/
theorem hout (c : Dev nD) : (dat V c).Φ (Fin.last cfg1.N) ⊢ Pipeline.ΦA spec1 c :=
  carry_out V c _ (by rw [Fin.val_last]; have : cfg1.N = 128 := N_1; omega)

end State

end Cert.Kernel.Flash

end
-- ==== Proof.BitsRun.lean ====
/-
  The whole program as a run: the projection region, the flash region, then the host operations that merge the freshly
  projected key and value into the accumulated statistics.

  Between two items every unscoped buffer of a core is held at named contents: the launch memory; after a region, its arrays at
  what its write-backs leave and every other buffer as before; after the host stretch, the operations' results. Each region is
  entered from those contents with the generator register at some state and nothing owed, and leaves the same way; the proof data
  of each region are taken at the contents it is entered with. The run ends with every unscoped buffer read at the last contents:
  from that reading follow both the frame (no item writes an argument) and the value of the result buffer.
-/
import proofs.«148700_j48034914238768_1_alg».proof.Proof.BitsProj
import proofs.«148700_j48034914238768_1_alg».proof.Proof.BitsFlash
import proofs.«148700_j48034914238768_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references: what the projection region is entered with. -/
abbrev V0 : (c : Dev nD) → (b : Ref sig .tc) → Buf (Elt F) ((c : Thread nD τ).loc b) := fun c b => W0 m c b
/-- After the projection region: its arrays at what its write-backs leave, every other buffer as launched. -/
def W1 (c : Dev nD) : Valuation τ sig (Elt F) :=
  Pipeline.withArrays spec0 c (W0 m c) fun w => (Proj.dat (V0 m) c).arrAt w cfg0.N
theorem W1_arr (c : Dev nD) (w : Fin cfg0.W) :
    W1 m c (Proc.devRef .tc (Pipeline.arrRef spec0 w)) = (Proj.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the flash region is entered with. -/
abbrev V1 : (c : Dev nD) → (b : Ref sig .tc) → Buf (Elt F) ((c : Thread nD τ).loc b) := fun c b => W1 m c b
theorem hF0 (c : Dev nD) (w : Fin cfg0.W) : (Proj.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the flash region: its arrays at what its write-backs leave, every other buffer as it was entered. -/
def W2 (c : Dev nD) : Valuation τ sig (Elt F) :=
  Pipeline.withArrays spec1 c (W1 m c) fun w => (Flash.dat (V1 m) c).arrAt w cfg1.N
theorem W2_arr (c : Dev nD) (w : Fin cfg1.W) :
    W2 m c (Proc.devRef .tc (Pipeline.arrRef spec1 w)) = (Flash.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Flash.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations that merge the appended token. -/
abbrev W3 : Dev nD → Valuation τ sig (Elt F) := fun c => StableHlo.after hostOps2 (W2 m c)

/-! ### The arguments end as launched: a region reads one through an input window or bypasses it, and no host operation
    writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := W2_of_ne m c main_arg0 (by decide)
    _ = W0 m c (Proc.devRef .tc main_arg0) := (W1_arr m c 0).trans (((Proj.dat (V0 m) c).arrAt_in 0 rfl _).trans (Proj.A_eq (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 1).trans (((Flash.dat (V1 m) c).arrAt_in 1 rfl _).trans (Flash.A_eq (V1 m) c 1))
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_writes_sub hostOps2 _ hostOps2_writes (by decide)
    _ = W1 m c (Proc.devRef .tc main_arg2) := (W2_arr m c 2).trans (((Flash.dat (V1 m) c).arrAt_in 2 rfl _).trans (Flash.A_eq (V1 m) c 2))
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_writes_sub hostOps2 _ hostOps2_writes (by decide)
    _ = W1 m c (Proc.devRef .tc main_arg3) := W2_of_ne m c main_arg3 (by decide)
    _ = W0 m c (Proc.devRef .tc main_arg3) := (W1_arr m c 1).trans (((Proj.dat (V0 m) c).arrAt_in 1 rfl _).trans (Proj.A_eq (V0 m) c 1))
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_writes_sub hostOps2 _ hostOps2_writes (by decide)
    _ = W1 m c (Proc.devRef .tc main_arg4) := W2_of_ne m c main_arg4 (by decide)
    _ = W0 m c (Proc.devRef .tc main_arg4) := (W1_arr m c 2).trans (((Proj.dat (V0 m) c).arrAt_in 2 rfl _).trans (Proj.A_eq (V0 m) c 2))
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_writes_sub hostOps2 _ hostOps2_writes (by decide)
    _ = W1 m c (Proc.devRef .tc main_arg5) := W2_of_ne m c main_arg5 (by decide)
    _ = W0 m c (Proc.devRef .tc main_arg5) := (W1_arr m c 3).trans (((Proj.dat (V0 m) c).arrAt_in 3 rfl _).trans (Proj.A_eq (V0 m) c 3))
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_writes_sub hostOps2 _ hostOps2_writes (by decide)
    _ = W1 m c (Proc.devRef .tc main_arg6) := W2_of_ne m c main_arg6 (by decide)
    _ = W0 m c (Proc.devRef .tc main_arg6) := (W1_arr m c 4).trans (((Proj.dat (V0 m) c).arrAt_in 4 rfl _).trans (Proj.A_eq (V0 m) c 4))
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_writes_sub hostOps2 _ hostOps2_writes (by decide)
    _ = W1 m c (Proc.devRef .tc main_arg7) := W2_of_ne m c main_arg7 (by decide)
    _ = W0 m c (Proc.devRef .tc main_arg7) := (W1_arr m c 5).trans (((Proj.dat (V0 m) c).arrAt_in 5 rfl _).trans (Proj.A_eq (V0 m) c 5))
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := StableHlo.after_of_writes_sub hostOps2 _ hostOps2_writes (by decide)
    _ = W1 m c (Proc.devRef .tc main_arg8) := W2_of_ne m c main_arg8 (by decide)
    _ = W0 m c (Proc.devRef .tc main_arg8) := (W1_arr m c 6).trans (((Proj.dat (V0 m) c).arrAt_in 6 rfl _).trans (Proj.A_eq (V0 m) c 6))
    _ = m ((c : Thread nD τ).loc main_arg8) := rfl

/-! ## The proof data family and the thread state -/

/-- Every region's proof data, each at the contents the region is entered with. -/
def pdats : (p : Fin 2) → (c : Dev nD) → Dat τ (Elt F) Unit ℕ (UR sig nD τ) ℕ (Pipeline.pin (pcfgs (F := F)) adm p) c
  | ⟨0, _⟩ => fun c => Proj.dat (V0 m) c
  | ⟨1, _⟩ => fun c => Flash.dat (V1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)

/-- The host stretch as an item, from the contents `W`. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The projection region: entered from every unscoped buffer at the launch contents, left at `W1`. Its arrays are split out of
    the unscoped buffers and put back at the exit contents; the generator register goes into the invariant and comes out; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V0 m) c).loose
  hwaits := Pipeline.hwaits_of_owed_zero _ _ _ _ L lv 0 fun _ _ => rfl
  pre c := iprop(StableHlo.held (c : Thread nD τ) (Pipeline.ucRefs τ sig) (W0 m c) ∗ Rest c)
  post c := iprop(StableHlo.held (c : Thread nD τ) (Pipeline.ucRefs τ sig) (W1 m c) ∗ Rest c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The flash region: entered from every unscoped buffer at `W1`, left at `W2`. The same protocol; its invariant starts from the
    untouched rest and gives it back after the last point (`Flash.hin`, `Flash.hout`): the scratch it carries between points is
    named only inside the region. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Flash.body_obligation (V1 m) c).loose
  hwaits := Pipeline.hwaits_of_owed_zero _ _ _ _ L lv 1 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (Flash.hin (V1 m) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (Flash.hout (V1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .region (reg0 m), .region (reg1 m), .host (hseg (W2 m)) ]

theorem main_run (c : Dev nD) : main (F := F) c = Pipeline.Seg.run (segs m) := (main_chain c).trans (by chain_rfl)

set_option backward.isDefEq.respectTransparency.types false in
/-- THE RUN. From any memory with zero counters every weakly fair execution of the program terminates, nothing faulting, and in
    every final state each unscoped buffer of each core holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ m)
    (hch := ⟨fun _ => .rfl, fun _ => .rfl, fun _ => .rfl, fun c => show iprop(StableHlo.held (c : Thread nD τ) (Pipeline.ucRefs τ sig) (W3 m c) ∗ Rest c)
          ⊢ (iprop(Tₙ m c ∗ ∃ W, owes (c : Thread nD τ) (0 : CellTallies nD τ sig Unit) W) : sProp 𝕄) from by
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME, at any float instance: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_all m ρ)

/-- THE RUN WITH THE RESULT NAMED: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v20) = W3 m c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v20 (by decide)), (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_all m ρ)

end Cert.Kernel.Whole

end
-- ==== Proof.IdealProj.lean ====
/-
  The frame of the projection kernel (the first pallas_call): q, k and v as three products of the one input row with 256-row
  tiles of the three weight matrices, plus the bias tiles, one tile per grid point (16 points).

  At every point the body reads its seven input blocks — the row x, and per projection a 256×4096 weight tile and a 256-entry
  bias tile — and stores one 1×256 block into each of the three outputs; it keeps nothing between points. So after the body each
  output's staging buffer holds ONE whole-block store of a pure function of the input blocks (`outQ`, `outK`, `outV`), the inputs
  are handed back as they were, and the region's invariant is the untouched rest. Everything is stated at the contents `V` the
  region is entered with, and for any float instance.
-/
import proofs.«148700_j48034914238768_1_alg».proof.Proof.Gen.KernelIdeal.Launch
import proofs.«148700_j48034914238768_1_alg».proof.Proof.Gen.KernelIdeal.Skeleton
import proofs.«148700_j48034914238768_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched window's
    block index has not moved), for any proof data whose array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole block -/

abbrev rX : Rect S1x4096 := Rect.unit (s := S1x4096) ![0, 0] S1x4096.size inb_S1x4096_S1x4096_0_0
abbrev rW : Rect S256x4096 := Rect.unit (s := S256x4096) ![0, 0] S256x4096.size inb_S256x4096_S256x4096_0_0
abbrev rB : Rect S256 := Rect.unit (s := S256) ![0] S256.size inb_S256_S256_0
abbrev rO : Rect S1x256 := Rect.unit (s := S1x256) ![0, 0] S1x256.size inb_S1x256_S1x256_0_0

/-! ## What the body leaves in each output's buffer: one whole-block store of the projection of the point's blocks -/

/-- The q tile: x · Wqᵀ + bq over the point's 256 rows of Wq. -/
def outQ (x0 : Vec F S1x4096 .f32) (x1 : Vec F S256x4096 .f32) (x2 : Vec F S256 .f32) : Vec F S1x256 .f32 :=
  View.canon [⟨rO, k0_pay2 (View.ld x0 rX) (View.ld x1 rW) (View.ld x2 rB)⟩]
/-- The k tile. -/
def outK (x0 : Vec F S1x4096 .f32) (x3 : Vec F S256x4096 .f32) (x4 : Vec F S256 .f32) : Vec F S1x256 .f32 :=
  View.canon [⟨rO, k0_pay3 (View.ld x0 rX) (View.ld x3 rW) (View.ld x4 rB)⟩]
/-- The v tile. -/
def outV (x0 : Vec F S1x4096 .f32) (x5 : Vec F S256x4096 .f32) (x6 : Vec F S256 .f32) : Vec F S1x256 .f32 :=
  View.canon [⟨rO, k0_pay4 (View.ld x0 rX) (View.ld x5 rW) (View.ld x6 rB)⟩]

/-- One whole-block store covers the block. -/
theorem coverO (p0 : Vec F S1x256 .f32) (y : S1x256.Idx) :
    ∃ pc ∈ ([⟨rO, p0⟩] : List (View.Piece (Elt F) S1x256 .f32)), y ∈ pc.1.set :=
  View.cover_of_tiled [⟨rO, p0⟩] S1x256.size (by rfl) y

/-! ## The body's triple -/

set_option maxHeartbeats 2000000 in
/-- On whole staging memrefs, the inputs' at contents `xW` and the outputs' at anything, the body runs to the continuation
    holding the inputs' as they were and the three outputs' at the projections of the inputs'. -/
theorem sound_kernel (c : Dev nD) (E : Set ℕ) (i : grid0.Coords) (arg1 : Memref sig .tc .vmem S1x4096 .f32) (harg1 : arg1.IsWhole) (arg2 : Memref sig .tc .vmem S256x4096 .f32) (harg2 : arg2.IsWhole) (arg3 : Memref sig .tc .vmem S256 .f32) (harg3 : arg3.IsWhole) (arg4 : Memref sig .tc .vmem S256x4096 .f32) (harg4 : arg4.IsWhole) (arg5 : Memref sig .tc .vmem S256 .f32) (harg5 : arg5.IsWhole) (arg6 : Memref sig .tc .vmem S256x4096 .f32) (harg6 : arg6.IsWhole) (arg7 : Memref sig .tc .vmem S256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (x0 : Vec F S1x4096 .f32) (x1 : Vec F S256x4096 .f32) (x2 : Vec F S256 .f32) (x3 : Vec F S256x4096 .f32) (x4 : Vec F S256 .f32) (x5 : Vec F S256x4096 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outQ x0 x1 x2) ∗ owns (c : Thread nD τ) arg9 fullShare (outK x0 x3 x4) ∗ owns (c : Thread nD τ) arg10 fullShare (outV x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  isplitl [H8]
  · iexists _; isplitr
    swap; · iexact H8
    ipureintro
    exact View.read_writes_eq_canon _ _ _ (coverO _)
  iexists _; isplitr
  swap; · iexact H9
  ipureintro
  exact View.read_writes_eq_canon _ _ _ (coverO _)

/-! ## The region's proof data -/

/-- The proof data of the projection region on core `c`: the arrays as the region finds them; after the body at point `t` each
    input's buffer at its block and each output's at the projection of the point's blocks; the invariant the untouched rest;
    nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outQ (blk V c 0 t) (blk V c 1 t) (blk V c 2 t)
    | ⟨8, _⟩ => outK (blk V c 0 t) (blk V c 3 t) (blk V c 4 t)
    | ⟨9, _⟩ => outV (blk V c 0 t) (blk V c 5 t) (blk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = outQ (blk V c 0 t) (blk V c 1 t) (blk V c 2 t) := by dsimp only [dat]
theorem after_8 (c : Dev nD) (t : Fin cfg0.N) : (dat V c).after 8 t = outK (blk V c 0 t) (blk V c 3 t) (blk V c 4 t) := by dsimp only [dat]
theorem after_9 (c : Dev nD) (t : Fin cfg0.N) : (dat V c).after 9 t = outV (blk V c 0 t) (blk V c 5 t) (blk V c 6 t) := by dsimp only [dat]

theorem before_0 (c : Dev nD) (t : Fin cfg0.N) (d) : (dat V c).before 0 t d = blk V c 0 t :=
  before_0_of V (dat V c) (A_eq V c 0) (after_0 V c) t d
theorem before_1 (c : Dev nD) (t : Fin cfg0.N) (d) : (dat V c).before 1 t d = blk V c 1 t :=
  before_1_of V (dat V c) (A_eq V c 1) (after_1 V c) t d
theorem before_2 (c : Dev nD) (t : Fin cfg0.N) (d) : (dat V c).before 2 t d = blk V c 2 t :=
  before_2_of V (dat V c) (A_eq V c 2) (after_2 V c) t d
theorem before_3 (c : Dev nD) (t : Fin cfg0.N) (d) : (dat V c).before 3 t d = blk V c 3 t :=
  before_3_of V (dat V c) (A_eq V c 3) (after_3 V c) t d
theorem before_4 (c : Dev nD) (t : Fin cfg0.N) (d) : (dat V c).before 4 t d = blk V c 4 t :=
  before_4_of V (dat V c) (A_eq V c 4) (after_4 V c) t d
theorem before_5 (c : Dev nD) (t : Fin cfg0.N) (d) : (dat V c).before 5 t d = blk V c 5 t :=
  before_5_of V (dat V c) (A_eq V c 5) (after_5 V c) t d
theorem before_6 (c : Dev nD) (t : Fin cfg0.N) (d) : (dat V c).before 6 t d = blk V c 6 t :=
  before_6_of V (dat V c) (A_eq V c 6) (after_6 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.IdealFlashBase.lean ====
import proofs.«148700_j48034914238768_1_alg».proof.Proof.Gen.KernelIdeal.Launch
import proofs.«148700_j48034914238768_1_alg».proof.Proof.Gen.KernelIdeal.Skeleton
import proofs.«148700_j48034914238768_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 256 x 4096 extents: the structural look recurses once per coordinate of the long axes
set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call's frame: what its three control cases share

The second call streams the key and value caches through the core in 128 tiles of 256 rows and keeps the running
maximum m, the running denominator l and the running weighted sum acc of the online softmax in three scratch
buffers carried from tile to tile. The first tile resets the three; the last tile copies them to the three outputs.
Everything here is stated at a parameter V: the core's buffer contents when the call is entered. -/

section Blocks
variable (V : (c : Dev nD) → (b : Ref sig .tc) → Buf (Elt F) ((c : Thread nD τ).loc b))

/-- window w's block at point t, read off its array as the region finds it -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query row's staging buffer holds the query at every tile, though it is fetched at the first tile only: its
    block index never moves, the window is uncut and never idle. -/
theorem before_q_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The key tile's staging buffer holds tile t of the key cache. -/
theorem before_k_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The value tile's staging buffer holds tile t of the value cache. -/
theorem before_v_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

end Blocks

/-! ## The two tests on the tile number -/

/-- The test guarding the reset of the running statistics (the scalar chain of the body's first branch): the tile is the first. -/
abbrev atFirst (i : grid1.Coords) : Prop := (Scalar.cmpi .ne (Scalar.extui (Scalar.cmpi .eq (BitVec.ofNat 32 (i 0).val) 0#32)) 0#32) = 1#1
/-- It holds at tile 0 only. -/
theorem atFirst_iff : ∀ t : Fin cfg1.N, atFirst (grid1.coords t) ↔ t.val % 128 = 0 :=
  (by decide +kernel : ∀ t : Fin grid1.N, atFirst (grid1.coords t) ↔ t.val % 128 = 0)

/-- The test guarding the copy of the statistics to the outputs: the tile is the last. -/
abbrev atLast (i : grid1.Coords) : Prop := k1_cond2 i = 1#1
/-- It holds at tile 127 only. -/
theorem atLast_iff : ∀ t : Fin cfg1.N, atLast (grid1.coords t) ↔ t.val % 128 = 127 :=
  (by decide +kernel : ∀ t : Fin grid1.N, atLast (grid1.coords t) ↔ t.val % 128 = 127)

/-! ## Where the windows are idle -/

/-- The three inputs are never idle. -/
theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Before the last tile nothing is stored into the three outputs: they are idle there, -/
theorem idle_m : ∀ t : Fin cfg1.N, ¬atLast (grid1.coords t) → cfg1.idle 3 (grid1.coords t) = true := by decide +kernel
theorem idle_l : ∀ t : Fin cfg1.N, ¬atLast (grid1.coords t) → cfg1.idle 4 (grid1.coords t) = true := by decide +kernel
theorem idle_acc : ∀ t : Fin cfg1.N, ¬atLast (grid1.coords t) → cfg1.idle 5 (grid1.coords t) = true := by decide +kernel
/-- and not written back, -/
theorem noFlush_m : ∀ t : Fin cfg1.N, ¬atLast (grid1.coords t) → (cfg1.win 3).flush t = false := by decide +kernel
theorem noFlush_l : ∀ t : Fin cfg1.N, ¬atLast (grid1.coords t) → (cfg1.win 4).flush t = false := by decide +kernel
theorem noFlush_acc : ∀ t : Fin cfg1.N, ¬atLast (grid1.coords t) → (cfg1.win 5).flush t = false := by decide +kernel
/-- while the last tile stores into all three. -/
theorem live_m : ∀ t : Fin cfg1.N, atLast (grid1.coords t) → cfg1.idle 3 (grid1.coords t) = false := by decide +kernel
theorem live_l : ∀ t : Fin cfg1.N, atLast (grid1.coords t) → cfg1.idle 4 (grid1.coords t) = false := by decide +kernel
theorem live_acc : ∀ t : Fin cfg1.N, atLast (grid1.coords t) → cfg1.idle 5 (grid1.coords t) = false := by decide +kernel

/-! ## The memrefs the body is called on -/

/-- Each window's current staging memref at tile t, spelled as the pipeline passes it, and its wholeness. -/
abbrev stQ (t : Fin cfg1.N) : Memref sig .tc .vmem S1x4096 .f32 := win1_0.stage (cfg1.slots t 0)
abbrev hstQ (t : Fin cfg1.N) : (stQ t).IsWhole := hstage1_0 ((cfg1.slots t 0).cast nbuf1_0)
abbrev stK (t : Fin cfg1.N) : Memref sig .tc .vmem S256x4096 .f32 := win1_1.stage (cfg1.slots t 1)
abbrev hstK (t : Fin cfg1.N) : (stK t).IsWhole := hstage1_1 ((cfg1.slots t 1).cast nbuf1_1)
abbrev stV (t : Fin cfg1.N) : Memref sig .tc .vmem S256x4096 .f32 := win1_2.stage (cfg1.slots t 2)
abbrev hstV (t : Fin cfg1.N) : (stV t).IsWhole := hstage1_2 ((cfg1.slots t 2).cast nbuf1_2)
abbrev stM (t : Fin cfg1.N) : Memref sig .tc .vmem S1x1 .f32 := win1_3.stage (cfg1.slots t 3)
abbrev hstM (t : Fin cfg1.N) : (stM t).IsWhole := hstage1_3 ((cfg1.slots t 3).cast nbuf1_3)
abbrev stL (t : Fin cfg1.N) : Memref sig .tc .vmem S1x1 .f32 := win1_4.stage (cfg1.slots t 4)
abbrev hstL (t : Fin cfg1.N) : (stL t).IsWhole := hstage1_4 ((cfg1.slots t 4).cast nbuf1_4)
abbrev stAcc (t : Fin cfg1.N) : Memref sig .tc .vmem S1x4096 .f32 := win1_5.stage (cfg1.slots t 5)
abbrev hstAcc (t : Fin cfg1.N) : (stAcc t).IsWhole := hstage1_5 ((cfg1.slots t 5).cast nbuf1_5)

/-- The three scratch operands: whole scoped buffers of the kernel's own, carried from tile to tile. -/
abbrev scrM : Memref sig .tc .vmem S1x1 .f32 := Memref.whole cc1_scratch0
abbrev scrL : Memref sig .tc .vmem S1x1 .f32 := Memref.whole cc1_scratch1
abbrev scrAcc : Memref sig .tc .vmem S1x4096 .f32 := Memref.whole cc1_scratch2

/-- The views through which the contents of the outputs' one staging buffer each and of the scratch are stated. -/
abbrev viewOutM : View sig .tc .vmem S1x1 .f32 := (Memref.whole cc1_stg3_0 : Memref sig .tc .vmem S1x1 .f32).view
abbrev viewOutL : View sig .tc .vmem S1x1 .f32 := (Memref.whole cc1_stg4_0 : Memref sig .tc .vmem S1x1 .f32).view
abbrev viewOutAcc : View sig .tc .vmem S1x4096 .f32 := (Memref.whole cc1_stg5_0 : Memref sig .tc .vmem S1x4096 .f32).view
abbrev viewM : View sig .tc .vmem S1x1 .f32 := scrM.view
abbrev viewL : View sig .tc .vmem S1x1 .f32 := scrL.view
abbrev viewAcc : View sig .tc .vmem S1x4096 .f32 := scrAcc.view

/-! ## The class invariant with the scratch named -/

/-- The staging buffers of the projection call, each whole at some contents: scoped buffers this call never touches. -/
def projStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- What the launch hands the call, opened: the projection call's staging buffers, the three scratch buffers at some
    contents each, and the generator register at some state. -/
theorem PhiA_open (c : Dev nD) : (Pipeline.ΦA spec1 c : sProp 𝕄) ⊢ iprop(iprop(projStaging c ∗ (∃ d, owns (c : Thread nD τ) scrM fullShare d) ∗ (∃ d, owns (c : Thread nD τ) scrL fullShare d) ∗ (∃ d, owns (c : Thread nD τ) scrAcc fullShare d)) ∗ (∃ r, prngReg c r)) := by
  unfold Pipeline.ΦA; rw [scopedRest1_eq]; simp only [scrM, scrL, scrAcc, owns_whole]
  unfold projStaging
  iintro ⟨⟨H1, H2, H3, H4, H5, H6, H7, H8, H9, H10, H11, H12, H13, H14, H15, H16, H17, H18, H19, S0, S1, S2⟩, Hg⟩
  iframe

/-- And closed again. -/
theorem PhiA_close (c : Dev nD) : iprop(iprop(projStaging c ∗ (∃ d, owns (c : Thread nD τ) scrM fullShare d) ∗ (∃ d, owns (c : Thread nD τ) scrL fullShare d) ∗ (∃ d, owns (c : Thread nD τ) scrAcc fullShare d)) ∗ (∃ r, prngReg c r)) ⊢ (Pipeline.ΦA spec1 c : sProp 𝕄) := by
  unfold Pipeline.ΦA; rw [scopedRest1_eq]; simp only [scrM, scrL, scrAcc, owns_whole]
  unfold projStaging
  iintro ⟨⟨⟨H1, H2, H3, H4, H5, H6, H7, H8, H9, H10, H11, H12, H13, H14, H15, H16, H17, H18, H19⟩, S0, S1, S2⟩, Hg⟩
  iframe

/-- The two are one proposition. -/
theorem PhiA_eq (c : Dev nD) : (Pipeline.ΦA spec1 c : sProp 𝕄) = iprop(iprop(projStaging c ∗ (∃ d, owns (c : Thread nD τ) scrM fullShare d) ∗ (∃ d, owns (c : Thread nD τ) scrL fullShare d) ∗ (∃ d, owns (c : Thread nD τ) scrAcc fullShare d)) ∗ (∃ r, prngReg c r)) :=
  BI.equiv_iff.mp ⟨PhiA_open c, PhiA_close c⟩

end Cert.KernelIdeal.Flash

end
-- ==== Proof.IdealFlashMid.lean ====
import proofs.«148700_j48034914238768_1_alg».proof.Proof.IdealFlashBase

-- membership in a rectangle of 256 x 4096 extents: the structural look recurses once per coordinate of the long axes
set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- A MIDDLE TILE (neither the first nor the last): the pieces the body's stores leave in the three scratch buffers
    (last first), WITH the proof that on whole memrefs — the query row, the key tile and the value tile at their
    contents, the three outputs at whatever they hold (om, ol, oa: nothing is stored into them and they are handed
    back untouched), the running maximum, denominator and weighted sum at what the tile before left (m0, l0, a0) —
    the body runs to the continuation holding the inputs and the outputs as they were and each scratch buffer with
    its pieces written. Neither branch is taken. The pieces are the witness the run finds. -/
noncomputable def runMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) :
    Σ' (LM : List (View.Piece (Elt F) S1x1 .f32)) (LL : List (View.Piece (Elt F) S1x1 .f32)), { LA : List (View.Piece (Elt F) S1x4096 .f32) //
      ∀ (om : Vec F S1x1 .f32) (ol : Vec F S1x1 .f32) (oa : Vec F S1x4096 .f32) (E : Set ℕ) (K : PUnit → sProp 𝕄),
        iprop(owns (c : Thread nD τ) arg1 fullShare xq ∗ owns (c : Thread nD τ) arg2 fullShare xk ∗ owns (c : Thread nD τ) arg3 fullShare xv ∗ owns (c : Thread nD τ) arg4 fullShare om ∗ owns (c : Thread nD τ) arg5 fullShare ol ∗ owns (c : Thread nD τ) arg6 fullShare oa ∗ owns (c : Thread nD τ) arg7 fullShare m0 ∗ owns (c : Thread nD τ) arg8 fullShare l0 ∗ owns (c : Thread nD τ) arg9 fullShare a0
            ∗ (iprop(owns (c : Thread nD τ) arg1 fullShare xq ∗ owns (c : Thread nD τ) arg2 fullShare xk ∗ owns (c : Thread nD τ) arg3 fullShare xv ∗ owns (c : Thread nD τ) arg4 fullShare om ∗ owns (c : Thread nD τ) arg5 fullShare ol ∗ owns (c : Thread nD τ) arg6 fullShare oa ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg1 harg1 arg2 harg2 arg3 harg3 arg4 harg4 arg5 harg5 arg6 harg6 arg7 harg7 arg8 harg8 arg9 harg9) K } := by
  refine ⟨?_, ?_, ?_, fun om ol oa E K => ?run⟩
  case run =>
    simp only [cc1__flash_kernel_eq_skeleton]; unfold cc1__flash_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.Flash

end
-- ==== Proof.IdealFlashFirst.lean ====
import proofs.«148700_j48034914238768_1_alg».proof.Proof.IdealFlashMid

-- membership in a rectangle of 256 x 4096 extents: the structural look recurses once per coordinate of the long axes
set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE FIRST TILE: the pieces the body's stores leave in the three scratch buffers (last first), WITH the proof that
    on whole memrefs — the query row, the key tile and the value tile at their contents, the three outputs at
    whatever they hold (om, ol, oa: handed back untouched), the three scratch buffers at ANYTHING (the reset branch
    stores each whole before anything reads it) — the body runs to the continuation holding the inputs and the outputs
    as they were and each scratch buffer with its pieces written. The reset branch is taken, the copy-out branch is
    not. The pieces are the witness the run finds. -/
noncomputable def runFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) :
    Σ' (LM : List (View.Piece (Elt F) S1x1 .f32)) (LL : List (View.Piece (Elt F) S1x1 .f32)), { LA : List (View.Piece (Elt F) S1x4096 .f32) //
      ∀ (om : Vec F S1x1 .f32) (ol : Vec F S1x1 .f32) (oa : Vec F S1x4096 .f32) (E : Set ℕ) (K : PUnit → sProp 𝕄),
        iprop(owns (c : Thread nD τ) arg1 fullShare xq ∗ owns (c : Thread nD τ) arg2 fullShare xk ∗ owns (c : Thread nD τ) arg3 fullShare xv ∗ owns (c : Thread nD τ) arg4 fullShare om ∗ owns (c : Thread nD τ) arg5 fullShare ol ∗ owns (c : Thread nD τ) arg6 fullShare oa ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare xq ∗ owns (c : Thread nD τ) arg2 fullShare xk ∗ owns (c : Thread nD τ) arg3 fullShare xv ∗ owns (c : Thread nD τ) arg4 fullShare om ∗ owns (c : Thread nD τ) arg5 fullShare ol ∗ owns (c : Thread nD τ) arg6 fullShare oa ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg1 harg1 arg2 harg2 arg3 harg3 arg4 harg4 arg5 harg5 arg6 harg6 arg7 harg7 arg8 harg8 arg9 harg9) K } := by
  refine ⟨?_, ?_, ?_, fun om ol oa E K => ?run⟩
  case run =>
    simp only [cc1__flash_kernel_eq_skeleton]; unfold cc1__flash_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.Flash

end
-- ==== Proof.IdealFlashLast.lean ====
import proofs.«148700_j48034914238768_1_alg».proof.Proof.IdealFlashFirst

-- membership in a rectangle of 256 x 4096 extents: the structural look recurses once per coordinate of the long axes
set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE LAST TILE: the pieces the body's stores leave in the three outputs' staging buffers and in the three scratch
    buffers (last first), WITH the proof that on whole memrefs — the query row, the key tile and the value tile at
    their contents, the three outputs at ANYTHING (each is stored whole), the running maximum, denominator and
    weighted sum at what the tile before left (m0, l0, a0) — the body runs to the continuation holding the inputs as
    they were and each output and each scratch buffer with its pieces written. The reset branch is not taken, the
    copy-out branch is. The pieces are the witness the run finds. -/
noncomputable def runLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) :
    Σ' (OM : List (View.Piece (Elt F) S1x1 .f32)) (OL : List (View.Piece (Elt F) S1x1 .f32)) (OA : List (View.Piece (Elt F) S1x4096 .f32))
       (LM : List (View.Piece (Elt F) S1x1 .f32)) (LL : List (View.Piece (Elt F) S1x1 .f32)), { LA : List (View.Piece (Elt F) S1x4096 .f32) //
      ∀ (E : Set ℕ) (K : PUnit → sProp 𝕄),
        iprop(owns (c : Thread nD τ) arg1 fullShare xq ∗ owns (c : Thread nD τ) arg2 fullShare xk ∗ owns (c : Thread nD τ) arg3 fullShare xv ∗ (∃ d, owns (c : Thread nD τ) arg4 fullShare d) ∗ (∃ d, owns (c : Thread nD τ) arg5 fullShare d) ∗ (∃ d, owns (c : Thread nD τ) arg6 fullShare d) ∗ owns (c : Thread nD τ) arg7 fullShare m0 ∗ owns (c : Thread nD τ) arg8 fullShare l0 ∗ owns (c : Thread nD τ) arg9 fullShare a0
            ∗ (iprop(owns (c : Thread nD τ) arg1 fullShare xq ∗ owns (c : Thread nD τ) arg2 fullShare xk ∗ owns (c : Thread nD τ) arg3 fullShare xv ∗ (∃ f, arg4.view.loc (c : Thread nD τ) ↦[arg4.view.set]{fullShare} arg4.view.writes (Elt F) f OM) ∗ (∃ f, arg5.view.loc (c : Thread nD τ) ↦[arg5.view.set]{fullShare} arg5.view.writes (Elt F) f OL) ∗ (∃ f, arg6.view.loc (c : Thread nD τ) ↦[arg6.view.set]{fullShare} arg6.view.writes (Elt F) f OA) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc1__flash_kernel_eq_skeleton]; unfold cc1__flash_kernel_skel
    simp only [k1_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.KernelIdeal.Flash

end
-- ==== Proof.IdealFlash.lean ====
import proofs.«148700_j48034914238768_1_alg».proof.Proof.IdealFlashLast

-- membership in a rectangle of 256 x 4096 extents: the structural look recurses once per coordinate of the long axes
set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call's frame: what the scratch and the outputs hold tile by tile, the proof data, the obligation

Stated at a parameter V, the core's buffer contents when the call is entered. -/

/-! ## What each control case leaves: the pieces its run found, read back -/

/-- The running maximum after the first tile: its pieces cover the buffer (they tile it, checked by evaluating the run's witness). -/
theorem cover_mAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) (y : S1x1.Idx) :
    ∃ pc ∈ (runFirst c i arg1 harg1 arg2 harg2 arg3 harg3 arg4 harg4 arg5 harg5 arg6 harg6 arg7 harg7 arg8 harg8 arg9 harg9 hc0 hc1 xq xk xv).1, y ∈ pc.1.set :=
  View.cover_of_tiledL (runFirst c i arg1 harg1 arg2 harg2 arg3 harg3 arg4 harg4 arg5 harg5 arg6 harg6 arg7 harg7 arg8 harg8 arg9 harg9 hc0 hc1 xq xk xv).1 S1x1.size (by sl_kernel_rfl) y

/-- The running maximum after the first tile: the pieces read back over junk. -/
def mAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) : Vec F S1x1 .f32 :=
  viewM.read (Elt F) (viewM.writes (Elt F) viewM.junk (runFirst c i arg1 harg1 arg2 harg2 arg3 harg3 arg4 harg4 arg5 harg5 arg6 harg6 arg7 harg7 arg8 harg8 arg9 harg9 hc0 hc1 xq xk xv).1)

/-- The running denominator after the first tile: its pieces cover the buffer (they tile it, checked by evaluating the run's witness). -/
theorem cover_lAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) (y : S1x1.Idx) :
    ∃ pc ∈ (runFirst c i arg1 harg1 arg2 harg2 arg3 harg3 arg4 harg4 arg5 harg5 arg6 harg6 arg7 harg7 arg8 harg8 arg9 harg9 hc0 hc1 xq xk xv).2.1, y ∈ pc.1.set :=
  View.cover_of_tiledL (runFirst c i arg1 harg1 arg2 harg2 arg3 harg3 arg4 harg4 arg5 harg5 arg6 harg6 arg7 harg7 arg8 harg8 arg9 harg9 hc0 hc1 xq xk xv).2.1 S1x1.size (by sl_kernel_rfl) y

/-- The running denominator after the first tile: the pieces read back over junk. -/
def lAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) : Vec F S1x1 .f32 :=
  viewL.read (Elt F) (viewL.writes (Elt F) viewL.junk (runFirst c i arg1 harg1 arg2 harg2 arg3 harg3 arg4 harg4 arg5 harg5 arg6 harg6 arg7 harg7 arg8 harg8 arg9 harg9 hc0 hc1 xq xk xv).2.1)

/-- The running weighted sum after the first tile: its pieces cover the buffer (they tile it, checked by evaluating the run's witness). -/
theorem cover_accAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) (y : S1x4096.Idx) :
    ∃ pc ∈ (runFirst c i arg1 harg1 arg2 harg2 arg3 harg3 arg4 harg4 arg5 harg5 arg6 harg6 arg7 harg7 arg8 harg8 arg9 harg9 hc0 hc1 xq xk xv).2.2.1, y ∈ pc.1.set :=
  View.cover_of_tiledL (runFirst c i arg1 harg1 arg2 harg2 arg3 harg3 arg4 harg4 arg5 harg5 arg6 harg6 arg7 harg7 arg8 harg8 arg9 harg9 hc0 hc1 xq xk xv).2.2.1 S1x4096.size (by sl_kernel_rfl) y

/-- The running weighted sum after the first tile: the pieces read back over junk. -/
def accAfterFirst (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) : Vec F S1x4096 .f32 :=
  viewAcc.read (Elt F) (viewAcc.writes (Elt F) viewAcc.junk (runFirst c i arg1 harg1 arg2 harg2 arg3 harg3 arg4 harg4 arg5 harg5 arg6 harg6 arg7 harg7 arg8 harg8 arg9 harg9 hc0 hc1 xq xk xv).2.2.1)

/-- The running maximum after a middle tile: its pieces cover the buffer (they tile it, checked by evaluating the run's witness). -/
theorem cover_mAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runMid c i arg1 harg1 arg2 harg2 arg3 harg3 arg4 harg4 arg5 harg5 arg6 harg6 arg7 harg7 arg8 harg8 arg9 harg9 hc0 hc1 xq xk xv m0 l0 a0).1, y ∈ pc.1.set :=
  View.cover_of_tiledL (runMid c i arg1 harg1 arg2 harg2 arg3 harg3 arg4 harg4 arg5 harg5 arg6 harg6 arg7 harg7 arg8 harg8 arg9 harg9 hc0 hc1 xq xk xv m0 l0 a0).1 S1x1.size (by sl_kernel_rfl) y

/-- The running maximum after a middle tile: the pieces read back over junk. -/
def mAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewM.read (Elt F) (viewM.writes (Elt F) viewM.junk (runMid c i arg1 harg1 arg2 harg2 arg3 harg3 arg4 harg4 arg5 harg5 arg6 harg6 arg7 harg7 arg8 harg8 arg9 harg9 hc0 hc1 xq xk xv m0 l0 a0).1)

/-- The running denominator after a middle tile: its pieces cover the buffer (they tile it, checked by evaluating the run's witness). -/
theorem cover_lAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runMid c i arg1 harg1 arg2 harg2 arg3 harg3 arg4 harg4 arg5 harg5 arg6 harg6 arg7 harg7 arg8 harg8 arg9 harg9 hc0 hc1 xq xk xv m0 l0 a0).2.1, y ∈ pc.1.set :=
  View.cover_of_tiledL (runMid c i arg1 harg1 arg2 harg2 arg3 harg3 arg4 harg4 arg5 harg5 arg6 harg6 arg7 harg7 arg8 harg8 arg9 harg9 hc0 hc1 xq xk xv m0 l0 a0).2.1 S1x1.size (by sl_kernel_rfl) y

/-- The running denominator after a middle tile: the pieces read back over junk. -/
def lAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewL.read (Elt F) (viewL.writes (Elt F) viewL.junk (runMid c i arg1 harg1 arg2 harg2 arg3 harg3 arg4 harg4 arg5 harg5 arg6 harg6 arg7 harg7 arg8 harg8 arg9 harg9 hc0 hc1 xq xk xv m0 l0 a0).2.1)

/-- The running weighted sum after a middle tile: its pieces cover the buffer (they tile it, checked by evaluating the run's witness). -/
theorem cover_accAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) (y : S1x4096.Idx) :
    ∃ pc ∈ (runMid c i arg1 harg1 arg2 harg2 arg3 harg3 arg4 harg4 arg5 harg5 arg6 harg6 arg7 harg7 arg8 harg8 arg9 harg9 hc0 hc1 xq xk xv m0 l0 a0).2.2.1, y ∈ pc.1.set :=
  View.cover_of_tiledL (runMid c i arg1 harg1 arg2 harg2 arg3 harg3 arg4 harg4 arg5 harg5 arg6 harg6 arg7 harg7 arg8 harg8 arg9 harg9 hc0 hc1 xq xk xv m0 l0 a0).2.2.1 S1x4096.size (by sl_kernel_rfl) y

/-- The running weighted sum after a middle tile: the pieces read back over junk. -/
def accAfterMid (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) : Vec F S1x4096 .f32 :=
  viewAcc.read (Elt F) (viewAcc.writes (Elt F) viewAcc.junk (runMid c i arg1 harg1 arg2 harg2 arg3 harg3 arg4 harg4 arg5 harg5 arg6 harg6 arg7 harg7 arg8 harg8 arg9 harg9 hc0 hc1 xq xk xv m0 l0 a0).2.2.1)

/-- The maximum output's staging buffer after the last tile: its pieces cover the buffer (they tile it, checked by evaluating the run's witness). -/
theorem cover_outMAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runLast c i arg1 harg1 arg2 harg2 arg3 harg3 arg4 harg4 arg5 harg5 arg6 harg6 arg7 harg7 arg8 harg8 arg9 harg9 hc0 hc1 xq xk xv m0 l0 a0).1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).1 S1x1.size (by sl_kernel_rfl) y

/-- The maximum output's staging buffer after the last tile: the pieces read back over junk. -/
def outMAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewOutM.read (Elt F) (viewOutM.writes (Elt F) viewOutM.junk (runLast c i arg1 harg1 arg2 harg2 arg3 harg3 arg4 harg4 arg5 harg5 arg6 harg6 arg7 harg7 arg8 harg8 arg9 harg9 hc0 hc1 xq xk xv m0 l0 a0).1)

/-- The denominator output's staging buffer after the last tile: its pieces cover the buffer (they tile it, checked by evaluating the run's witness). -/
theorem cover_outLAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runLast c i arg1 harg1 arg2 harg2 arg3 harg3 arg4 harg4 arg5 harg5 arg6 harg6 arg7 harg7 arg8 harg8 arg9 harg9 hc0 hc1 xq xk xv m0 l0 a0).2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.1 S1x1.size (by sl_kernel_rfl) y

/-- The denominator output's staging buffer after the last tile: the pieces read back over junk. -/
def outLAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewOutL.read (Elt F) (viewOutL.writes (Elt F) viewOutL.junk (runLast c i arg1 harg1 arg2 harg2 arg3 harg3 arg4 harg4 arg5 harg5 arg6 harg6 arg7 harg7 arg8 harg8 arg9 harg9 hc0 hc1 xq xk xv m0 l0 a0).2.1)

/-- The weighted-sum output's staging buffer after the last tile: its pieces cover the buffer (they tile it, checked by evaluating the run's witness). -/
theorem cover_outAccAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x4096.Idx) :
    ∃ pc ∈ (runLast c i arg1 harg1 arg2 harg2 arg3 harg3 arg4 harg4 arg5 harg5 arg6 harg6 arg7 harg7 arg8 harg8 arg9 harg9 hc0 hc1 xq xk xv m0 l0 a0).2.2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.2.1 S1x4096.size (by sl_kernel_rfl) y

/-- The weighted-sum output's staging buffer after the last tile: the pieces read back over junk. -/
def outAccAtLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x4096 .f32 :=
  viewOutAcc.read (Elt F) (viewOutAcc.writes (Elt F) viewOutAcc.junk (runLast c i arg1 harg1 arg2 harg2 arg3 harg3 arg4 harg4 arg5 harg5 arg6 harg6 arg7 harg7 arg8 harg8 arg9 harg9 hc0 hc1 xq xk xv m0 l0 a0).2.2.1)

/-- The running maximum after the last tile: its pieces cover the buffer (they tile it, checked by evaluating the run's witness). -/
theorem cover_mAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runLast c i arg1 harg1 arg2 harg2 arg3 harg3 arg4 harg4 arg5 harg5 arg6 harg6 arg7 harg7 arg8 harg8 arg9 harg9 hc0 hc1 xq xk xv m0 l0 a0).2.2.2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.2.2.1 S1x1.size (by sl_kernel_rfl) y

/-- The running maximum after the last tile: the pieces read back over junk. -/
def mAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewM.read (Elt F) (viewM.writes (Elt F) viewM.junk (runLast c i arg1 harg1 arg2 harg2 arg3 harg3 arg4 harg4 arg5 harg5 arg6 harg6 arg7 harg7 arg8 harg8 arg9 harg9 hc0 hc1 xq xk xv m0 l0 a0).2.2.2.1)

/-- The running denominator after the last tile: its pieces cover the buffer (they tile it, checked by evaluating the run's witness). -/
theorem cover_lAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x1.Idx) :
    ∃ pc ∈ (runLast c i arg1 harg1 arg2 harg2 arg3 harg3 arg4 harg4 arg5 harg5 arg6 harg6 arg7 harg7 arg8 harg8 arg9 harg9 hc0 hc1 xq xk xv m0 l0 a0).2.2.2.2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.2.2.2.1 S1x1.size (by sl_kernel_rfl) y

/-- The running denominator after the last tile: the pieces read back over junk. -/
def lAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x1 .f32 :=
  viewL.read (Elt F) (viewL.writes (Elt F) viewL.junk (runLast c i arg1 harg1 arg2 harg2 arg3 harg3 arg4 harg4 arg5 harg5 arg6 harg6 arg7 harg7 arg8 harg8 arg9 harg9 hc0 hc1 xq xk xv m0 l0 a0).2.2.2.2.1)

/-- The running weighted sum after the last tile: its pieces cover the buffer (they tile it, checked by evaluating the run's witness). -/
theorem cover_accAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) (y : S1x4096.Idx) :
    ∃ pc ∈ (runLast c i arg1 harg1 arg2 harg2 arg3 harg3 arg4 harg4 arg5 harg5 arg6 harg6 arg7 harg7 arg8 harg8 arg9 harg9 hc0 hc1 xq xk xv m0 l0 a0).2.2.2.2.2.1, y ∈ pc.1.set :=
  View.cover_of_tiledL (runLast c i arg1 harg1 arg2 harg2 arg3 harg3 arg4 harg4 arg5 harg5 arg6 harg6 arg7 harg7 arg8 harg8 arg9 harg9 hc0 hc1 xq xk xv m0 l0 a0).2.2.2.2.2.1 S1x4096.size (by sl_kernel_rfl) y

/-- The running weighted sum after the last tile: the pieces read back over junk. -/
def accAfterLast (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) : Vec F S1x4096 .f32 :=
  viewAcc.read (Elt F) (viewAcc.writes (Elt F) viewAcc.junk (runLast c i arg1 harg1 arg2 harg2 arg3 harg3 arg4 harg4 arg5 harg5 arg6 harg6 arg7 harg7 arg8 harg8 arg9 harg9 hc0 hc1 xq xk xv m0 l0 a0).2.2.2.2.2.1)

/-! ## Which case a tile is in -/

theorem first_of (t : Fin cfg1.N) (h0 : t.val % 128 = 0) : atFirst (grid1.coords t) := (atFirst_iff t).mpr h0
theorem notFirst_of (t : Fin cfg1.N) (h0 : ¬t.val % 128 = 0) : ¬atFirst (grid1.coords t) := fun h => h0 ((atFirst_iff t).mp h)
theorem last_of (t : Fin cfg1.N) (h1 : t.val % 128 = 127) : atLast (grid1.coords t) := (atLast_iff t).mpr h1
theorem notLast_of (t : Fin cfg1.N) (h1 : ¬t.val % 128 = 127) : ¬atLast (grid1.coords t) := fun h => h1 ((atLast_iff t).mp h)
/-- Tile 0 is not the last of the 128. -/
theorem zero_not_last : ¬(0 : ℕ) % 128 = 127 := by omega
/-- A tile after the first is not tile 0 again: there are 128 of them. -/
theorem succ_not_first (n : ℕ) (hn : n + 1 < cfg1.N) : ¬(n + 1) % 128 = 0 := by
  have hN : n + 1 < 128 := lt_of_lt_of_eq hn (show cfg1.N = 128 from N_1); omega

/-! ## What the outputs and the carried scratch hold after each tile -/

/-- An output's staging buffer before the last tile stores into it: a placeholder nothing consults (the window is
    idle there: neither written back nor read at the next tile). -/
def unsetM : Vec F S1x1 .f32 := viewOutM.read (Elt F) viewOutM.junk
def unsetL : Vec F S1x1 .f32 := viewOutL.read (Elt F) viewOutL.junk
def unsetAcc : Vec F S1x4096 .f32 := viewOutAcc.read (Elt F) viewOutAcc.junk

section State
variable (V : (c : Dev nD) → (b : Ref sig .tc) → Buf (Elt F) ((c : Thread nD τ).loc b))

/-- after the body at position n: ((output 3, output 4, output 5), (scratch m, scratch l, scratch acc)) — THE ONLINE
    SOFTMAX'S RECURRENCE: tile 0 resets the statistics and folds its own tile in; every later tile folds its tile
    into what the tile before left; tile 127 also copies the statistics to the outputs. -/
def stateAt (c : Dev nD) : (n : ℕ) → n < cfg1.N → (Vec F S1x1 .f32 × Vec F S1x1 .f32 × Vec F S1x4096 .f32) × (Vec F S1x1 .f32 × Vec F S1x1 .f32 × Vec F S1x4096 .f32)
  | 0, hn => ((unsetM, unsetL, unsetAcc), (mAfterFirst c (grid1.coords ⟨0, hn⟩) (stQ ⟨0, hn⟩) (hstQ ⟨0, hn⟩) (stK ⟨0, hn⟩) (hstK ⟨0, hn⟩) (stV ⟨0, hn⟩) (hstV ⟨0, hn⟩) (stM ⟨0, hn⟩) (hstM ⟨0, hn⟩) (stL ⟨0, hn⟩) (hstL ⟨0, hn⟩) (stAcc ⟨0, hn⟩) (hstAcc ⟨0, hn⟩) scrM (Memref.isWhole_whole _) scrL (Memref.isWhole_whole _) scrAcc (Memref.isWhole_whole _) (first_of ⟨0, hn⟩ (Nat.zero_mod _)) (notLast_of ⟨0, hn⟩ zero_not_last) (blk V c 0 ⟨0, hn⟩) (blk V c 1 ⟨0, hn⟩) (blk V c 2 ⟨0, hn⟩),
        lAfterFirst c (grid1.coords ⟨0, hn⟩) (stQ ⟨0, hn⟩) (hstQ ⟨0, hn⟩) (stK ⟨0, hn⟩) (hstK ⟨0, hn⟩) (stV ⟨0, hn⟩) (hstV ⟨0, hn⟩) (stM ⟨0, hn⟩) (hstM ⟨0, hn⟩) (stL ⟨0, hn⟩) (hstL ⟨0, hn⟩) (stAcc ⟨0, hn⟩) (hstAcc ⟨0, hn⟩) scrM (Memref.isWhole_whole _) scrL (Memref.isWhole_whole _) scrAcc (Memref.isWhole_whole _) (first_of ⟨0, hn⟩ (Nat.zero_mod _)) (notLast_of ⟨0, hn⟩ zero_not_last) (blk V c 0 ⟨0, hn⟩) (blk V c 1 ⟨0, hn⟩) (blk V c 2 ⟨0, hn⟩),
        accAfterFirst c (grid1.coords ⟨0, hn⟩) (stQ ⟨0, hn⟩) (hstQ ⟨0, hn⟩) (stK ⟨0, hn⟩) (hstK ⟨0, hn⟩) (stV ⟨0, hn⟩) (hstV ⟨0, hn⟩) (stM ⟨0, hn⟩) (hstM ⟨0, hn⟩) (stL ⟨0, hn⟩) (hstL ⟨0, hn⟩) (stAcc ⟨0, hn⟩) (hstAcc ⟨0, hn⟩) scrM (Memref.isWhole_whole _) scrL (Memref.isWhole_whole _) scrAcc (Memref.isWhole_whole _) (first_of ⟨0, hn⟩ (Nat.zero_mod _)) (notLast_of ⟨0, hn⟩ zero_not_last) (blk V c 0 ⟨0, hn⟩) (blk V c 1 ⟨0, hn⟩) (blk V c 2 ⟨0, hn⟩)))
  | n + 1, hn =>
    if h1 : (n + 1) % 128 = 127 then
      ((outMAtLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        outLAtLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        outAccAtLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2),
       (mAfterLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        lAfterLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        accAfterLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (last_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2))
    else
      ((unsetM, unsetL, unsetAcc), (mAfterMid c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (notLast_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        lAfterMid c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (notLast_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2,
        accAfterMid c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stM ⟨n + 1, hn⟩) (hstM ⟨n + 1, hn⟩) (stL ⟨n + 1, hn⟩) (hstL ⟨n + 1, hn⟩) (stAcc ⟨n + 1, hn⟩) (hstAcc ⟨n + 1, hn⟩) scrM (Memref.isWhole_whole _) scrL (Memref.isWhole_whole _) scrAcc (Memref.isWhole_whole _) (notFirst_of ⟨n + 1, hn⟩ (succ_not_first n hn)) (notLast_of ⟨n + 1, hn⟩ h1) (blk V c 0 ⟨n + 1, hn⟩) (blk V c 1 ⟨n + 1, hn⟩) (blk V c 2 ⟨n + 1, hn⟩) (stateAt c n (Nat.lt_of_succ_lt hn)).2.1 (stateAt c n (Nat.lt_of_succ_lt hn)).2.2.1 (stateAt c n (Nat.lt_of_succ_lt hn)).2.2.2))

/-- stateAt at the first tile: the reset and one fold. -/
theorem stateAt_first (c : Dev nD) (t : Fin cfg1.N) (h0 : t.val % 128 = 0) (h1 : ¬t.val % 128 = 127) :
    stateAt V c t.val t.isLt = ((unsetM, unsetL, unsetAcc), (mAfterFirst c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t),
        lAfterFirst c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t),
        accAfterFirst c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t))) := by
  obtain ⟨n, hn⟩ := t
  cases n with
  | zero => exact rfl
  | succ n => exact absurd h0 (succ_not_first n hn)

/-- stateAt at a middle tile: one fold over what the tile before left. -/
theorem stateAt_mid (c : Dev nD) (t : Fin cfg1.N) (h0 : ¬t.val % 128 = 0) (h1 : ¬t.val % 128 = 127) :
    stateAt V c t.val t.isLt = ((unsetM, unsetL, unsetAcc), (mAfterMid c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        lAfterMid c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        accAfterMid c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2)) := by
  obtain ⟨n, hn⟩ := t
  cases n with
  | zero => exact absurd (Nat.zero_mod _) h0
  | succ n => exact (dif_neg h1).trans rfl

/-- stateAt at the last tile: one fold over what the tile before left, and the copy to the outputs. -/
theorem stateAt_last (c : Dev nD) (t : Fin cfg1.N) (h0 : ¬t.val % 128 = 0) (h1 : t.val % 128 = 127) :
    stateAt V c t.val t.isLt = ((outMAtLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        outLAtLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        outAccAtLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2),
       (mAfterLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        lAfterLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2,
        accAfterLast c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2)) := by
  obtain ⟨n, hn⟩ := t
  cases n with
  | zero => exact absurd (Nat.zero_mod _) h0
  | succ n => exact (dif_pos h1).trans rfl

/-! ## The invariant -/

/-- The region invariant before position n: before the first tile what the launch hands over (every scratch buffer at
    anything); afterwards the projection call's staging buffers, the three scratch buffers at what the tile before left
    in them, and the generator register at some state. -/
def carry (c : Dev nD) : (n : ℕ) → n ≤ cfg1.N → sProp 𝕄
  | 0, _ => Pipeline.ΦA spec1 c
  | n + 1, hn => iprop(iprop(projStaging c ∗ owns (c : Thread nD τ) scrM fullShare (stateAt V c n hn).2.1 ∗ owns (c : Thread nD τ) scrL fullShare (stateAt V c n hn).2.2.1 ∗ owns (c : Thread nD τ) scrAcc fullShare (stateAt V c n hn).2.2.2) ∗ (∃ r, prngReg c r))

theorem carry_zero (c : Dev nD) (n : ℕ) (h : n ≤ cfg1.N) (hz : n = 0) : carry V c n h = Pipeline.ΦA spec1 c := by
  subst hz; rfl

/-- After tile n (before tile n + 1): the scratch at that tile's statistics. -/
theorem carry_succ (c : Dev nD) (n : ℕ) (hn : n < cfg1.N) :
    carry V c (n + 1) hn = iprop(iprop(projStaging c ∗ owns (c : Thread nD τ) scrM fullShare (stateAt V c n hn).2.1 ∗ owns (c : Thread nD τ) scrL fullShare (stateAt V c n hn).2.2.1 ∗ owns (c : Thread nD τ) scrAcc fullShare (stateAt V c n hn).2.2.2) ∗ (∃ r, prngReg c r)) := rfl

/-- Before a tile that is not the first: the scratch at what the tile before left. -/
theorem carry_pos (c : Dev nD) (n : ℕ) (h : n ≤ cfg1.N) (hz : n ≠ 0) :
    carry V c n h = iprop(iprop(projStaging c ∗ owns (c : Thread nD τ) scrM fullShare (stateAt V c (n - 1) (by omega)).2.1 ∗ owns (c : Thread nD τ) scrL fullShare (stateAt V c (n - 1) (by omega)).2.2.1 ∗ owns (c : Thread nD τ) scrAcc fullShare (stateAt V c (n - 1) (by omega)).2.2.2) ∗ (∃ r, prngReg c r)) := by
  cases n with
  | zero => exact absurd rfl hz
  | succ n => rfl

/-! ## The proof data -/

/-- The proof data of the attention call on core c: the arrays as the region finds them; after the body at tile t each
    input's buffer at its block and the outputs' at stateAt's output components; the invariant carry; nothing owed;
    full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (stateAt V c t.val t.isLt).1.1
    | ⟨4, _⟩ => (stateAt V c t.val t.isLt).1.2.1
    | ⟨5, _⟩ => (stateAt V c t.val t.isLt).1.2.2
  Φ t := carry V c t.val (Nat.le_of_lt_succ t.isLt)
  q _ := fullShare
  owed _ := 0

/-- The proof data's arrays are the region-entry contents (the definition projected, V never unfolded). -/
theorem A_eq (c : Dev nD) (w : Fin cfg1.W) : (dat V c).A w = V c (Pipeline.arrRef spec1 w) := by
  dsimp only [dat]

/-- The invariant at a tile's start, restated at the tile's number. -/
theorem carry_castSucc (c : Dev nD) (t : Fin cfg1.N) :
    (dat V c).Φ t.castSucc = carry V c t.val (Nat.le_of_lt t.isLt) := by
  dsimp only [dat]; simp only [Fin.coe_castSucc]

/-- What the body leaves, window by window. -/
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = (stateAt V c t.val t.isLt).1.1 := by dsimp only [dat]
theorem after_4 (c : Dev nD) (t : Fin cfg1.N) : (dat V c).after 4 t = (stateAt V c t.val t.isLt).1.2.1 := by dsimp only [dat]
theorem after_5 (c : Dev nD) (t : Fin cfg1.N) : (dat V c).after 5 t = (stateAt V c t.val t.isLt).1.2.2 := by dsimp only [dat]

/-- Each input's current staging buffer holds its block at every tile, fetched there or not. -/
theorem before_q (c : Dev nD) (t : Fin cfg1.N) (d) : (dat V c).before 0 t d = blk V c 0 t :=
  before_q_of V (dat V c) (A_eq V c 0) (after_0 V c) t d
theorem before_k (c : Dev nD) (t : Fin cfg1.N) (d) : (dat V c).before 1 t d = blk V c 1 t :=
  before_k_of V (dat V c) (A_eq V c 1) (after_1 V c) t d
theorem before_v (c : Dev nD) (t : Fin cfg1.N) (d) : (dat V c).before 2 t d = blk V c 2 t :=
  before_v_of V (dat V c) (A_eq V c 2) (after_2 V c) t d

/-- The inputs are left at their blocks. -/
theorem leaves_q (c : Dev nD) (t : Fin cfg1.N) : (dat V c).leavesExact 0 t = owns (c : Thread nD τ) (stQ t) fullShare (blk V c 0 t) := by
  unfold Dat.leavesExact; rw [live_q t, after_0]
theorem leaves_k (c : Dev nD) (t : Fin cfg1.N) : (dat V c).leavesExact 1 t = owns (c : Thread nD τ) (stK t) fullShare (blk V c 1 t) := by
  unfold Dat.leavesExact; rw [live_k t, after_1]
theorem leaves_v (c : Dev nD) (t : Fin cfg1.N) : (dat V c).leavesExact 2 t = owns (c : Thread nD τ) (stV t) fullShare (blk V c 2 t) := by
  unfold Dat.leavesExact; rw [live_v t, after_2]
/-- At the last tile the outputs are left at stateAt's output components. -/
theorem leaves_m_last (c : Dev nD) (t : Fin cfg1.N) (h : atLast (grid1.coords t)) : (dat V c).leavesExact 3 t = owns (c : Thread nD τ) (stM t) fullShare (stateAt V c t.val t.isLt).1.1 := by
  unfold Dat.leavesExact; rw [live_m t h, after_3]
theorem leaves_l_last (c : Dev nD) (t : Fin cfg1.N) (h : atLast (grid1.coords t)) : (dat V c).leavesExact 4 t = owns (c : Thread nD τ) (stL t) fullShare (stateAt V c t.val t.isLt).1.2.1 := by
  unfold Dat.leavesExact; rw [live_l t h, after_4]
theorem leaves_acc_last (c : Dev nD) (t : Fin cfg1.N) (h : atLast (grid1.coords t)) : (dat V c).leavesExact 5 t = owns (c : Thread nD τ) (stAcc t) fullShare (stateAt V c t.val t.isLt).1.2.2 := by
  unfold Dat.leavesExact; rw [live_acc t h, after_5]

/-! ## The body obligation, at a generic tile -/

/-- What the body is called with at tile t, the windows one by one, -/
def bodyPre (c : Dev nD) (t : Fin cfg1.N) : sProp 𝕄 :=
  iprop((dat V c).Φ t.castSucc ∗ (dat V c).owesAt () t.castSucc
    ∗ (∃ d, owns (c : Thread nD τ) (stQ t) fullShare ((dat V c).before 0 t d))
    ∗ (∃ d, owns (c : Thread nD τ) (stK t) fullShare ((dat V c).before 1 t d))
    ∗ (∃ d, owns (c : Thread nD τ) (stV t) fullShare ((dat V c).before 2 t d))
    ∗ (∃ d, owns (c : Thread nD τ) (stM t) fullShare ((dat V c).before 3 t d))
    ∗ (∃ d, owns (c : Thread nD τ) (stL t) fullShare ((dat V c).before 4 t d))
    ∗ (∃ d, owns (c : Thread nD τ) (stAcc t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
/-- The body at any tile: the inputs' memrefs hold their blocks; the tile's number says which case it is in; so that
    case's run applies; the invariant hands the body the scratch at what the tile before left (at anything at the first
    tile) and takes it back at this tile's statistics (the pieces cover each buffer); before the last tile the outputs
    are handed back as found, at the last tile they are left at the copied statistics; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).owesAt () t.succ = (dat V c).owesAt () t.castSucc from rfl]
  rw [show (dat V c).Φ t.succ = carry V c (t.val + 1) t.isLt from rfl, carry_succ]
  rw [leaves_q, leaves_k, leaves_v]
  have hN : t.val < 128 := lt_of_lt_of_eq t.isLt (show cfg1.N = 128 from N_1)
  by_cases h0 : t.val % 128 = 0
  · have h1 : ¬t.val % 128 = 127 := by omega
    have hz : t.val = 0 := by omega
    rw [Dat.leavesExact_idle (dat V c) 3 t (idle_m t (notLast_of t h1)) (noFlush_m t (notLast_of t h1)),
      Dat.leavesExact_idle (dat V c) 4 t (idle_l t (notLast_of t h1)) (noFlush_l t (notLast_of t h1)),
      Dat.leavesExact_idle (dat V c) 5 t (idle_acc t (notLast_of t h1)) (noFlush_acc t (notLast_of t h1))]
    rw [stateAt_first V c t h0 h1]
    unfold mAfterFirst lAfterFirst accAfterFirst; (try dsimp only)
    rw [carry_castSucc V c t, carry_zero V c _ _ hz, PhiA_eq]
    iintro ⟨⟨⟨Hp, HS0, HS1, HS2⟩, Hg⟩, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ _ _ _ _ _ _ (first_of t h0) (notLast_of t h1) (blk V c 0 t) (blk V c 1 t) (blk V c 2 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%e0, HS0⟩, ⟨%e1, HS1⟩, ⟨%e2, HS2⟩⟩
    isplitl [Hp HS0 HS1 HS2 Hg]
    · isplitl [Hp HS0 HS1 HS2]
      · isplitl [Hp]; · iexact Hp
        isplitl [HS0]
        · unfold owns; iexists _; isplitr
          swap; · iexact HS0
          ipureintro; exact View.read_writes_of_cover _ _ _ _ _ (cover_mAfterFirst c _ _ _ _ _ _ _ _ _ _ _ _ _ _ _ _ _ _ _ _ _ _ _ _)
        isplitl [HS1]
        · unfold owns; iexists _; isplitr
          swap; · iexact HS1
          ipureintro; exact View.read_writes_of_cover _ _ _ _ _ (cover_lAfterFirst c _ _ _ _ _ _ _ _ _ _ _ _ _ _ _ _ _ _ _ _ _ _ _ _)
        unfold owns; iexists _; isplitr
        swap; · iexact HS2
        ipureintro; exact View.read_writes_of_cover _ _ _ _ _ (cover_accAfterFirst c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5
  · have hz : t.val ≠ 0 := by omega
    by_cases h1 : t.val % 128 = 127
    · rw [leaves_m_last V c t (last_of t h1), leaves_l_last V c t (last_of t h1), leaves_acc_last V c t (last_of t h1)]
      rw [stateAt_last V c t h0 h1]
      unfold outMAtLast outLAtLast outAccAtLast mAfterLast lAfterLast accAfterLast; (try dsimp only)
      rw [carry_castSucc V c t, carry_pos V c _ _ hz]
      iintro ⟨⟨⟨Hp, HS0, HS1, HS2⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ _ _ _ _ (notFirst_of t h0) (last_of t h1) (blk V c 0 t) (blk V c 1 t) (blk V c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%o3, H3⟩, ⟨%o4, H4⟩, ⟨%o5, H5⟩, ⟨%e0, HS0⟩, ⟨%e1, HS1⟩, ⟨%e2, HS2⟩⟩
      isplitl [Hp HS0 HS1 HS2 Hg]
      · isplitl [Hp HS0 HS1 HS2]
        · isplitl [Hp]; · iexact Hp
          isplitl [HS0]
          · unfold owns; iexists _; isplitr
            swap; · iexact HS0
            ipureintro; exact View.read_writes_of_cover _ _ _ _ _ (cover_mAfterLast c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover_lAfterLast c _ _ _ _ _ _ _ _ _ _ _ _ _ _ _ _ _ _ _ _ _ _ _ _ _ _ _)
          unfold owns; iexists _; isplitr
          swap; · iexact HS2
          ipureintro; exact View.read_writes_of_cover _ _ _ _ _ (cover_accAfterLast c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_outMAtLast c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover_outLAtLast c _ _ _ _ _ _ _ _ _ _ _ _ _ _ _ _ _ _ _ _ _ _ _ _ _ _ _)
      unfold owns; iexists _; isplitr
      swap; · iexact H5
      ipureintro; exact View.read_writes_of_cover _ _ _ _ _ (cover_outAccAtLast c _ _ _ _ _ _ _ _ _ _ _ _ _ _ _ _ _ _ _ _ _ _ _ _ _ _ _)
    · rw [Dat.leavesExact_idle (dat V c) 3 t (idle_m t (notLast_of t h1)) (noFlush_m t (notLast_of t h1)),
        Dat.leavesExact_idle (dat V c) 4 t (idle_l t (notLast_of t h1)) (noFlush_l t (notLast_of t h1)),
        Dat.leavesExact_idle (dat V c) 5 t (idle_acc t (notLast_of t h1)) (noFlush_acc t (notLast_of t h1))]
      rw [stateAt_mid V c t h0 h1]
      unfold mAfterMid lAfterMid accAfterMid; (try dsimp only)
      rw [carry_castSucc V c t, carry_pos V c _ _ hz]
      iintro ⟨⟨⟨Hp, HS0, HS1, HS2⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ _ _ _ _ (notFirst_of t h0) (notLast_of t h1) (blk V c 0 t) (blk V c 1 t) (blk V c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%e0, HS0⟩, ⟨%e1, HS1⟩, ⟨%e2, HS2⟩⟩
      isplitl [Hp HS0 HS1 HS2 Hg]
      · isplitl [Hp HS0 HS1 HS2]
        · isplitl [Hp]; · iexact Hp
          isplitl [HS0]
          · unfold owns; iexists _; isplitr
            swap; · iexact HS0
            ipureintro; exact View.read_writes_of_cover _ _ _ _ _ (cover_mAfterMid c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover_lAfterMid c _ _ _ _ _ _ _ _ _ _ _ _ _ _ _ _ _ _ _ _ _ _ _ _ _ _ _)
          unfold owns; iexists _; isplitr
          swap; · iexact HS2
          ipureintro; exact View.read_writes_of_cover _ _ _ _ _ (cover_accAfterMid c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every tile. -/
theorem body_obligation (c : Dev nD) : BodyObligation (dat (F := F) V c) (defs₀ (F := F)) Variants.none () Set.univ := fun t => by
  rw [bigSep_W1, bigSep_W1]
  exact sound_body V c t

/-- What the launch hands the region is the invariant before the first tile. -/
theorem hin (c : Dev nD) : Pipeline.ΦA spec1 c ⊢ (dat V c).Φ 0 := by
  rw [show (dat V c).Φ 0 = carry V c 0 (Nat.zero_le _) from rfl, carry_zero V c 0 _ rfl]
  try exact Idealize.SL.BI.Entails.refl _

/-- After any tile the invariant gives the launch's back: the scratch's named contents are forgotten. -/
theorem carry_out (c : Dev nD) (t : Fin (cfg1.N + 1)) (ht : t.val ≠ 0) : (dat V c).Φ t ⊢ Pipeline.ΦA spec1 c := by
  rw [show (dat V c).Φ t = carry V c t.val (Nat.le_of_lt_succ t.isLt) from rfl, carry_pos V c _ _ ht, PhiA_eq]
  iintro ⟨⟨Hp, HS0, HS1, HS2⟩, Hg⟩
  isplitl [Hp HS0 HS1 HS2]
  · isplitl [Hp]; · iexact Hp
    isplitl [HS0]; · iexists _; iexact HS0
    isplitl [HS1]; · iexists _; iexact HS1
    iexists _; iexact HS2
  iexact Hg

/-- The same after the last tile. -/
theorem hout (c : Dev nD) : (dat V c).Φ (Fin.last cfg1.N) ⊢ Pipeline.ΦA spec1 c :=
  carry_out V c _ (by rw [Fin.val_last]; have : cfg1.N = 128 := N_1; omega)

end State

end Cert.KernelIdeal.Flash

end
-- ==== Proof.IdealRun.lean ====
/-
  The whole program as a run: the projection region, the flash region, then the host operations that merge the freshly
  projected key and value into the accumulated statistics.

  Between two items every unscoped buffer of a core is held at named contents: the launch memory; after a region, its arrays at
  what its write-backs leave and every other buffer as before; after the host stretch, the operations' results. Each region is
  entered from those contents with the generator register at some state and nothing owed, and leaves the same way; the proof data
  of each region are taken at the contents it is entered with. The run ends with every unscoped buffer read at the last contents:
  from that reading follow both the frame (no item writes an argument) and the value of the result buffer.
-/
import proofs.«148700_j48034914238768_1_alg».proof.Proof.IdealProj
import proofs.«148700_j48034914238768_1_alg».proof.Proof.IdealFlash
import proofs.«148700_j48034914238768_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references: what the projection region is entered with. -/
abbrev V0 : (c : Dev nD) → (b : Ref sig .tc) → Buf (Elt F) ((c : Thread nD τ).loc b) := fun c b => W0 m c b
/-- After the projection region: its arrays at what its write-backs leave, every other buffer as launched. -/
def W1 (c : Dev nD) : Valuation τ sig (Elt F) :=
  Pipeline.withArrays spec0 c (W0 m c) fun w => (Proj.dat (V0 m) c).arrAt w cfg0.N
theorem W1_arr (c : Dev nD) (w : Fin cfg0.W) :
    W1 m c (Proc.devRef .tc (Pipeline.arrRef spec0 w)) = (Proj.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the flash region is entered with. -/
abbrev V1 : (c : Dev nD) → (b : Ref sig .tc) → Buf (Elt F) ((c : Thread nD τ).loc b) := fun c b => W1 m c b
theorem hF0 (c : Dev nD) (w : Fin cfg0.W) : (Proj.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the flash region: its arrays at what its write-backs leave, every other buffer as it was entered. -/
def W2 (c : Dev nD) : Valuation τ sig (Elt F) :=
  Pipeline.withArrays spec1 c (W1 m c) fun w => (Flash.dat (V1 m) c).arrAt w cfg1.N
theorem W2_arr (c : Dev nD) (w : Fin cfg1.W) :
    W2 m c (Proc.devRef .tc (Pipeline.arrRef spec1 w)) = (Flash.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Flash.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations that merge the appended token. -/
abbrev W3 : Dev nD → Valuation τ sig (Elt F) := fun c => StableHlo.after hostOps2 (W2 m c)

/-! ### The arguments end as launched: a region reads one through an input window or bypasses it, and no host operation
    writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := W2_of_ne m c main_arg0 (by decide)
    _ = W0 m c (Proc.devRef .tc main_arg0) := (W1_arr m c 0).trans (((Proj.dat (V0 m) c).arrAt_in 0 rfl _).trans (Proj.A_eq (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 1).trans (((Flash.dat (V1 m) c).arrAt_in 1 rfl _).trans (Flash.A_eq (V1 m) c 1))
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_writes_sub hostOps2 _ hostOps2_writes (by decide)
    _ = W1 m c (Proc.devRef .tc main_arg2) := (W2_arr m c 2).trans (((Flash.dat (V1 m) c).arrAt_in 2 rfl _).trans (Flash.A_eq (V1 m) c 2))
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_writes_sub hostOps2 _ hostOps2_writes (by decide)
    _ = W1 m c (Proc.devRef .tc main_arg3) := W2_of_ne m c main_arg3 (by decide)
    _ = W0 m c (Proc.devRef .tc main_arg3) := (W1_arr m c 1).trans (((Proj.dat (V0 m) c).arrAt_in 1 rfl _).trans (Proj.A_eq (V0 m) c 1))
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_writes_sub hostOps2 _ hostOps2_writes (by decide)
    _ = W1 m c (Proc.devRef .tc main_arg4) := W2_of_ne m c main_arg4 (by decide)
    _ = W0 m c (Proc.devRef .tc main_arg4) := (W1_arr m c 2).trans (((Proj.dat (V0 m) c).arrAt_in 2 rfl _).trans (Proj.A_eq (V0 m) c 2))
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_writes_sub hostOps2 _ hostOps2_writes (by decide)
    _ = W1 m c (Proc.devRef .tc main_arg5) := W2_of_ne m c main_arg5 (by decide)
    _ = W0 m c (Proc.devRef .tc main_arg5) := (W1_arr m c 3).trans (((Proj.dat (V0 m) c).arrAt_in 3 rfl _).trans (Proj.A_eq (V0 m) c 3))
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_writes_sub hostOps2 _ hostOps2_writes (by decide)
    _ = W1 m c (Proc.devRef .tc main_arg6) := W2_of_ne m c main_arg6 (by decide)
    _ = W0 m c (Proc.devRef .tc main_arg6) := (W1_arr m c 4).trans (((Proj.dat (V0 m) c).arrAt_in 4 rfl _).trans (Proj.A_eq (V0 m) c 4))
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_writes_sub hostOps2 _ hostOps2_writes (by decide)
    _ = W1 m c (Proc.devRef .tc main_arg7) := W2_of_ne m c main_arg7 (by decide)
    _ = W0 m c (Proc.devRef .tc main_arg7) := (W1_arr m c 5).trans (((Proj.dat (V0 m) c).arrAt_in 5 rfl _).trans (Proj.A_eq (V0 m) c 5))
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := StableHlo.after_of_writes_sub hostOps2 _ hostOps2_writes (by decide)
    _ = W1 m c (Proc.devRef .tc main_arg8) := W2_of_ne m c main_arg8 (by decide)
    _ = W0 m c (Proc.devRef .tc main_arg8) := (W1_arr m c 6).trans (((Proj.dat (V0 m) c).arrAt_in 6 rfl _).trans (Proj.A_eq (V0 m) c 6))
    _ = m ((c : Thread nD τ).loc main_arg8) := rfl

/-! ## The proof data family and the thread state -/

/-- Every region's proof data, each at the contents the region is entered with. -/
def pdats : (p : Fin 2) → (c : Dev nD) → Dat τ (Elt F) Unit ℕ (UR sig nD τ) ℕ (Pipeline.pin (pcfgs (F := F)) adm p) c
  | ⟨0, _⟩ => fun c => Proj.dat (V0 m) c
  | ⟨1, _⟩ => fun c => Flash.dat (V1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)

/-- The host stretch as an item, from the contents `W`. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The projection region: entered from every unscoped buffer at the launch contents, left at `W1`. Its arrays are split out of
    the unscoped buffers and put back at the exit contents; the generator register goes into the invariant and comes out; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V0 m) c).loose
  hwaits := Pipeline.hwaits_of_owed_zero _ _ _ _ L lv 0 fun _ _ => rfl
  pre c := iprop(StableHlo.held (c : Thread nD τ) (Pipeline.ucRefs τ sig) (W0 m c) ∗ Rest c)
  post c := iprop(StableHlo.held (c : Thread nD τ) (Pipeline.ucRefs τ sig) (W1 m c) ∗ Rest c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The flash region: entered from every unscoped buffer at `W1`, left at `W2`. The same protocol; its invariant starts from the
    untouched rest and gives it back after the last point (`Flash.hin`, `Flash.hout`): the scratch it carries between points is
    named only inside the region. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Flash.body_obligation (V1 m) c).loose
  hwaits := Pipeline.hwaits_of_owed_zero _ _ _ _ L lv 1 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (Flash.hin (V1 m) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (Flash.hout (V1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .region (reg0 m), .region (reg1 m), .host (hseg (W2 m)) ]

theorem main_run (c : Dev nD) : main (F := F) c = Pipeline.Seg.run (segs m) := (main_chain c).trans (by chain_rfl)

set_option backward.isDefEq.respectTransparency.types false in
/-- THE RUN. From any memory with zero counters every weakly fair execution of the program terminates, nothing faulting, and in
    every final state each unscoped buffer of each core holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ m)
    (hch := ⟨fun _ => .rfl, fun _ => .rfl, fun _ => .rfl, fun c => show iprop(StableHlo.held (c : Thread nD τ) (Pipeline.ucRefs τ sig) (W3 m c) ∗ Rest c)
          ⊢ (iprop(Tₙ m c ∗ ∃ W, owes (c : Thread nD τ) (0 : CellTallies nD τ sig Unit) W) : sProp 𝕄) from by
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME, at any float instance: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_all m ρ)

/-- THE RUN WITH THE RESULT NAMED: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v20) = W3 m c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v20 (by decide)), (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_all m ρ)

end Cert.KernelIdeal.Whole

end
-- ==== Proof.AttnMath.lean ====
/-
  Softmax attention of one query over n keys, on the reals, and the law that lets it be computed block by block.

  For scores `S i` and one column of values `W i` (i < n), with `M` the largest of the scores,
      out = (∑ i < n, exp (S i - M) * W i) / (∑ i < n, exp (S i - M)).
  The sums can be accumulated over consecutive blocks of keys while the running maximum grows: when the maximum moves from
  `M` to `M'`, what was accumulated is rescaled by `exp (M - M')` (exp turns the shift of the exponent into a factor) and the
  new block's terms are added. Dividing the weighted sum by the weight sum at the end is the sum of the normalised weights
  times the values.
-/
import Mathlib.Analysis.SpecialFunctions.Exp
import Mathlib.Algebra.BigOperators.Intervals
import Mathlib.Algebra.Order.BigOperators.Ring.Finset

namespace Cert.Attn

open Finset

/-- The sum of the weights `exp (S i - M)` of the first `n` keys. -/
noncomputable def wsum (S : ℕ → ℝ) (M : ℝ) (n : ℕ) : ℝ := ∑ i ∈ range n, Real.exp (S i - M)

/-- The weighted sum of the first `n` values. -/
noncomputable def wacc (S W : ℕ → ℝ) (M : ℝ) (n : ℕ) : ℝ := ∑ i ∈ range n, Real.exp (S i - M) * W i

/-- `M` is the largest of the first `n` scores: one of them, and above them all. -/
def IsTop (S : ℕ → ℝ) (n : ℕ) (M : ℝ) : Prop := (∃ i, i < n ∧ S i = M) ∧ ∀ i, i < n → S i ≤ M

theorem IsTop.unique {S : ℕ → ℝ} {n : ℕ} {M M' : ℝ} (h : IsTop S n M) (h' : IsTop S n M') : M = M' := by
  obtain ⟨⟨i, hi, rfl⟩, hle⟩ := h
  obtain ⟨⟨j, hj, rfl⟩, hle'⟩ := h'
  exact le_antisymm (hle' i hi) (hle j hj)

/-- Merging a block of `B` further scores, whose own largest is `β`: the largest of all is the larger of the two. -/
theorem IsTop.step {S : ℕ → ℝ} {n B : ℕ} {M β : ℝ} (hM : IsTop S n M) (hβ : IsTop (fun j => S (n + j)) B β) :
    IsTop S (n + B) (max M β) := by
  obtain ⟨⟨i, hi, hiM⟩, hle⟩ := hM
  obtain ⟨⟨j, hj, hjβ⟩, hleβ⟩ := hβ
  refine ⟨?_, fun k hk => ?_⟩
  · rcases le_total M β with h | h
    · exact ⟨n + j, by omega, by rw [max_eq_right h]; exact hjβ⟩
    · exact ⟨i, by omega, by rw [max_eq_left h]; exact hiM⟩
  · by_cases hkn : k < n
    · exact (hle k hkn).trans (le_max_left _ _)
    · have : k = n + (k - n) := by omega
      rw [this]
      exact (hleβ (k - n) (by omega)).trans (le_max_right _ _)

/-- The first block alone: its largest is the largest so far. -/
theorem IsTop.first {S : ℕ → ℝ} {B : ℕ} {β : ℝ} (hβ : IsTop (fun j => S (0 + j)) B β) : IsTop S B β := by
  simpa using hβ

/-- The weight sum after one more block, at the new maximum. -/
theorem wsum_step (S : ℕ → ℝ) (n B : ℕ) (M M' : ℝ) :
    Real.exp (M - M') * wsum S M n + ∑ j ∈ range B, Real.exp (S (n + j) - M') = wsum S M' (n + B) := by
  unfold wsum
  rw [Finset.sum_range_add, Finset.mul_sum]
  congr 1
  refine Finset.sum_congr rfl fun i _ => ?_
  rw [← Real.exp_add]; congr 1; ring

/-- The weighted sum after one more block, at the new maximum. -/
theorem wacc_step (S W : ℕ → ℝ) (n B : ℕ) (M M' : ℝ) :
    Real.exp (M - M') * wacc S W M n + ∑ j ∈ range B, Real.exp (S (n + j) - M') * W (n + j) = wacc S W M' (n + B) := by
  unfold wacc
  rw [Finset.sum_range_add, Finset.mul_sum]
  congr 1
  refine Finset.sum_congr rfl fun i _ => ?_
  rw [← mul_assoc, ← Real.exp_add]; congr 2; ring

theorem wsum_zero (S : ℕ → ℝ) (M : ℝ) : wsum S M 0 = 0 := by simp [wsum]
theorem wacc_zero (S W : ℕ → ℝ) (M : ℝ) : wacc S W M 0 = 0 := by simp [wacc]

theorem wsum_pos (S : ℕ → ℝ) (M : ℝ) {n : ℕ} (hn : 0 < n) : 0 < wsum S M n := by
  unfold wsum
  exact Finset.sum_pos (fun i _ => Real.exp_pos _) ⟨0, Finset.mem_range.mpr hn⟩

/-- The quotient of the two sums is the sum of the normalised weights times the values. -/
theorem wacc_div (S W : ℕ → ℝ) (M : ℝ) (n : ℕ) :
    wacc S W M n / wsum S M n = ∑ i ∈ range n, Real.exp (S i - M) / wsum S M n * W i := by
  unfold wacc
  rw [div_eq_mul_inv, Finset.sum_mul]
  refine Finset.sum_congr rfl fun i _ => ?_
  rw [div_eq_mul_inv]; ring

/-! ## The attention of this kernel, as real functions of real inputs -/

section Spec

variable (c : ℝ) (x : Fin 4096 → ℝ) (Kc Vc : Fin 32768 → Fin 4096 → ℝ) (Wq Wk Wv : Fin 4096 → Fin 4096 → ℝ) (bq bk bv : Fin 4096 → ℝ)

/-- A linear projection of the one input row: `x · Wᵀ + b`. -/
noncomputable def proj (x : Fin 4096 → ℝ) (W : Fin 4096 → Fin 4096 → ℝ) (b : Fin 4096 → ℝ) (j : Fin 4096) : ℝ :=
  (∑ d : Fin 4096, x d * W j d) + b j

/-- The scaled score of key `i`: the cached keys first, the freshly projected key last (position 32768). -/
noncomputable def score (i : ℕ) : ℝ :=
  if h : i < 32768 then (∑ d : Fin 4096, proj x Wq bq d * Kc ⟨i, h⟩ d) * c
  else (∑ d : Fin 4096, proj x Wq bq d * proj x Wk bk d) * c

/-- Column `d` of the values: the cached rows first, the freshly projected row last. -/
noncomputable def valcol (d : Fin 4096) (i : ℕ) : ℝ :=
  if h : i < 32768 then Vc ⟨i, h⟩ d else proj x Wv bv d

/-- The attention output's entry `d`, given the largest score `M`. -/
noncomputable def out (M : ℝ) (d : Fin 4096) : ℝ :=
  wacc (score c x Kc Wq Wk bq bk) (valcol x Vc Wv bv d) M 32769 / wsum (score c x Kc Wq Wk bq bk) M 32769

end Spec

end Cert.Attn
-- ==== Proof.IdealConsts.lean ====
/-
  The float words both programs spell, as the extended reals they denote: the scale 2⁻⁶ of the scores and the
  negative infinity the running maximum starts from. (The zero word is the library's own law.)
-/
import Idealize.ShloMosaic.PureOps.Ideal
import Idealize.ShloMosaic.PureOps.Ideal.Laws

noncomputable section

namespace Cert.Consts

open Idealize.ShloMosaic

/-- The word of the scale denotes the real 1/64 = 2⁻⁶. -/
theorem scale_val : Ideal.ofBits .f32 0x3C800000#32 = (((1 / 64 : ℝ)) : EReal) := by
  simp [Ideal.ofBits, Ideal.ieee, -EReal.coe_mul]; norm_num

/-- The word of the scale denotes a real number. -/
theorem scale_real : ∃ c : ℝ, Ideal.ofBits .f32 0x3C800000#32 = ((c : ℝ) : EReal) := ⟨1 / 64, scale_val⟩

/-- The word with sign set, exponent all ones and fraction zero denotes negative infinity. -/
theorem neg_inf : Ideal.ofBits .f32 0xFF800000#32 = (⊥ : EReal) := by
  simp [Ideal.ofBits, Ideal.ieee]

end Cert.Consts

end
-- ==== Proof.IdealTail.lean ====
/-
  The host operations after the two regions: merging the freshly projected key and value into the statistics the flash region
  accumulated over the cache.

  With q, k, v the three projections and (m, l, acc) the running maximum, weight sum and weighted value sum over the cached keys,
  the operations compute the appended key's score s = (q · k) * 2⁻⁶, the new maximum m' = max m s, the rescaling factor
  a = exp (m - m'), the new key's weight p = exp (s - m'), and return (a * acc + p * v) / (a * l + p): one more block-merge step,
  for a block of one key, followed by the normalisation.
-/
import proofs.«148700_j48034914238768_1_alg».proof.Proof.Gen.KernelIdeal.Launch
import proofs.«148700_j48034914238768_1_alg».proof.Proof.AttnMath
import proofs.«148700_j48034914238768_1_alg».proof.Proof.IdealConsts
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Tail

open Cert.KernelIdeal Cert.KernelIdeal.Gen
open Idealize.ShloMosaic Idealize.ShloMosaic.TcCoe Idealize.SL.Sem Idealize.ShloMosaic.StableHlo ValueIdx

variable {F : FTy → Type} [FloatOps F]

/-- The merge, as one function of the six arrays the regions leave. -/
def merge (q k v : (⟨S1x4096, .f32⟩ : BufTy).Contents (Elt F)) (mo lo : (⟨S1x1, .f32⟩ : BufTy).Contents (Elt F))
    (acc : (⟨S1x4096, .f32⟩ : BufTy).Contents (Elt F)) : (⟨S1x4096, .f32⟩ : BufTy).Contents (Elt F) :=
  let s : (⟨S1x1, .f32⟩ : BufTy).Contents (Elt F) :=
    mulf (broadcastInDim S1x1 ![0] bcast_S1_S1x1_0 (Host.reduceAdd (mulf q k) (constant S_ .f32 0x00000000#32) reducesTo_S1x4096_S1_d1 h_S_))
      (broadcastInDim S1x1 ![] bcast_S_S1x1 (constant S_ .f32 0x3C800000#32))
  let mf : (⟨S1x1, .f32⟩ : BufTy).Contents (Elt F) := maximumf mo s
  let a : (⟨S1x1, .f32⟩ : BufTy).Contents (Elt F) := Host.exp (subf mo mf)
  let p : (⟨S1x1, .f32⟩ : BufTy).Contents (Elt F) := Host.exp (subf s mf)
  Host.divf (addf (mulf (broadcastInDim S1x4096 ![0, 1] bcast_S1x1_S1x4096_0_1 a) acc) (mulf (broadcastInDim S1x4096 ![0, 1] bcast_S1x1_S1x4096_0_1 p) v))
    (broadcastInDim S1x4096 ![0, 1] bcast_S1x1_S1x4096_0_1 (addf (mulf a lo) p))

set_option maxHeartbeats 2000000 in
/-- What the host operations leave in the result buffer, from any contents before them. -/
theorem after_merge (W : Valuation τ sig (Elt F)) :
    StableHlo.after hostOps2 W (Proc.devRef .tc main_v20)
      = merge (W (Proc.devRef .tc main_v0_0)) (W (Proc.devRef .tc main_v0_1)) (W (Proc.devRef .tc main_v0_2))
          (W (Proc.devRef .tc main_v1_0)) (W (Proc.devRef .tc main_v1_1)) (W (Proc.devRef .tc main_v1_2)) := by
  after_results_simp
  rfl

end Cert.KernelIdeal.Tail

end
-- ==== Proof.IdealTailValue.lean ====
/-
  The host merge's value on real data: one more block-merge step, for a block of the one appended key, then the
  normalisation.

  With q, k, v real rows, (m, l, acc) the largest score, the weight sum and the weighted value sums over the first n keys,
  and the appended key's score S n = (q · k) * c: the merge's entry d is the softmax attention over the n + 1 keys,
  wacc / wsum at the new largest score max M (S n).
-/
import proofs.«148700_j48034914238768_1_alg».proof.Proof.IdealTail
import proofs.«148700_j48034914238768_1_alg».proof.Proof.AttnMath
import proofs.«148700_j48034914238768_1_alg».proof.Proof.IdealConsts
import Idealize.ShloMosaic.Lib.Pipeline.Value
import Idealize.ShloMosaic.Lib.ValueIdx
import Idealize.ShloMosaic.PureOps.Ideal.Laws

noncomputable section

namespace Cert.KernelIdeal.TailValue

open Cert.KernelIdeal Cert.KernelIdeal.Gen Cert.KernelIdeal.Tail Idealize.ShloMosaic Idealize.ShloMosaic.ValueIdx Cert.Attn

/-- A finite sum of real numbers, each read as an extended real, is their real sum read as an extended real. -/
theorem coe_sum {ι : Type} (s : Finset ι) (f : ι → ℝ) : (∑ i ∈ s, ((f i : ℝ) : EReal)) = ((∑ i ∈ s, f i : ℝ) : EReal) := by
  classical
  refine Finset.induction_on s (by simp) fun a s ha ih => ?_
  rw [Finset.sum_insert ha, Finset.sum_insert ha, ih, EReal.coe_add]

/-- The larger of two real numbers, read as an extended real, is the larger of the two readings. -/
theorem coe_max (a b : ℝ) : max ((a : ℝ) : EReal) ((b : ℝ) : EReal) = ((max a b : ℝ) : EReal) :=
  (EReal.coe_strictMono.monotone.map_max).symm

/-- The one row's index with the coordinate `d` put back. -/
theorem lift_row (hR : S1x4096.Reduces [1] S1) (d : Fin 4096) : hR.lift (ix1 (0 : Fin 1)) d = ix2 0 d := by
  funext c
  apply Fin.ext
  show hR.liftVal (ix1 (0 : Fin 1)) d.val c = (ix2 (0 : Fin 1) d c).val
  unfold Shape.Reduces.liftVal
  match c with
  | ⟨0, _⟩ => first | rfl | simp
  | ⟨1, _⟩ => first | rfl | simp

/-- A one-entry array spread along the row reads its one entry everywhere. -/
theorem spread_row {α : Type} (y : S1x1.Idx → α) (d : Fin 4096) :
    broadcastInDim S1x4096 ![0, 1] bcast_S1x1_S1x4096_0_1 y (ix2 0 d) = y (ix2 0 0) :=
  broadcastInDim_apply _ bcast_S1x1_S1x4096_0_1 y (ix2 0 d) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The appended key's score: the query against the key, scaled. -/
theorem new_score (c : ℝ) (hc : Ideal.ofBits .f32 0x3C800000#32 = ((c : ℝ) : EReal))
    (q k : (⟨S1x4096, .f32⟩ : BufTy).Contents (Elt Ideal)) (qr kr : Fin 4096 → ℝ)
    (hq : ∀ d, q (ix2 0 d) = ((qr d : ℝ) : EReal)) (hk : ∀ d, k (ix2 0 d) = ((kr d : ℝ) : EReal)) :
    mulf (F := Ideal) (broadcastInDim S1x1 ![0] bcast_S1_S1x1_0
        (Host.reduceAdd (F := Ideal) (mulf (F := Ideal) q k) (constant (F := Ideal) S_ .f32 0x00000000#32)
          reducesTo_S1x4096_S1_d1 h_S_))
      (broadcastInDim S1x1 ![] bcast_S_S1x1 (constant (F := Ideal) S_ .f32 0x3C800000#32)) (ix2 0 0)
      = (((∑ d : Fin 4096, qr d * kr d) * c : ℝ) : EReal) := by
  have hR : S1x4096.Reduces [1] S1 := by decide
  rw [mulf_apply,
    broadcastInDim_apply _ bcast_S1_S1x1_0 _ (ix2 0 0) (ix1 0) (fun a => match a with
      | ⟨0, _⟩ => by show 0 = if (1 : Nat) = 1 then 0 else _; rw [if_pos rfl]),
    broadcastInDim_apply _ bcast_S_S1x1 _ (ix2 0 0) ix0 (fun a => a.elim0),
    constant_apply, hc]
  simp only [Host.reduceAdd, Ideal.hostReduceAdd_def]
  rw [Ideal.hostReduceAdd_single reducesTo_S1x4096_S1_d1 hR, constant_apply, Ideal.ofBits_zero_f32, zero_add]
  have h : ∀ d : Fin 4096, mulf (F := Ideal) (φ := .f32) q k (hR.lift (ix1 0) d) = ((qr d * kr d : ℝ) : EReal) := fun d => by
    rw [lift_row hR d, mulf_apply, hq, hk, EReal.coe_mul]
  show (∑ d : Fin 4096, mulf (F := Ideal) (φ := .f32) q k (hR.lift (ix1 0) d)) * ((c : ℝ) : EReal) = _
  rw [Finset.sum_congr rfl (fun d _ => h d), coe_sum, ← EReal.coe_mul]

/-- The merge's entry `d` on real data: the attention over the n + 1 keys. -/
theorem merge_apply (c : ℝ) (hc : Ideal.ofBits .f32 0x3C800000#32 = ((c : ℝ) : EReal))
    (qr kr vr : Fin 4096 → ℝ) (S : ℕ → ℝ) (Vcol : Fin 4096 → ℕ → ℝ) (n : ℕ) (hn : 0 < n) (M : ℝ)
    (q k v : (⟨S1x4096, .f32⟩ : BufTy).Contents (Elt Ideal)) (mo lo : (⟨S1x1, .f32⟩ : BufTy).Contents (Elt Ideal))
    (acc : (⟨S1x4096, .f32⟩ : BufTy).Contents (Elt Ideal))
    (hq : ∀ d, q (ix2 0 d) = ((qr d : ℝ) : EReal)) (hk : ∀ d, k (ix2 0 d) = ((kr d : ℝ) : EReal))
    (hv : ∀ d, v (ix2 0 d) = ((vr d : ℝ) : EReal))
    (hM : IsTop S n M) (hmo : mo (ix2 0 0) = ((M : ℝ) : EReal)) (hlo : lo (ix2 0 0) = ((wsum S M n : ℝ) : EReal))
    (hacc : ∀ d, acc (ix2 0 d) = ((wacc S (Vcol d) M n : ℝ) : EReal))
    (hS : S n = (∑ d : Fin 4096, qr d * kr d) * c) (hV : ∀ d, Vcol d n = vr d) (d : Fin 4096) :
    ∃ M' : ℝ, IsTop S (n + 1) M'
      ∧ merge (F := Ideal) q k v mo lo acc (ix2 0 d) = ((wacc S (Vcol d) M' (n + 1) / wsum S M' (n + 1) : ℝ) : EReal) := by
  have hTop : IsTop S (n + 1) (max M (S n)) :=
    hM.step (B := 1) (β := S n) ⟨⟨0, Nat.one_pos, rfl⟩, fun i hi => by
      have h0 : i = 0 := by omega
      subst h0; exact le_rfl⟩
  refine ⟨max M (S n), hTop, ?_⟩
  have hN : Real.exp (M - max M (S n)) * wacc S (Vcol d) M n + Real.exp (S n - max M (S n)) * vr d
      = wacc S (Vcol d) (max M (S n)) (n + 1) := by
    have h := wacc_step S (Vcol d) n 1 M (max M (S n))
    rw [Finset.sum_range_one, Nat.add_zero, hV d] at h
    exact h
  have hD : Real.exp (M - max M (S n)) * wsum S M n + Real.exp (S n - max M (S n)) = wsum S (max M (S n)) (n + 1) := by
    have h := wsum_step S n 1 M (max M (S n))
    rw [Finset.sum_range_one, Nat.add_zero] at h
    exact h
  have hs := new_score c hc q k qr kr hq hk
  rw [← hS, mulf_apply] at hs
  unfold merge
  simp only [Host.divf, addf_apply, mulf_apply]
  rw [spread_row, spread_row, spread_row]
  simp only [Host.exp, addf_apply, mulf_apply, subf_apply, maximumf_apply, Ideal.hostDivf_def, Ideal.hostUnary_exp_def,
    hs, hmo, hlo, hacc d, hv d, coe_max, ← EReal.coe_sub, Ideal.exp_coe, ← EReal.coe_mul, ← EReal.coe_add, hN, hD]
  rw [Ideal.div_coe (ne_of_gt (wsum_pos S _ (Nat.succ_pos n))), ← EReal.coe_mul, mul_one_div]

end Cert.KernelIdeal.TailValue

end
-- ==== Proof.IdealProjValue.lean ====
/-
  What the projection region leaves in its three output arrays, read at an index, at the ideal values.

  The region's 16 points each store one 1×256 tile of q, k and v: the input row times the point's 256 rows of the weight
  matrix (contracted over the 4096 columns of both), plus the point's 256 bias entries. A change of float format is the identity
  on the ideal values and a product into the zero accumulator is the plain sum of products, so the tile at column p is
  ∑ d, x[0,d] · W[256 t + p, d] + b[256 t + p]; the 16 tiles cover the 4096 columns, so the array ends holding, at column j,
  ∑ d, x[0,d] · W[j,d] + b[j].
-/
import proofs.«148700_j48034914238768_1_alg».proof.Proof.IdealProj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The product's operand indices, axis by axis -/

theorem lhs_proj_0 (i : S1x256.Idx) (q : dot_S1x4096_S256x4096_S1x256_1_1_0_0_n_n.contr.Idx) :
    (dot_S1x4096_S256x4096_S1x256_1_1_0_0_n_n.lhsIdx i q 0).val = (i 0).val := by
  unfold DotDims.lhsIdx
  rw [dif_neg (show ¬(0 : Fin S1x4096.rank) ∈ dot_S1x4096_S256x4096_S1x256_1_1_0_0_n_n.lhsBatch by decide), dif_pos (show (0 : Fin S1x4096.rank) ∈ dot_S1x4096_S256x4096_S1x256_1_1_0_0_n_n.lhsNonContracting by decide)]
  rfl
theorem lhs_proj_1 (i : S1x256.Idx) (q : dot_S1x4096_S256x4096_S1x256_1_1_0_0_n_n.contr.Idx) :
    (dot_S1x4096_S256x4096_S1x256_1_1_0_0_n_n.lhsIdx i q 1).val = (q ⟨0, by decide⟩).val :=
  dot_S1x4096_S256x4096_S1x256_1_1_0_0_n_n.lhsIdx_val_of_single rfl i q
theorem rhs_proj_0 (i : S1x256.Idx) (q : dot_S1x4096_S256x4096_S1x256_1_1_0_0_n_n.contr.Idx) :
    (dot_S1x4096_S256x4096_S1x256_1_1_0_0_n_n.rhsIdx i q 0).val = (i 1).val := by
  unfold DotDims.rhsIdx
  rw [dif_neg (show ¬(0 : Fin S256x4096.rank) ∈ dot_S1x4096_S256x4096_S1x256_1_1_0_0_n_n.rhsBatch by decide), dif_pos (show (0 : Fin S256x4096.rank) ∈ dot_S1x4096_S256x4096_S1x256_1_1_0_0_n_n.rhsNonContracting by decide)]
  rfl
theorem rhs_proj_1 (i : S1x256.Idx) (q : dot_S1x4096_S256x4096_S1x256_1_1_0_0_n_n.contr.Idx) :
    (dot_S1x4096_S256x4096_S1x256_1_1_0_0_n_n.rhsIdx i q 1).val = (q ⟨0, by decide⟩).val :=
  dot_S1x4096_S256x4096_S1x256_1_1_0_0_n_n.rhsIdx_val_of_single rfl i q

/-! ## One tile at a column -/

/-- The row times the tile's row p, plus the tile's bias entry p. -/
theorem tile_apply (x : Vec Ideal S1x4096 .f32) (W : Vec Ideal S256x4096 .f32) (b : Vec Ideal S256 .f32) (p : Fin 256) :
    addf (F := Ideal) (matmul (F := Ideal) dot_S1x4096_S256x4096_S1x256_1_1_0_0_n_n none (truncf (F := Ideal) .bf16 x bitsLt_bf16_f32) (truncf (F := Ideal) .bf16 W bitsLt_bf16_f32) (constant (F := Ideal) S1x256 .f32 0x00000000#32))
        (shapeCast S1x256 b shapeCasts_S256_S1x256) (ix2 (0 : Fin 1) p)
      = (∑ d : Fin 4096, x (ix2 (0 : Fin 1) d) * W (ix2 p d)) + b (ix1 p) := by
  rw [addf_apply, shapeCast_a_1a_apply]
  congr 1
  simp only [matmul]
  rw [Ideal.matmul_constant_zero_apply, ← Equiv.sum_comp (contrEquiv1 dot_S1x4096_S256x4096_S1x256_1_1_0_0_n_n 4096 rfl rfl).symm]
  refine Finset.sum_congr rfl fun k _ => ?_
  have hk := contrEquiv1_symm_val dot_S1x4096_S256x4096_S1x256_1_1_0_0_n_n 4096 rfl rfl k
  have el : dot_S1x4096_S256x4096_S1x256_1_1_0_0_n_n.lhsIdx (ix2 (0 : Fin 1) p) ((contrEquiv1 dot_S1x4096_S256x4096_S1x256_1_1_0_0_n_n 4096 rfl rfl).symm k) = ix2 (0 : Fin 1) k := funext fun a => Fin.ext (by
    match a with
    | ⟨0, _⟩ => exact lhs_proj_0 _ _
    | ⟨1, _⟩ => exact (lhs_proj_1 _ _).trans hk)
  have er : dot_S1x4096_S256x4096_S1x256_1_1_0_0_n_n.rhsIdx (ix2 (0 : Fin 1) p) ((contrEquiv1 dot_S1x4096_S256x4096_S1x256_1_1_0_0_n_n 4096 rfl rfl).symm k) = ix2 p k := funext fun a => Fin.ext (by
    match a with
    | ⟨0, _⟩ => exact rhs_proj_0 _ _
    | ⟨1, _⟩ => exact (rhs_proj_1 _ _).trans hk)
  rw [truncf_apply, truncf_apply, el, er]

/-- The three payloads are that tile of their inputs. -/
theorem pay_q_apply (x : Vec Ideal S1x4096 .f32) (W : Vec Ideal S256x4096 .f32) (b : Vec Ideal S256 .f32) (p : Fin 256) :
    k0_pay2 (F := Ideal) x W b (ix2 (0 : Fin 1) p) = (∑ d : Fin 4096, x (ix2 (0 : Fin 1) d) * W (ix2 p d)) + b (ix1 p) :=
  tile_apply x W b p
theorem pay_k_apply (x : Vec Ideal S1x4096 .f32) (W : Vec Ideal S256x4096 .f32) (b : Vec Ideal S256 .f32) (p : Fin 256) :
    k0_pay3 (F := Ideal) x W b (ix2 (0 : Fin 1) p) = (∑ d : Fin 4096, x (ix2 (0 : Fin 1) d) * W (ix2 p d)) + b (ix1 p) :=
  tile_apply x W b p
theorem pay_v_apply (x : Vec Ideal S1x4096 .f32) (W : Vec Ideal S256x4096 .f32) (b : Vec Ideal S256 .f32) (p : Fin 256) :
    k0_pay4 (F := Ideal) x W b (ix2 (0 : Fin 1) p) = (∑ d : Fin 4096, x (ix2 (0 : Fin 1) d) * W (ix2 p d)) + b (ix1 p) :=
  tile_apply x W b p

/-! ## The projection as one function of the arrays -/

/-- One projection at column j: the row times row j of the matrix, plus entry j of the bias. -/
def proj (X : Vec Ideal S1x4096 .f32) (A : Vec Ideal S4096x4096 .f32) (B : Vec Ideal S4096 .f32) (j : Fin 4096) : Elt Ideal .f32 :=
  (∑ d : Fin 4096, X (ix2 (0 : Fin 1) d) * A (ix2 j d)) + B (ix1 j)

theorem proj_def (X : Vec Ideal S1x4096 .f32) (A : Vec Ideal S4096x4096 .f32) (B : Vec Ideal S4096 .f32) (j : Fin 4096) :
    proj X A B j = (∑ d : Fin 4096, X (ix2 (0 : Fin 1) d) * A (ix2 j d)) + B (ix1 j) := rfl

/-- The projection as a 1×4096 array. -/
def projArr (X : Vec Ideal S1x4096 .f32) (A : Vec Ideal S4096x4096 .f32) (B : Vec Ideal S4096 .f32) : Vec Ideal S1x4096 .f32 :=
  fun i => proj X A B ⟨(i 1).val, idx2_lt1 i⟩

theorem projArr_apply (X : Vec Ideal S1x4096 .f32) (A : Vec Ideal S4096x4096 .f32) (B : Vec Ideal S4096 .f32) (j : Fin 4096) :
    projArr X A B (ix2 (0 : Fin 1) j) = (∑ d : Fin 4096, X (ix2 (0 : Fin 1) d) * A (ix2 j d)) + B (ix1 j) := rfl

/-- An index of a 1×256 tile is its column. -/
theorem tileIdx_eq (z : S1x256.Idx) : z = ix2 (0 : Fin 1) (⟨(z 1).val, idx2_lt1 z⟩ : Fin 256) := by
  funext a
  match a with
  | ⟨0, _⟩ => exact Fin.ext (by have h := idx2_lt0 z; show (z 0).val = 0; omega)
  | ⟨1, _⟩ => rfl

/-- A tile whose inputs are the row, rows 256 t … 256 t + 255 of the matrix and the same entries of the bias is columns
    256 t … 256 t + 255 of the projection. -/
theorem tile_of_blocks (X : Vec Ideal S1x4096 .f32) (A : Vec Ideal S4096x4096 .f32) (B : Vec Ideal S4096 .f32)
    (x : Vec Ideal S1x4096 .f32) (W : Vec Ideal S256x4096 .f32) (b : Vec Ideal S256 .f32) (t : ℕ)
    (hx : ∀ d : Fin 4096, x (ix2 (0 : Fin 1) d) = X (ix2 (0 : Fin 1) d))
    (hW : ∀ (p : Fin 256) (d j : Fin 4096), j.val = t * 256 + p.val → W (ix2 p d) = A (ix2 j d))
    (hb : ∀ (p : Fin 256) (j : Fin 4096), j.val = t * 256 + p.val → b (ix1 p) = B (ix1 j))
    (z : S1x256.Idx) (j : Fin 4096) (hj : j.val = t * 256 + (z 1).val) :
    addf (F := Ideal) (matmul (F := Ideal) dot_S1x4096_S256x4096_S1x256_1_1_0_0_n_n none (truncf (F := Ideal) .bf16 x bitsLt_bf16_f32) (truncf (F := Ideal) .bf16 W bitsLt_bf16_f32) (constant (F := Ideal) S1x256 .f32 0x00000000#32))
        (shapeCast S1x256 b shapeCasts_S256_S1x256) z
      = proj X A B j := by
  refine (congrArg _ (tileIdx_eq z)).trans ((tile_apply x W b _).trans ?_)
  unfold proj
  refine congrArg₂ (· + ·) (Finset.sum_congr rfl fun d _ => congrArg₂ (· * ·) (hx d) (hW _ d j hj)) (hb _ j hj)

/-! ## The point's blocks, read off the arrays -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The row's block index stays at the origin. -/
theorem idx_row : ∀ t : Fin cfg0.N, win0_0.index t (0 : Fin 2) = 0 ∧ win0_0.index t (1 : Fin 2) = 0 :=
  (by decide +kernel : ∀ t : Fin grid0.N, _)
/-- The q matrix's block index is the point, along the rows. -/
theorem idx_mat_q : ∀ t : Fin cfg0.N, win0_1.index t (0 : Fin 2) = t.val ∧ win0_1.index t (1 : Fin 2) = 0 :=
  (by decide +kernel : ∀ t : Fin grid0.N, _)
/-- The k matrix's block index is the point, along the rows. -/
theorem idx_mat_k : ∀ t : Fin cfg0.N, win0_3.index t (0 : Fin 2) = t.val ∧ win0_3.index t (1 : Fin 2) = 0 :=
  (by decide +kernel : ∀ t : Fin grid0.N, _)
/-- The v matrix's block index is the point, along the rows. -/
theorem idx_mat_v : ∀ t : Fin cfg0.N, win0_5.index t (0 : Fin 2) = t.val ∧ win0_5.index t (1 : Fin 2) = 0 :=
  (by decide +kernel : ∀ t : Fin grid0.N, _)
/-- The q bias's block index is the point. -/
theorem idx_bias_q : ∀ t : Fin cfg0.N, win0_2.index t (0 : Fin 1) = t.val :=
  (by decide +kernel : ∀ t : Fin grid0.N, _)
/-- The k bias's block index is the point. -/
theorem idx_bias_k : ∀ t : Fin cfg0.N, win0_4.index t (0 : Fin 1) = t.val :=
  (by decide +kernel : ∀ t : Fin grid0.N, _)
/-- The v bias's block index is the point. -/
theorem idx_bias_v : ∀ t : Fin cfg0.N, win0_6.index t (0 : Fin 1) = t.val :=
  (by decide +kernel : ∀ t : Fin grid0.N, _)
/-- The q output's block index is the point, along the columns. -/
theorem idx_out_q : ∀ t : Fin cfg0.N, win0_7.index t (0 : Fin 2) = 0 ∧ win0_7.index t (1 : Fin 2) = t.val :=
  (by decide +kernel : ∀ t : Fin grid0.N, _)
/-- The k output's block index is the point, along the columns. -/
theorem idx_out_k : ∀ t : Fin cfg0.N, win0_8.index t (0 : Fin 2) = 0 ∧ win0_8.index t (1 : Fin 2) = t.val :=
  (by decide +kernel : ∀ t : Fin grid0.N, _)
/-- The v output's block index is the point, along the columns. -/
theorem idx_out_v : ∀ t : Fin cfg0.N, win0_9.index t (0 : Fin 2) = 0 ∧ win0_9.index t (1 : Fin 2) = t.val :=
  (by decide +kernel : ∀ t : Fin grid0.N, _)

/-- The row's block is the row. -/
theorem blk_row (c : Dev nD) (t : Fin cfg0.N) (d : Fin 4096) :
    (Proj.blk V c 0 t : Vec Ideal S1x4096 .f32) (ix2 (0 : Fin 1) d) = (V c main_arg0 : Vec Ideal S1x4096 .f32) (ix2 (0 : Fin 1) d) := by
  obtain ⟨e0, e1⟩ := idx_row t
  unfold Proj.blk
  rw [View.read_apply]
  show V c main_arg0 _ = V c main_arg0 _
  congr 1
  funext a
  apply Fin.ext
  match a with
  | ⟨0, _⟩ => show win0_0.index t (0 : Fin 2) * 1 + 1 * 0 = 0; omega
  | ⟨1, _⟩ => show win0_0.index t (1 : Fin 2) * 4096 + 1 * d.val = d.val; omega
/-- Row p of the q matrix's block at point t is row 256 t + p of the matrix. -/
theorem blk_mat_q (c : Dev nD) (t : Fin cfg0.N) (p : Fin 256) (d j : Fin 4096) (hj : j.val = t.val * 256 + p.val) :
    (Proj.blk V c 1 t : Vec Ideal S256x4096 .f32) (ix2 p d) = (V c main_arg3 : Vec Ideal S4096x4096 .f32) (ix2 j d) := by
  obtain ⟨e0, e1⟩ := idx_mat_q t
  unfold Proj.blk
  rw [View.read_apply]
  show V c main_arg3 _ = V c main_arg3 _
  congr 1
  funext a
  apply Fin.ext
  match a with
  | ⟨0, _⟩ => show win0_1.index t (0 : Fin 2) * 256 + 1 * p.val = j.val; omega
  | ⟨1, _⟩ => show win0_1.index t (1 : Fin 2) * 4096 + 1 * d.val = d.val; omega
/-- Row p of the k matrix's block at point t is row 256 t + p of the matrix. -/
theorem blk_mat_k (c : Dev nD) (t : Fin cfg0.N) (p : Fin 256) (d j : Fin 4096) (hj : j.val = t.val * 256 + p.val) :
    (Proj.blk V c 3 t : Vec Ideal S256x4096 .f32) (ix2 p d) = (V c main_arg5 : Vec Ideal S4096x4096 .f32) (ix2 j d) := by
  obtain ⟨e0, e1⟩ := idx_mat_k t
  unfold Proj.blk
  rw [View.read_apply]
  show V c main_arg5 _ = V c main_arg5 _
  congr 1
  funext a
  apply Fin.ext
  match a with
  | ⟨0, _⟩ => show win0_3.index t (0 : Fin 2) * 256 + 1 * p.val = j.val; omega
  | ⟨1, _⟩ => show win0_3.index t (1 : Fin 2) * 4096 + 1 * d.val = d.val; omega
/-- Row p of the v matrix's block at point t is row 256 t + p of the matrix. -/
theorem blk_mat_v (c : Dev nD) (t : Fin cfg0.N) (p : Fin 256) (d j : Fin 4096) (hj : j.val = t.val * 256 + p.val) :
    (Proj.blk V c 5 t : Vec Ideal S256x4096 .f32) (ix2 p d) = (V c main_arg7 : Vec Ideal S4096x4096 .f32) (ix2 j d) := by
  obtain ⟨e0, e1⟩ := idx_mat_v t
  unfold Proj.blk
  rw [View.read_apply]
  show V c main_arg7 _ = V c main_arg7 _
  congr 1
  funext a
  apply Fin.ext
  match a with
  | ⟨0, _⟩ => show win0_5.index t (0 : Fin 2) * 256 + 1 * p.val = j.val; omega
  | ⟨1, _⟩ => show win0_5.index t (1 : Fin 2) * 4096 + 1 * d.val = d.val; omega
/-- Entry p of the q bias's block at point t is entry 256 t + p of the bias. -/
theorem blk_bias_q (c : Dev nD) (t : Fin cfg0.N) (p : Fin 256) (j : Fin 4096) (hj : j.val = t.val * 256 + p.val) :
    (Proj.blk V c 2 t : Vec Ideal S256 .f32) (ix1 p) = (V c main_arg4 : Vec Ideal S4096 .f32) (ix1 j) := by
  have e0 := idx_bias_q t
  unfold Proj.blk
  rw [View.read_apply]
  show V c main_arg4 _ = V c main_arg4 _
  congr 1
  funext a
  apply Fin.ext
  match a with
  | ⟨0, _⟩ => show win0_2.index t (0 : Fin 1) * 256 + 1 * p.val = j.val; omega
/-- Entry p of the k bias's block at point t is entry 256 t + p of the bias. -/
theorem blk_bias_k (c : Dev nD) (t : Fin cfg0.N) (p : Fin 256) (j : Fin 4096) (hj : j.val = t.val * 256 + p.val) :
    (Proj.blk V c 4 t : Vec Ideal S256 .f32) (ix1 p) = (V c main_arg6 : Vec Ideal S4096 .f32) (ix1 j) := by
  have e0 := idx_bias_k t
  unfold Proj.blk
  rw [View.read_apply]
  show V c main_arg6 _ = V c main_arg6 _
  congr 1
  funext a
  apply Fin.ext
  match a with
  | ⟨0, _⟩ => show win0_4.index t (0 : Fin 1) * 256 + 1 * p.val = j.val; omega
/-- Entry p of the v bias's block at point t is entry 256 t + p of the bias. -/
theorem blk_bias_v (c : Dev nD) (t : Fin cfg0.N) (p : Fin 256) (j : Fin 4096) (hj : j.val = t.val * 256 + p.val) :
    (Proj.blk V c 6 t : Vec Ideal S256 .f32) (ix1 p) = (V c main_arg8 : Vec Ideal S4096 .f32) (ix1 j) := by
  have e0 := idx_bias_v t
  unfold Proj.blk
  rw [View.read_apply]
  show V c main_arg8 _ = V c main_arg8 _
  congr 1
  funext a
  apply Fin.ext
  match a with
  | ⟨0, _⟩ => show win0_6.index t (0 : Fin 1) * 256 + 1 * p.val = j.val; omega

/-! ## What each point writes back, and the arrays after the region -/

/-- What point t writes back to the q array is block t of the q projection of the arrays as the region finds them. -/
theorem flushed_q (c : Dev nD) (t : Fin cfg0.N) :
    (Proj.dat V c).flushed 7 t = ((cfg0.win 7).blk t).view.read (Elt Ideal) (projArr (V c main_arg0) (V c main_arg3) (V c main_arg4)) := by
  show (cfg0.win 7).cut (grid0.coords t) ((Proj.dat V c).after 7 t) = _
  rw [Proj.after_7 V c t]
  unfold Proj.outQ
  rw [View.canon_unit_zero zero2]
  simp only [View.ld_unit_zero (S := S1x4096) zero2, View.ld_unit_zero (S := S256x4096) zero2, View.ld_unit_zero (S := S256) zero1]
  obtain ⟨e0, e1⟩ := idx_out_q t
  funext y
  show k0_pay2 (F := Ideal) (Proj.blk V c 0 t) (Proj.blk V c 1 t) (Proj.blk V c 2 t) ((cfg0.win 7).xinj (grid0.coords t) y)
    = projArr (V c main_arg0) (V c main_arg3) (V c main_arg4) (((cfg0.win 7).blk t).view.emb y)
  exact tile_of_blocks (V c main_arg0) (V c main_arg3) (V c main_arg4) _ _ _ t.val (blk_row V c t) (blk_mat_q V c t) (blk_bias_q V c t) _ _
    (by show win0_7.index t (1 : Fin 2) * 256 + 1 * (y 1).val = t.val * 256 + (y 1).val; omega)

/-- An index of the q array is in point t's block iff each coordinate is in the block's range on its axis. -/
theorem mem_blk_q (t : Fin cfg0.N) (i : S1x4096.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v0_0).slice (win0_7.rect t)).set ↔ _
  rw [View.set_slice_whole, Rect.mem_set_unit]
  exact Iff.rfl

/-- Column j of the q array is in the block of point j / 256. -/
theorem cover_q (i : S1x4096.Idx) : ∃ t : Fin cfg0.N, (cfg0.win 7).flush t = true ∧ i ∈ ((cfg0.win 7).blk t).view.set := by
  have h0 : (i 0).val < 1 := idx2_lt0 i
  have h1 : (i 1).val < 4096 := idx2_lt1 i
  have hN : cfg0.N = 16 := N_0
  obtain ⟨t, ht⟩ : ∃ t : Fin cfg0.N, t.val = (i 1).val / 256 := ⟨⟨(i 1).val / 256, by rw [hN]; omega⟩, rfl⟩
  refine ⟨t, flush0_7 t, ?_⟩
  rw [mem_blk_q]
  obtain ⟨e0, e1⟩ := idx_out_q t
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 256 ≤ (i 1).val ∧ (i 1).val < win0_7.index t (1 : Fin 2) * 256 + 256; omega

/-- The q array after the region is the q projection of the arrays as the region finds them. -/
theorem q_array (c : Dev nD) :
    (Proj.dat V c).arrAt 7 cfg0.N = projArr (V c main_arg0) (V c main_arg3) (V c main_arg4) :=
  (Proj.dat V c).arrAt_eq_of_cover 7 (projArr (V c main_arg0) (V c main_arg3) (V c main_arg4)) (fun t _ => flushed_q V c t) (cover_q)

/-- At column j: the row times row j of the q matrix, plus entry j of the q bias. -/
theorem q_final (c : Dev nD) (j : Fin 4096) :
    (Proj.dat V c).arrAt 7 cfg0.N (ix2 (0 : Fin 1) j) = proj (V c main_arg0) (V c main_arg3) (V c main_arg4) j :=
  congrFun (q_array V c) (ix2 (0 : Fin 1) j)

/-- What point t writes back to the k array is block t of the k projection of the arrays as the region finds them. -/
theorem flushed_k (c : Dev nD) (t : Fin cfg0.N) :
    (Proj.dat V c).flushed 8 t = ((cfg0.win 8).blk t).view.read (Elt Ideal) (projArr (V c main_arg0) (V c main_arg5) (V c main_arg6)) := by
  show (cfg0.win 8).cut (grid0.coords t) ((Proj.dat V c).after 8 t) = _
  rw [Proj.after_8 V c t]
  unfold Proj.outK
  rw [View.canon_unit_zero zero2]
  simp only [View.ld_unit_zero (S := S1x4096) zero2, View.ld_unit_zero (S := S256x4096) zero2, View.ld_unit_zero (S := S256) zero1]
  obtain ⟨e0, e1⟩ := idx_out_k t
  funext y
  show k0_pay3 (F := Ideal) (Proj.blk V c 0 t) (Proj.blk V c 3 t) (Proj.blk V c 4 t) ((cfg0.win 8).xinj (grid0.coords t) y)
    = projArr (V c main_arg0) (V c main_arg5) (V c main_arg6) (((cfg0.win 8).blk t).view.emb y)
  exact tile_of_blocks (V c main_arg0) (V c main_arg5) (V c main_arg6) _ _ _ t.val (blk_row V c t) (blk_mat_k V c t) (blk_bias_k V c t) _ _
    (by show win0_8.index t (1 : Fin 2) * 256 + 1 * (y 1).val = t.val * 256 + (y 1).val; omega)

/-- An index of the k array is in point t's block iff each coordinate is in the block's range on its axis. -/
theorem mem_blk_k (t : Fin cfg0.N) (i : S1x4096.Idx) :
    i ∈ ((cfg0.win 8).blk t).view.set ↔ ∀ a : Fin 2, win0_8.index t a * S1x256.size a ≤ (i a).val ∧ (i a).val < win0_8.index t a * S1x256.size a + S1x256.size a := by
  show i ∈ ((View.whole main_v0_1).slice (win0_8.rect t)).set ↔ _
  rw [View.set_slice_whole, Rect.mem_set_unit]
  exact Iff.rfl

/-- Column j of the k array is in the block of point j / 256. -/
theorem cover_k (i : S1x4096.Idx) : ∃ t : Fin cfg0.N, (cfg0.win 8).flush t = true ∧ i ∈ ((cfg0.win 8).blk t).view.set := by
  have h0 : (i 0).val < 1 := idx2_lt0 i
  have h1 : (i 1).val < 4096 := idx2_lt1 i
  have hN : cfg0.N = 16 := N_0
  obtain ⟨t, ht⟩ : ∃ t : Fin cfg0.N, t.val = (i 1).val / 256 := ⟨⟨(i 1).val / 256, by rw [hN]; omega⟩, rfl⟩
  refine ⟨t, flush0_8 t, ?_⟩
  rw [mem_blk_k]
  obtain ⟨e0, e1⟩ := idx_out_k t
  intro a
  match a with
  | ⟨0, _⟩ => show win0_8.index t (0 : Fin 2) * 1 ≤ (i 0).val ∧ (i 0).val < win0_8.index t (0 : Fin 2) * 1 + 1; omega
  | ⟨1, _⟩ => show win0_8.index t (1 : Fin 2) * 256 ≤ (i 1).val ∧ (i 1).val < win0_8.index t (1 : Fin 2) * 256 + 256; omega

/-- The k array after the region is the k projection of the arrays as the region finds them. -/
theorem k_array (c : Dev nD) :
    (Proj.dat V c).arrAt 8 cfg0.N = projArr (V c main_arg0) (V c main_arg5) (V c main_arg6) :=
  (Proj.dat V c).arrAt_eq_of_cover 8 (projArr (V c main_arg0) (V c main_arg5) (V c main_arg6)) (fun t _ => flushed_k V c t) (cover_k)

/-- At column j: the row times row j of the k matrix, plus entry j of the k bias. -/
theorem k_final (c : Dev nD) (j : Fin 4096) :
    (Proj.dat V c).arrAt 8 cfg0.N (ix2 (0 : Fin 1) j) = proj (V c main_arg0) (V c main_arg5) (V c main_arg6) j :=
  congrFun (k_array V c) (ix2 (0 : Fin 1) j)

/-- What point t writes back to the v array is block t of the v projection of the arrays as the region finds them. -/
theorem flushed_v (c : Dev nD) (t : Fin cfg0.N) :
    (Proj.dat V c).flushed 9 t = ((cfg0.win 9).blk t).view.read (Elt Ideal) (projArr (V c main_arg0) (V c main_arg7) (V c main_arg8)) := by
  show (cfg0.win 9).cut (grid0.coords t) ((Proj.dat V c).after 9 t) = _
  rw [Proj.after_9 V c t]
  unfold Proj.outV
  rw [View.canon_unit_zero zero2]
  simp only [View.ld_unit_zero (S := S1x4096) zero2, View.ld_unit_zero (S := S256x4096) zero2, View.ld_unit_zero (S := S256) zero1]
  obtain ⟨e0, e1⟩ := idx_out_v t
  funext y
  show k0_pay4 (F := Ideal) (Proj.blk V c 0 t) (Proj.blk V c 5 t) (Proj.blk V c 6 t) ((cfg0.win 9).xinj (grid0.coords t) y)
    = projArr (V c main_arg0) (V c main_arg7) (V c main_arg8) (((cfg0.win 9).blk t).view.emb y)
  exact tile_of_blocks (V c main_arg0) (V c main_arg7) (V c main_arg8) _ _ _ t.val (blk_row V c t) (blk_mat_v V c t) (blk_bias_v V c t) _ _
    (by show win0_9.index t (1 : Fin 2) * 256 + 1 * (y 1).val = t.val * 256 + (y 1).val; omega)

/-- An index of the v array is in point t's block iff each coordinate is in the block's range on its axis. -/
theorem mem_blk_v (t : Fin cfg0.N) (i : S1x4096.Idx) :
    i ∈ ((cfg0.win 9).blk t).view.set ↔ ∀ a : Fin 2, win0_9.index t a * S1x256.size a ≤ (i a).val ∧ (i a).val < win0_9.index t a * S1x256.size a + S1x256.size a := by
  show i ∈ ((View.whole main_v0_2).slice (win0_9.rect t)).set ↔ _
  rw [View.set_slice_whole, Rect.mem_set_unit]
  exact Iff.rfl

/-- Column j of the v array is in the block of point j / 256. -/
theorem cover_v (i : S1x4096.Idx) : ∃ t : Fin cfg0.N, (cfg0.win 9).flush t = true ∧ i ∈ ((cfg0.win 9).blk t).view.set := by
  have h0 : (i 0).val < 1 := idx2_lt0 i
  have h1 : (i 1).val < 4096 := idx2_lt1 i
  have hN : cfg0.N = 16 := N_0
  obtain ⟨t, ht⟩ : ∃ t : Fin cfg0.N, t.val = (i 1).val / 256 := ⟨⟨(i 1).val / 256, by rw [hN]; omega⟩, rfl⟩
  refine ⟨t, flush0_9 t, ?_⟩
  rw [mem_blk_v]
  obtain ⟨e0, e1⟩ := idx_out_v t
  intro a
  match a with
  | ⟨0, _⟩ => show win0_9.index t (0 : Fin 2) * 1 ≤ (i 0).val ∧ (i 0).val < win0_9.index t (0 : Fin 2) * 1 + 1; omega
  | ⟨1, _⟩ => show win0_9.index t (1 : Fin 2) * 256 ≤ (i 1).val ∧ (i 1).val < win0_9.index t (1 : Fin 2) * 256 + 256; omega

/-- The v array after the region is the v projection of the arrays as the region finds them. -/
theorem v_array (c : Dev nD) :
    (Proj.dat V c).arrAt 9 cfg0.N = projArr (V c main_arg0) (V c main_arg7) (V c main_arg8) :=
  (Proj.dat V c).arrAt_eq_of_cover 9 (projArr (V c main_arg0) (V c main_arg7) (V c main_arg8)) (fun t _ => flushed_v V c t) (cover_v)

/-- At column j: the row times row j of the v matrix, plus entry j of the v bias. -/
theorem v_final (c : Dev nD) (j : Fin 4096) :
    (Proj.dat V c).arrAt 9 cfg0.N (ix2 (0 : Fin 1) j) = proj (V c main_arg0) (V c main_arg7) (V c main_arg8) j :=
  congrFun (v_array V c) (ix2 (0 : Fin 1) j)

end Cert.KernelIdeal.ProjValue

end
-- ==== Proof.IdealFlashStep.lean ====
/-
  One grid point of the attention kernel as arithmetic on the extended reals, and the invariant of the online softmax it keeps.

  From the query row, the point's 256 key rows and 256 value rows, and the carried running maximum m, weight sum l and
  weighted sums acc, the body computes the tile's scaled scores s_j = (q · k_j) · 2⁻⁶, the new maximum m' = max (m, max_j s_j),
  the rescaling factor a = exp (m - m'), the tile's weights p_j = exp (s_j - m'), then l' = a · l + Σ_j p_j and
  acc'_d = a · acc_d + Σ_j p_j · v_{j,d}. First each of these is read at an index: the two products as sums over the
  contracted axis, the lane maximum as a fold of max from negative infinity, the lane sum as a sum over the 256 lanes, the
  rest pointwise. Then, with real inputs, every quantity is a real number seen as an extended real; the fold's value is the
  block's largest score by its universal property; and the block law of the real softmax sums gives the step: if m, l, acc
  are the largest score and the two sums of the first n keys, then m', l', acc' are those of the first n + 256. At the first
  point the carried values are negative infinity, zero and zeros, so a = exp (-∞) = 0 and the sums start from the tile alone.
-/
import proofs.«148700_j48034914238768_1_alg».proof.Proof.Gen.KernelIdeal.Skeleton
import proofs.«148700_j48034914238768_1_alg».proof.Proof.AttnMath
import proofs.«148700_j48034914238768_1_alg».proof.Proof.IdealConsts
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.FlashStep

open Cert.KernelIdeal Cert.KernelIdeal.Gen Cert.Attn Idealize.ShloMosaic Idealize.ShloMosaic.ValueIdx

/-! ## The two products' operand indices -/

theorem qk_lhs_0 (i : S1x256.Idx) (q : dot_S1x4096_S256x4096_S1x256_1_1_0_0_n_n.contr.Idx) :
    (dot_S1x4096_S256x4096_S1x256_1_1_0_0_n_n.lhsIdx i q 0).val = (i 0).val := by
  unfold DotDims.lhsIdx
  rw [dif_neg (show ¬(0 : Fin S1x4096.rank) ∈ dot_S1x4096_S256x4096_S1x256_1_1_0_0_n_n.lhsBatch by decide), dif_pos (show (0 : Fin S1x4096.rank) ∈ dot_S1x4096_S256x4096_S1x256_1_1_0_0_n_n.lhsNonContracting by decide)]
  rfl
theorem qk_lhs_1 (i : S1x256.Idx) (q : dot_S1x4096_S256x4096_S1x256_1_1_0_0_n_n.contr.Idx) :
    (dot_S1x4096_S256x4096_S1x256_1_1_0_0_n_n.lhsIdx i q 1).val = (q ⟨0, by decide⟩).val :=
  dot_S1x4096_S256x4096_S1x256_1_1_0_0_n_n.lhsIdx_val_of_single rfl i q
theorem qk_rhs_0 (i : S1x256.Idx) (q : dot_S1x4096_S256x4096_S1x256_1_1_0_0_n_n.contr.Idx) :
    (dot_S1x4096_S256x4096_S1x256_1_1_0_0_n_n.rhsIdx i q 0).val = (i 1).val := by
  unfold DotDims.rhsIdx
  rw [dif_neg (show ¬(0 : Fin S256x4096.rank) ∈ dot_S1x4096_S256x4096_S1x256_1_1_0_0_n_n.rhsBatch by decide), dif_pos (show (0 : Fin S256x4096.rank) ∈ dot_S1x4096_S256x4096_S1x256_1_1_0_0_n_n.rhsNonContracting by decide)]
  rfl
theorem qk_rhs_1 (i : S1x256.Idx) (q : dot_S1x4096_S256x4096_S1x256_1_1_0_0_n_n.contr.Idx) :
    (dot_S1x4096_S256x4096_S1x256_1_1_0_0_n_n.rhsIdx i q 1).val = (q ⟨0, by decide⟩).val :=
  dot_S1x4096_S256x4096_S1x256_1_1_0_0_n_n.rhsIdx_val_of_single rfl i q

/-- The product of the query row with the transposed key tile, into zero, read at lane j: the sum over the 4096 features. -/
theorem qk_apply (a : FVec Ideal S1x4096 .bf16) (b : FVec Ideal S256x4096 .bf16) (j : Fin 256) :
    matmul dot_S1x4096_S256x4096_S1x256_1_1_0_0_n_n none a b (constant (F := Ideal) S1x256 .f32 0x00000000#32) (ix2 (0 : Fin 1) j)
      = ∑ d : Fin 4096, a (ix2 (0 : Fin 1) d) * b (ix2 j d) := by
  simp only [matmul]
  rw [Ideal.matmul_constant_zero_apply, ← Equiv.sum_comp (contrEquiv1 dot_S1x4096_S256x4096_S1x256_1_1_0_0_n_n 4096 rfl rfl).symm]
  refine Finset.sum_congr rfl fun k _ => ?_
  have hk := contrEquiv1_symm_val dot_S1x4096_S256x4096_S1x256_1_1_0_0_n_n 4096 rfl rfl k
  have el : dot_S1x4096_S256x4096_S1x256_1_1_0_0_n_n.lhsIdx (ix2 (0 : Fin 1) j) ((contrEquiv1 dot_S1x4096_S256x4096_S1x256_1_1_0_0_n_n 4096 rfl rfl).symm k) = ix2 (0 : Fin 1) k := funext fun x => Fin.ext (by
    match x with
    | ⟨0, _⟩ => exact qk_lhs_0 _ _
    | ⟨1, _⟩ => exact (qk_lhs_1 _ _).trans hk)
  have er : dot_S1x4096_S256x4096_S1x256_1_1_0_0_n_n.rhsIdx (ix2 (0 : Fin 1) j) ((contrEquiv1 dot_S1x4096_S256x4096_S1x256_1_1_0_0_n_n 4096 rfl rfl).symm k) = ix2 j k := funext fun x => Fin.ext (by
    match x with
    | ⟨0, _⟩ => exact qk_rhs_0 _ _
    | ⟨1, _⟩ => exact (qk_rhs_1 _ _).trans hk)
  rw [el, er]

theorem pv_lhs_0 (i : S1x4096.Idx) (q : dot_S1x256_S256x4096_S1x4096_1_0_0_1_n_n.contr.Idx) :
    (dot_S1x256_S256x4096_S1x4096_1_0_0_1_n_n.lhsIdx i q 0).val = (i 0).val := by
  unfold DotDims.lhsIdx
  rw [dif_neg (show ¬(0 : Fin S1x256.rank) ∈ dot_S1x256_S256x4096_S1x4096_1_0_0_1_n_n.lhsBatch by decide), dif_pos (show (0 : Fin S1x256.rank) ∈ dot_S1x256_S256x4096_S1x4096_1_0_0_1_n_n.lhsNonContracting by decide)]
  rfl
theorem pv_lhs_1 (i : S1x4096.Idx) (q : dot_S1x256_S256x4096_S1x4096_1_0_0_1_n_n.contr.Idx) :
    (dot_S1x256_S256x4096_S1x4096_1_0_0_1_n_n.lhsIdx i q 1).val = (q ⟨0, by decide⟩).val :=
  dot_S1x256_S256x4096_S1x4096_1_0_0_1_n_n.lhsIdx_val_of_single rfl i q
theorem pv_rhs_0 (i : S1x4096.Idx) (q : dot_S1x256_S256x4096_S1x4096_1_0_0_1_n_n.contr.Idx) :
    (dot_S1x256_S256x4096_S1x4096_1_0_0_1_n_n.rhsIdx i q 0).val = (q ⟨0, by decide⟩).val :=
  dot_S1x256_S256x4096_S1x4096_1_0_0_1_n_n.rhsIdx_val_of_single rfl i q
theorem pv_rhs_1 (i : S1x4096.Idx) (q : dot_S1x256_S256x4096_S1x4096_1_0_0_1_n_n.contr.Idx) :
    (dot_S1x256_S256x4096_S1x4096_1_0_0_1_n_n.rhsIdx i q 1).val = (i 1).val := by
  unfold DotDims.rhsIdx
  rw [dif_neg (show ¬(1 : Fin S256x4096.rank) ∈ dot_S1x256_S256x4096_S1x4096_1_0_0_1_n_n.rhsBatch by decide), dif_pos (show (1 : Fin S256x4096.rank) ∈ dot_S1x256_S256x4096_S1x4096_1_0_0_1_n_n.rhsNonContracting by decide)]
  rfl

/-- The product of the weight row with the value tile, into zero, read at feature d: the sum over the tile's 256 rows. -/
theorem pv_apply (a : FVec Ideal S1x256 .bf16) (b : FVec Ideal S256x4096 .bf16) (d : Fin 4096) :
    matmul dot_S1x256_S256x4096_S1x4096_1_0_0_1_n_n none a b (constant (F := Ideal) S1x4096 .f32 0x00000000#32) (ix2 (0 : Fin 1) d)
      = ∑ j : Fin 256, a (ix2 (0 : Fin 1) j) * b (ix2 j d) := by
  simp only [matmul]
  rw [Ideal.matmul_constant_zero_apply, ← Equiv.sum_comp (contrEquiv1 dot_S1x256_S256x4096_S1x4096_1_0_0_1_n_n 256 rfl rfl).symm]
  refine Finset.sum_congr rfl fun k _ => ?_
  have hk := contrEquiv1_symm_val dot_S1x256_S256x4096_S1x4096_1_0_0_1_n_n 256 rfl rfl k
  have el : dot_S1x256_S256x4096_S1x4096_1_0_0_1_n_n.lhsIdx (ix2 (0 : Fin 1) d) ((contrEquiv1 dot_S1x256_S256x4096_S1x4096_1_0_0_1_n_n 256 rfl rfl).symm k) = ix2 (0 : Fin 1) k := funext fun x => Fin.ext (by
    match x with
    | ⟨0, _⟩ => exact pv_lhs_0 _ _
    | ⟨1, _⟩ => exact (pv_lhs_1 _ _).trans hk)
  have er : dot_S1x256_S256x4096_S1x4096_1_0_0_1_n_n.rhsIdx (ix2 (0 : Fin 1) d) ((contrEquiv1 dot_S1x256_S256x4096_S1x4096_1_0_0_1_n_n 256 rfl rfl).symm k) = ix2 k d := funext fun x => Fin.ext (by
    match x with
    | ⟨0, _⟩ => exact (pv_rhs_0 _ _).trans hk
    | ⟨1, _⟩ => exact pv_rhs_1 _ _)
  rw [el, er]

/-! ## The body's values read at an index -/

/-- The scaled scores of the tile: lane j is the product of the query with key row j, times the scale word. -/
theorem pay6_apply (xq : Vec Ideal S1x4096 .f32) (xk : Vec Ideal S256x4096 .f32) (j : Fin 256) :
    k1_pay6 (F := Ideal) xq xk (ix2 (0 : Fin 1) j)
      = (∑ d : Fin 4096, xq (ix2 (0 : Fin 1) d) * xk (ix2 j d)) * Ideal.ofBits .f32 0x3C800000#32 := by
  dsimp only [k1_pay6]
  rw [mulf_apply, qk_apply, shapeCast_self]
  rfl

/-- The lane of a one-row vector put back under its reduced index. -/
theorem lift_lane (j : Fin 256) : reduces_S1x256_S1.lift (ix1 (0 : Fin 1)) j = ix2 (0 : Fin 1) j := by
  funext a; match a with | ⟨0, _⟩ => rfl | ⟨1, _⟩ => rfl

/-- The sum over the lanes of a one-row vector, from the zero word. -/
theorem lane_sum (src : FVec Ideal S1x256 .f32) (hφ : FKind.Formats .f32) (hacc : (0x00000000#32 : BitVec 32) = 0x00000000#32) :
    multiReduction (F := Ideal) .add [1] S1 src 0x00000000#32 reduces_S1x256_S1 hφ hacc (ix1 (0 : Fin 1))
      = ∑ j : Fin 256, src (ix2 (0 : Fin 1) j) :=
  (Ideal.multiReduction_add_single src 0x00000000#32 reduces_S1x256_S1 hφ hacc (ix1 (0 : Fin 1))).trans
    (Finset.sum_congr rfl fun j _ => congrArg src (lift_lane j))

/-- The maximum over the lanes of a one-row vector, as a fold from the word of negative infinity. -/
theorem lane_max (src : FVec Ideal S1x256 .f32) (hφ : FKind.Formats .f32) (hacc : (0xFF800000#32 : BitVec 32) = 0xFF800000#32) :
    multiReduction (F := Ideal) .maximumf [1] S1 src 0xFF800000#32 reduces_S1x256_S1 hφ hacc (ix1 (0 : Fin 1))
      = (Finset.univ : Finset (Fin 256)).fold max (Ideal.ofBits .f32 0xFF800000#32) (fun j => src (ix2 (0 : Fin 1) j)) :=
  (Ideal.multiReduction_maximumf_single src 0xFF800000#32 reduces_S1x256_S1 hφ hacc (ix1 (0 : Fin 1))).trans
    (congrArg (fun g => (Finset.univ : Finset (Fin 256)).fold max (Ideal.ofBits .f32 0xFF800000#32) g)
      (funext fun j => congrArg src (lift_lane j)))

/-- The new running maximum: the larger of the old one and the fold of max over the tile's scores, from negative infinity. -/
theorem pay7_apply (xq : Vec Ideal S1x4096 .f32) (xk : Vec Ideal S256x4096 .f32) (sm : Vec Ideal S1x1 .f32) :
    k1_pay7 (F := Ideal) xq xk sm (ix2 (0 : Fin 1) (0 : Fin 1))
      = max (sm (ix2 (0 : Fin 1) (0 : Fin 1)))
          ((Finset.univ : Finset (Fin 256)).fold max (Ideal.ofBits .f32 0xFF800000#32) (fun j => k1_pay6 (F := Ideal) xq xk (ix2 (0 : Fin 1) j))) := by
  dsimp only [k1_pay7]
  rw [maximumf_apply, shapeCast_a_1a_apply, lane_max]

/-- The factor that rescales what was accumulated: exp of the old maximum minus the new one. -/
theorem pay8_apply (xq : Vec Ideal S1x4096 .f32) (xk : Vec Ideal S256x4096 .f32) (sm sm' : Vec Ideal S1x1 .f32) (i : S1x1.Idx) :
    k1_pay8 (F := Ideal) xq xk sm sm' i = Ideal.exp (sm' i - k1_pay7 (F := Ideal) xq xk sm i) := rfl

/-- The tile's weights: exp of each score minus the new maximum. -/
theorem pay9_apply (xq : Vec Ideal S1x4096 .f32) (xk : Vec Ideal S256x4096 .f32) (sm : Vec Ideal S1x1 .f32) (j : Fin 256) :
    k1_pay9 (F := Ideal) xq xk sm (ix2 (0 : Fin 1) j)
      = Ideal.exp (k1_pay6 (F := Ideal) xq xk (ix2 (0 : Fin 1) j) - k1_pay7 (F := Ideal) xq xk sm (ix2 (0 : Fin 1) (0 : Fin 1))) := by
  dsimp only [k1_pay9]
  show Ideal.exp (_ - broadcastTo S1x256 (k1_pay7 (F := Ideal) xq xk sm) broadcasts_S1x1_S1x256 (ix2 (0 : Fin 1) j)) = _
  rw [broadcastTo_apply (k1_pay7 (F := Ideal) xq xk sm) broadcasts_S1x1_S1x256 (ix2 (0 : Fin 1) j) (ix2 (0 : Fin 1) (0 : Fin 1))
    (fun a => match a with | ⟨0, _⟩ => rfl | ⟨1, _⟩ => rfl)]

/-- The new weight sum: the old one rescaled plus the sum of the tile's weights. -/
theorem pay10_apply (xq : Vec Ideal S1x4096 .f32) (xk : Vec Ideal S256x4096 .f32) (sm sm' sl : Vec Ideal S1x1 .f32) :
    k1_pay10 (F := Ideal) xq xk sm sm' sl (ix2 (0 : Fin 1) (0 : Fin 1))
      = k1_pay8 (F := Ideal) xq xk sm sm' (ix2 (0 : Fin 1) (0 : Fin 1)) * sl (ix2 (0 : Fin 1) (0 : Fin 1))
        + ∑ j : Fin 256, k1_pay9 (F := Ideal) xq xk sm (ix2 (0 : Fin 1) j) := by
  dsimp only [k1_pay10]
  rw [shapeCast_self, addf_apply, mulf_apply, shapeCast_a_1a_apply, lane_sum]

/-- The tile's weighted values: feature d is the sum over the tile's rows of weight times value. -/
theorem pay11_apply (xq : Vec Ideal S1x4096 .f32) (xk xv : Vec Ideal S256x4096 .f32) (sm : Vec Ideal S1x1 .f32) (d : Fin 4096) :
    k1_pay11 (F := Ideal) xq xk xv sm (ix2 (0 : Fin 1) d)
      = ∑ j : Fin 256, k1_pay9 (F := Ideal) xq xk sm (ix2 (0 : Fin 1) j) * xv (ix2 j d) := by
  dsimp only [k1_pay11]
  rw [pv_apply]
  rfl

/-- The new weighted sum: the old one rescaled plus the tile's weighted values. -/
theorem pay1_apply (a : FVec Ideal S1x1 .f32) (pv : FVec Ideal S1x4096 .f32) (sacc : Vec Ideal S1x4096 .f32) (d : Fin 4096) :
    k1_pay1 (F := Ideal) a pv sacc (ix2 (0 : Fin 1) d) = a (ix2 (0 : Fin 1) (0 : Fin 1)) * sacc (ix2 (0 : Fin 1) d) + pv (ix2 (0 : Fin 1) d) := by
  dsimp only [k1_pay1]
  rw [shapeCast_self, addf_apply, mulf_apply,
    broadcastTo_apply a broadcasts_S1x1_S1x4096 (ix2 (0 : Fin 1) d) (ix2 (0 : Fin 1) (0 : Fin 1))
      (fun x => match x with | ⟨0, _⟩ => rfl | ⟨1, _⟩ => rfl)]

/-- The running maximum is stored as it is. -/
theorem pay2_eq (m : FVec Ideal S1x1 .f32) : k1_pay2 (F := Ideal) m = m := by
  dsimp only [k1_pay2]
  rw [shapeCast_self]

/-- What the first point stores before it reads: negative infinity, zero, zeros. -/
theorem pay3_apply (i : S1x1.Idx) : k1_pay3 (F := Ideal) i = (⊥ : EReal) := by
  dsimp only [k1_pay3]
  rw [shapeCast_self]
  exact Cert.Consts.neg_inf
theorem pay4_apply (i : S1x1.Idx) : k1_pay4 (F := Ideal) i = (0 : EReal) := by
  dsimp only [k1_pay4]
  rw [shapeCast_self]
  exact Ideal.ofBits_zero_f32
theorem pay5_apply (i : S1x4096.Idx) : k1_pay5 (F := Ideal) i = (0 : EReal) := by
  dsimp only [k1_pay5]
  rw [shapeCast_self]
  exact Ideal.ofBits_zero_f32

/-! ## Sums and maxima of real numbers, seen among the extended reals -/

/-- A finite sum of real numbers, each seen as an extended real, is the real sum seen so. -/
theorem coe_sum {ι : Type} (s : Finset ι) (f : ι → ℝ) : (∑ i ∈ s, ((f i : ℝ) : EReal)) = ((∑ i ∈ s, f i : ℝ) : EReal) := by
  classical
  refine Finset.induction_on s (by simp) fun a s ha ih => ?_
  rw [Finset.sum_insert ha, Finset.sum_insert ha, ih, EReal.coe_add]

/-- The larger of two real numbers, seen as an extended real, is the larger of the two seen so. -/
theorem coe_max (x y : ℝ) : ((max x y : ℝ) : EReal) = max (x : EReal) (y : EReal) :=
  EReal.coe_strictMono.monotone.map_max

/-- The fold of max over 256 real numbers, from negative infinity, is one of them and is above them all. -/
theorem fold_max_coe (f : Fin 256 → ℝ) :
    ∃ β : ℝ, (Finset.univ : Finset (Fin 256)).fold max (⊥ : EReal) (fun j => ((f j : ℝ) : EReal)) = ((β : ℝ) : EReal)
      ∧ (∃ j, f j = β) ∧ ∀ j, f j ≤ β := by
  obtain ⟨j0, -, h0⟩ := Finset.exists_mem_eq_sup (Finset.univ : Finset (Fin 256)) ⟨0, Finset.mem_univ _⟩ (fun j => ((f j : ℝ) : EReal))
  refine ⟨f j0, h0, ⟨j0, rfl⟩, fun j => ?_⟩
  have hj : ((f j : ℝ) : EReal) ≤ (Finset.univ : Finset (Fin 256)).sup (fun j => ((f j : ℝ) : EReal)) :=
    Finset.le_sup (f := fun j => ((f j : ℝ) : EReal)) (Finset.mem_univ j)
  rw [h0] at hj
  exact EReal.coe_le_coe_iff.mp hj

/-! ## One step of the online softmax -/

/-- What the carried scratch says after the first n keys: the running maximum M is the largest of the first n scores, the
    weight sum and each feature's weighted sum are those of the first n keys at M. -/
def Inv (S : ℕ → ℝ) (Vcol : Fin 4096 → ℕ → ℝ) (n : ℕ) (sm sl : Vec Ideal S1x1 .f32) (sacc : Vec Ideal S1x4096 .f32) : Prop :=
  ∃ M : ℝ, IsTop S n M ∧ sm (ix2 (0 : Fin 1) (0 : Fin 1)) = ((M : ℝ) : EReal)
    ∧ sl (ix2 (0 : Fin 1) (0 : Fin 1)) = ((wsum S M n : ℝ) : EReal)
    ∧ ∀ d : Fin 4096, sacc (ix2 (0 : Fin 1) d) = ((wacc S (Vcol d) M n : ℝ) : EReal)

section Step

variable (xq : Vec Ideal S1x4096 .f32) (xk xv : Vec Ideal S256x4096 .f32) (S : ℕ → ℝ) (Vcol : Fin 4096 → ℕ → ℝ) (n : ℕ)

/-- With a real query, real key rows and a real scale, the tile's scores are the real scores of keys n, n+1, … -/
theorem scores_eq {c : ℝ} (hc : Ideal.ofBits .f32 0x3C800000#32 = ((c : ℝ) : EReal)) {q : Fin 4096 → ℝ} {Kt : Fin 256 → Fin 4096 → ℝ}
    (hq : ∀ d, xq (ix2 (0 : Fin 1) d) = ((q d : ℝ) : EReal)) (hk : ∀ j d, xk (ix2 j d) = ((Kt j d : ℝ) : EReal))
    (hS : ∀ j : Fin 256, S (n + j) = (∑ d : Fin 4096, q d * Kt j d) * c) (j : Fin 256) :
    k1_pay6 (F := Ideal) xq xk (ix2 (0 : Fin 1) j) = ((S (n + j) : ℝ) : EReal) := by
  rw [pay6_apply, hc, hS j, EReal.coe_mul, ← coe_sum]
  refine congrArg (fun t => t * ((c : ℝ) : EReal)) (Finset.sum_congr rfl fun d _ => ?_)
  rw [hq, hk, EReal.coe_mul]

/-- The new maximum is the larger of the old one and the block's own largest score. -/
theorem newmax_eq (sm : Vec Ideal S1x1 .f32)
    (hs : ∀ j : Fin 256, k1_pay6 (F := Ideal) xq xk (ix2 (0 : Fin 1) j) = ((S (n + j) : ℝ) : EReal)) :
    ∃ β : ℝ, IsTop (fun j => S (n + j)) 256 β
      ∧ k1_pay7 (F := Ideal) xq xk sm (ix2 (0 : Fin 1) (0 : Fin 1)) = max (sm (ix2 (0 : Fin 1) (0 : Fin 1))) ((β : ℝ) : EReal) := by
  obtain ⟨β, hfold, ⟨j0, hj0⟩, hle⟩ := fold_max_coe (fun j : Fin 256 => S (n + j))
  refine ⟨β, ⟨⟨j0.val, j0.isLt, hj0⟩, fun i hi => hle ⟨i, hi⟩⟩, ?_⟩
  have hfun : (fun j : Fin 256 => k1_pay6 (F := Ideal) xq xk (ix2 (0 : Fin 1) j)) = fun j : Fin 256 => ((S (n + j) : ℝ) : EReal) := funext hs
  rw [pay7_apply, Cert.Consts.neg_inf, hfun, hfold]

/-- At a real new maximum M', the tile's weights are the reals exp (S (n + j) - M'). -/
theorem weights_eq (sm : Vec Ideal S1x1 .f32) {M' : ℝ}
    (hs : ∀ j : Fin 256, k1_pay6 (F := Ideal) xq xk (ix2 (0 : Fin 1) j) = ((S (n + j) : ℝ) : EReal))
    (hm : k1_pay7 (F := Ideal) xq xk sm (ix2 (0 : Fin 1) (0 : Fin 1)) = ((M' : ℝ) : EReal)) (j : Fin 256) :
    k1_pay9 (F := Ideal) xq xk sm (ix2 (0 : Fin 1) j) = ((Real.exp (S (n + j) - M') : ℝ) : EReal) := by
  rw [pay9_apply, hs, hm, ← EReal.coe_sub, Ideal.exp_coe]

/-- Their sum, over the block's keys counted from n. -/
theorem weights_sum (sm : Vec Ideal S1x1 .f32) {M' : ℝ}
    (hs : ∀ j : Fin 256, k1_pay6 (F := Ideal) xq xk (ix2 (0 : Fin 1) j) = ((S (n + j) : ℝ) : EReal))
    (hm : k1_pay7 (F := Ideal) xq xk sm (ix2 (0 : Fin 1) (0 : Fin 1)) = ((M' : ℝ) : EReal)) :
    ∑ j : Fin 256, k1_pay9 (F := Ideal) xq xk sm (ix2 (0 : Fin 1) j)
      = ((∑ j ∈ Finset.range 256, Real.exp (S (n + j) - M') : ℝ) : EReal) := by
  rw [← Fin.sum_univ_eq_sum_range (fun i => Real.exp (S (n + i) - M')) 256, ← coe_sum]
  exact Finset.sum_congr rfl fun j _ => weights_eq xq xk S n sm hs hm j

/-- The tile's weighted values at feature d, over the block's keys counted from n. -/
theorem wvalues_eq (sm : Vec Ideal S1x1 .f32) {M' : ℝ} {Vt : Fin 256 → Fin 4096 → ℝ}
    (hs : ∀ j : Fin 256, k1_pay6 (F := Ideal) xq xk (ix2 (0 : Fin 1) j) = ((S (n + j) : ℝ) : EReal))
    (hm : k1_pay7 (F := Ideal) xq xk sm (ix2 (0 : Fin 1) (0 : Fin 1)) = ((M' : ℝ) : EReal))
    (hv : ∀ j d, xv (ix2 j d) = ((Vt j d : ℝ) : EReal)) (hV : ∀ (j : Fin 256) d, Vcol d (n + j) = Vt j d) (d : Fin 4096) :
    k1_pay11 (F := Ideal) xq xk xv sm (ix2 (0 : Fin 1) d)
      = ((∑ j ∈ Finset.range 256, Real.exp (S (n + j) - M') * Vcol d (n + j) : ℝ) : EReal) := by
  rw [pay11_apply, ← Fin.sum_univ_eq_sum_range (fun i => Real.exp (S (n + i) - M') * Vcol d (n + i)) 256, ← coe_sum]
  refine Finset.sum_congr rfl fun j _ => ?_
  rw [weights_eq xq xk S n sm hs hm j, hv, hV, EReal.coe_mul]

/-- A point after the first: from the invariant at n keys to the invariant at n + 256. -/
theorem step_mid {c : ℝ} (hc : Ideal.ofBits .f32 0x3C800000#32 = ((c : ℝ) : EReal)) {q : Fin 4096 → ℝ} {Kt Vt : Fin 256 → Fin 4096 → ℝ}
    (hq : ∀ d, xq (ix2 (0 : Fin 1) d) = ((q d : ℝ) : EReal)) (hk : ∀ j d, xk (ix2 j d) = ((Kt j d : ℝ) : EReal))
    (hv : ∀ j d, xv (ix2 j d) = ((Vt j d : ℝ) : EReal))
    (hS : ∀ j : Fin 256, S (n + j) = (∑ d : Fin 4096, q d * Kt j d) * c) (hV : ∀ (j : Fin 256) d, Vcol d (n + j) = Vt j d)
    {sm sl : Vec Ideal S1x1 .f32} {sacc : Vec Ideal S1x4096 .f32} (h : Inv S Vcol n sm sl sacc) :
    Inv S Vcol (n + 256) (k1_pay2 (F := Ideal) (k1_pay7 (F := Ideal) xq xk sm)) (k1_pay10 (F := Ideal) xq xk sm sm sl)
      (k1_pay1 (F := Ideal) (k1_pay8 (F := Ideal) xq xk sm sm) (k1_pay11 (F := Ideal) xq xk xv sm) sacc) := by
  obtain ⟨M, hM, hsm, hsl, hsacc⟩ := h
  have hs := scores_eq xq xk S n hc hq hk hS
  obtain ⟨β, hβ, hm⟩ := newmax_eq xq xk S n sm hs
  rw [hsm, ← coe_max] at hm
  have ha : k1_pay8 (F := Ideal) xq xk sm sm (ix2 (0 : Fin 1) (0 : Fin 1)) = ((Real.exp (M - max M β) : ℝ) : EReal) := by
    rw [pay8_apply, hsm, hm, ← EReal.coe_sub, Ideal.exp_coe]
  refine ⟨max M β, hM.step hβ, ?_, ?_, fun d => ?_⟩
  · rw [pay2_eq, hm]
  · rw [pay10_apply, ha, hsl, weights_sum xq xk S n sm hs hm, ← EReal.coe_mul, ← EReal.coe_add, wsum_step]
  · rw [pay1_apply, ha, hsacc, wvalues_eq xq xk xv S Vcol n sm hs hm hv hV, ← EReal.coe_mul, ← EReal.coe_add, wacc_step]

/-- The first point: the scratch it reads is what it has just stored (negative infinity, zero, zeros), and after it the
    invariant holds at 256 keys. -/
theorem step_first {c : ℝ} (hc : Ideal.ofBits .f32 0x3C800000#32 = ((c : ℝ) : EReal)) {q : Fin 4096 → ℝ} {Kt Vt : Fin 256 → Fin 4096 → ℝ}
    (hq : ∀ d, xq (ix2 (0 : Fin 1) d) = ((q d : ℝ) : EReal)) (hk : ∀ j d, xk (ix2 j d) = ((Kt j d : ℝ) : EReal))
    (hv : ∀ j d, xv (ix2 j d) = ((Vt j d : ℝ) : EReal))
    (hS : ∀ j : Fin 256, S (0 + j) = (∑ d : Fin 4096, q d * Kt j d) * c) (hV : ∀ (j : Fin 256) d, Vcol d (0 + j) = Vt j d) :
    Inv S Vcol 256 (k1_pay2 (F := Ideal) (k1_pay7 (F := Ideal) xq xk (k1_pay3 (F := Ideal))))
      (k1_pay10 (F := Ideal) xq xk (k1_pay3 (F := Ideal)) (k1_pay3 (F := Ideal)) (k1_pay4 (F := Ideal)))
      (k1_pay1 (F := Ideal) (k1_pay8 (F := Ideal) xq xk (k1_pay3 (F := Ideal)) (k1_pay3 (F := Ideal))) (k1_pay11 (F := Ideal) xq xk xv (k1_pay3 (F := Ideal))) (k1_pay5 (F := Ideal))) := by
  have hs := scores_eq xq xk S 0 hc hq hk hS
  obtain ⟨β, hβ, hm⟩ := newmax_eq xq xk S 0 (k1_pay3 (F := Ideal)) hs
  rw [pay3_apply, max_eq_right bot_le] at hm
  have ha : k1_pay8 (F := Ideal) xq xk (k1_pay3 (F := Ideal)) (k1_pay3 (F := Ideal)) (ix2 (0 : Fin 1) (0 : Fin 1)) = 0 := by
    rw [pay8_apply, pay3_apply, EReal.bot_sub, Ideal.exp_bot]
  refine ⟨β, IsTop.first hβ, ?_, ?_, fun d => ?_⟩
  · rw [pay2_eq, hm]
  · rw [pay10_apply, ha, pay4_apply, mul_zero, zero_add, weights_sum xq xk S 0 _ hs hm]
    unfold wsum
    simp only [zero_add]
  · rw [pay1_apply, ha, pay5_apply, mul_zero, zero_add, wvalues_eq xq xk xv S Vcol 0 _ hs hm hv hV]
    unfold wacc
    simp only [zero_add]

/-- The same with the first block's keys counted from zero. -/
theorem step_first' {c : ℝ} (hc : Ideal.ofBits .f32 0x3C800000#32 = ((c : ℝ) : EReal)) {q : Fin 4096 → ℝ} {Kt Vt : Fin 256 → Fin 4096 → ℝ}
    (hq : ∀ d, xq (ix2 (0 : Fin 1) d) = ((q d : ℝ) : EReal)) (hk : ∀ j d, xk (ix2 j d) = ((Kt j d : ℝ) : EReal))
    (hv : ∀ j d, xv (ix2 j d) = ((Vt j d : ℝ) : EReal))
    (hS : ∀ j : Fin 256, S j = (∑ d : Fin 4096, q d * Kt j d) * c) (hV : ∀ (j : Fin 256) d, Vcol d j = Vt j d) :
    Inv S Vcol 256 (k1_pay2 (F := Ideal) (k1_pay7 (F := Ideal) xq xk (k1_pay3 (F := Ideal))))
      (k1_pay10 (F := Ideal) xq xk (k1_pay3 (F := Ideal)) (k1_pay3 (F := Ideal)) (k1_pay4 (F := Ideal)))
      (k1_pay1 (F := Ideal) (k1_pay8 (F := Ideal) xq xk (k1_pay3 (F := Ideal)) (k1_pay3 (F := Ideal))) (k1_pay11 (F := Ideal) xq xk xv (k1_pay3 (F := Ideal))) (k1_pay5 (F := Ideal))) :=
  step_first xq xk xv S Vcol hc hq hk hv (fun j => by rw [Nat.zero_add]; exact hS j) (fun j d => by rw [Nat.zero_add]; exact hV j d)

end Step

end Cert.KernelIdeal.FlashStep

end
-- ==== Proof.IdealFlashBlocks.lean ====
/-
  The attention call's input blocks, read at an index of their arrays.

  The query row's block is the whole 1 x 4096 array at every tile. Tile t of the key cache and of the value cache is the
  256 rows from row 256 * t on: entry (j, d) of the tile is entry (256 * t + j, d) of the 32768 x 4096 cache.
-/
import proofs.«148700_j48034914238768_1_alg».proof.Proof.IdealFlashBase
import Idealize.ShloMosaic.Lib.ValueIdx
import Idealize.ShloMosaic.Lib.Pipeline.Value

noncomputable section

namespace Cert.KernelIdeal.FlashBlocks

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- A row of a tile is a row of the cache: 128 tiles of 256 rows. -/
theorem row_lt (t : Fin cfg1.N) (j : Fin 256) : 256 * t.val + j.val < 32768 := by
  have ht : t.val < 128 := lt_of_lt_of_eq t.isLt N_1
  have hj := j.isLt
  omega

/-- The query row's block index is (0, 0) at every tile. -/
theorem index_q : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)

/-- The key tile's block index at tile t is (t, 0). -/
theorem index_k : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- The value tile's block index at tile t is (t, 0). -/
theorem index_v : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

/-- The query row's block is the query row. -/
theorem qblk_eq (c : Dev nD) (t : Fin cfg1.N) (d : Fin 4096) :
    Flash.blk V c 0 t (ix2 0 d) = V c (Pipeline.arrRef spec1 0) (ix2 0 d) := by
  unfold Flash.blk
  rw [View.read_apply]
  show V c (Pipeline.arrRef spec1 0) (((cfg1.win 0).blk t).view.emb (ix2 0 d)) = V c (Pipeline.arrRef spec1 0) (ix2 0 d)
  refine congrArg _ (funext fun a => Fin.ext ?_)
  obtain ⟨e0, e1⟩ := index_q t
  match a with
  | ⟨0, _⟩ => show win1_0.index t (0 : Fin 2) * 1 + 1 * 0 = 0; omega
  | ⟨1, _⟩ => show win1_0.index t (1 : Fin 2) * 4096 + 1 * d.val = d.val; omega

/-- Entry (j, d) of key tile t is entry (256 * t + j, d) of the key cache. -/
theorem kblk_eq (c : Dev nD) (t : Fin cfg1.N) (j : Fin 256) (d : Fin 4096) :
    Flash.blk V c 1 t (ix2 j d) = V c (Pipeline.arrRef spec1 1) (ix2 ⟨256 * t.val + j.val, row_lt t j⟩ d) := by
  unfold Flash.blk
  rw [View.read_apply]
  show V c (Pipeline.arrRef spec1 1) (((cfg1.win 1).blk t).view.emb (ix2 j d))
    = V c (Pipeline.arrRef spec1 1) (ix2 ⟨256 * t.val + j.val, row_lt t j⟩ d)
  refine congrArg _ (funext fun a => Fin.ext ?_)
  obtain ⟨e0, e1⟩ := index_k t
  match a with
  | ⟨0, _⟩ => show win1_1.index t (0 : Fin 2) * 256 + 1 * j.val = 256 * t.val + j.val; omega
  | ⟨1, _⟩ => show win1_1.index t (1 : Fin 2) * 4096 + 1 * d.val = d.val; omega

/-- Entry (j, d) of value tile t is entry (256 * t + j, d) of the value cache. -/
theorem vblk_eq (c : Dev nD) (t : Fin cfg1.N) (j : Fin 256) (d : Fin 4096) :
    Flash.blk V c 2 t (ix2 j d) = V c (Pipeline.arrRef spec1 2) (ix2 ⟨256 * t.val + j.val, row_lt t j⟩ d) := by
  unfold Flash.blk
  rw [View.read_apply]
  show V c (Pipeline.arrRef spec1 2) (((cfg1.win 2).blk t).view.emb (ix2 j d))
    = V c (Pipeline.arrRef spec1 2) (ix2 ⟨256 * t.val + j.val, row_lt t j⟩ d)
  refine congrArg _ (funext fun a => Fin.ext ?_)
  obtain ⟨e0, e1⟩ := index_v t
  match a with
  | ⟨0, _⟩ => show win1_2.index t (0 : Fin 2) * 256 + 1 * j.val = 256 * t.val + j.val; omega
  | ⟨1, _⟩ => show win1_2.index t (1 : Fin 2) * 4096 + 1 * d.val = d.val; omega

end Cert.KernelIdeal.FlashBlocks

end
-- ==== Proof.IdealFlashArrays.lean ====
import proofs.«148700_j48034914238768_1_alg».proof.Proof.IdealFlash
import Idealize.ShloMosaic.Lib.Pipeline.Value

-- membership in a rectangle of 256 x 4096 extents: the structural look recurses once per coordinate of the long axes
set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call's three output arrays after the call

Each output window is written back at the last tile only, and its one block is the whole array: so each array ends
holding what the last tile copied out of the scratch. Generic in the float model, at the entry contents V. -/

/-- Tile 127 is a tile: there are 128. -/
theorem last_lt : 127 < cfg1.N := by have h : cfg1.N = 128 := N_1; omega

/-- The statistics after a tile depend on the tile's number only, not on how its bound is proved. -/
theorem stateAt_congr (V : (c : Dev nD) → (b : Ref sig .tc) → Buf (Elt F) ((c : Thread nD τ).loc b)) (c : Dev nD)
    (n n' : ℕ) (h : n < cfg1.N) (h' : n' < cfg1.N) (e : n = n') : stateAt V c n h = stateAt V c n' h' := by
  subst e; rfl

/-! ## The maximum output -/

/-- The maximum output's block index is zero on both axes at every tile: its one block is the whole array. -/
theorem idx_m : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- The window is uncut: what is written back of a buffer is the buffer. -/
theorem cut_m (t : Fin cfg1.N) (X : Vec F S1x1 .f32) : (cfg1.win 3).cut (grid1.coords t) X = X := rfl

/-- Reading the window's block off an array of the output's shape reads the array. -/
theorem read_blk_m (t : Fin cfg1.N) (G : Vec F S1x1 .f32) : ((cfg1.win 3).blk t).view.read (Elt F) G = G := by
  funext j
  show G (((cfg1.win 3).blk t).view.emb j) = G j
  refine congrArg G ?_
  obtain ⟨e0, e1⟩ := idx_m t
  funext a; apply Fin.ext
  match a with
  | ⟨0, _⟩ => show win1_3.index t (0 : Fin 2) * 1 + 1 * (j 0).val = (j 0).val; omega
  | ⟨1, _⟩ => show win1_3.index t (1 : Fin 2) * 1 + 1 * (j 1).val = (j 1).val; omega

/-- An index of the array is in tile t's block iff each coordinate is in the block's range on its axis. -/
theorem mem_blk_m (t : Fin cfg1.N) (i : S1x1.Idx) :
    i ∈ ((cfg1.win 3).blk t).view.set ↔ ∀ a : Fin 2, win1_3.index t a * S1x1.size a ≤ (i a).val ∧ (i a).val < win1_3.index t a * S1x1.size a + S1x1.size a := by
  show i ∈ ((View.whole main_v1_0).slice (win1_3.rect t)).set ↔ _
  rw [View.set_slice_whole, Rect.mem_set_unit]
  exact Iff.rfl

/-- Every index of the array is in every tile's block. -/
theorem in_blk_m (t : Fin cfg1.N) (i : S1x1.Idx) : i ∈ ((cfg1.win 3).blk t).view.set := by
  rw [mem_blk_m]
  obtain ⟨e0, e1⟩ := idx_m t
  intro a
  match a with
  | ⟨0, _⟩ =>
    have hi : (i 0).val < 1 := (i 0).isLt
    show win1_3.index t (0 : Fin 2) * 1 ≤ (i 0).val ∧ (i 0).val < win1_3.index t (0 : Fin 2) * 1 + 1; omega
  | ⟨1, _⟩ =>
    have hi : (i 1).val < 1 := (i 1).isLt
    show win1_3.index t (1 : Fin 2) * 1 ≤ (i 1).val ∧ (i 1).val < win1_3.index t (1 : Fin 2) * 1 + 1; omega

section
variable (V : (c : Dev nD) → (b : Ref sig .tc) → Buf (Elt F) ((c : Thread nD τ).loc b))

/-- What a tile writes back of the maximum output — only the last tile does — is the last tile's copied statistic. -/
theorem flushed_m (c : Dev nD) (t : Fin cfg1.N) (hf : (cfg1.win 3).flush t = true) :
    (dat V c).flushed 3 t = ((cfg1.win 3).blk t).view.read (Elt F) ((stateAt V c 127 last_lt).1.1) := by
  have hv : t.val = 127 := by
    have h := (flush1_3 t).mp hf
    have hN : t.val < 128 := lt_of_lt_of_eq t.isLt (show cfg1.N = 128 from N_1)
    omega
  show (cfg1.win 3).cut (grid1.coords t) ((dat V c).after 3 t) = _
  rw [after_3, read_blk_m, cut_m, stateAt_congr V c t.val 127 t.isLt last_lt hv]

/-- THE ARRAY after the call: the maximum the last tile copied out. -/
theorem arr_m (c : Dev nD) : (dat V c).arrAt 3 cfg1.N = (stateAt V c 127 last_lt).1.1 :=
  (dat V c).arrAt_eq_of_cover 3 ((stateAt V c 127 last_lt).1.1) (fun t hf => flushed_m V c t hf)
    (fun i => ⟨⟨127, last_lt⟩, (flush1_3 ⟨127, last_lt⟩).mpr rfl, in_blk_m ⟨127, last_lt⟩ i⟩)

end

/-! ## The denominator output -/

/-- The denominator output's block index is zero on both axes at every tile: its one block is the whole array. -/
theorem idx_l : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- The window is uncut: what is written back of a buffer is the buffer. -/
theorem cut_l (t : Fin cfg1.N) (X : Vec F S1x1 .f32) : (cfg1.win 4).cut (grid1.coords t) X = X := rfl

/-- Reading the window's block off an array of the output's shape reads the array. -/
theorem read_blk_l (t : Fin cfg1.N) (G : Vec F S1x1 .f32) : ((cfg1.win 4).blk t).view.read (Elt F) G = G := by
  funext j
  show G (((cfg1.win 4).blk t).view.emb j) = G j
  refine congrArg G ?_
  obtain ⟨e0, e1⟩ := idx_l t
  funext a; apply Fin.ext
  match a with
  | ⟨0, _⟩ => show win1_4.index t (0 : Fin 2) * 1 + 1 * (j 0).val = (j 0).val; omega
  | ⟨1, _⟩ => show win1_4.index t (1 : Fin 2) * 1 + 1 * (j 1).val = (j 1).val; omega

/-- An index of the array is in tile t's block iff each coordinate is in the block's range on its axis. -/
theorem mem_blk_l (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v1_1).slice (win1_4.rect t)).set ↔ _
  rw [View.set_slice_whole, Rect.mem_set_unit]
  exact Iff.rfl

/-- Every index of the array is in every tile's block. -/
theorem in_blk_l (t : Fin cfg1.N) (i : S1x1.Idx) : i ∈ ((cfg1.win 4).blk t).view.set := by
  rw [mem_blk_l]
  obtain ⟨e0, e1⟩ := idx_l t
  intro a
  match a with
  | ⟨0, _⟩ =>
    have hi : (i 0).val < 1 := (i 0).isLt
    show win1_4.index t (0 : Fin 2) * 1 ≤ (i 0).val ∧ (i 0).val < win1_4.index t (0 : Fin 2) * 1 + 1; omega
  | ⟨1, _⟩ =>
    have hi : (i 1).val < 1 := (i 1).isLt
    show win1_4.index t (1 : Fin 2) * 1 ≤ (i 1).val ∧ (i 1).val < win1_4.index t (1 : Fin 2) * 1 + 1; omega

section
variable (V : (c : Dev nD) → (b : Ref sig .tc) → Buf (Elt F) ((c : Thread nD τ).loc b))

/-- What a tile writes back of the denominator output — only the last tile does — is the last tile's copied statistic. -/
theorem flushed_l (c : Dev nD) (t : Fin cfg1.N) (hf : (cfg1.win 4).flush t = true) :
    (dat V c).flushed 4 t = ((cfg1.win 4).blk t).view.read (Elt F) ((stateAt V c 127 last_lt).1.2.1) := by
  have hv : t.val = 127 := by
    have h := (flush1_4 t).mp hf
    have hN : t.val < 128 := lt_of_lt_of_eq t.isLt (show cfg1.N = 128 from N_1)
    omega
  show (cfg1.win 4).cut (grid1.coords t) ((dat V c).after 4 t) = _
  rw [after_4, read_blk_l, cut_l, stateAt_congr V c t.val 127 t.isLt last_lt hv]

/-- THE ARRAY after the call: the denominator the last tile copied out. -/
theorem arr_l (c : Dev nD) : (dat V c).arrAt 4 cfg1.N = (stateAt V c 127 last_lt).1.2.1 :=
  (dat V c).arrAt_eq_of_cover 4 ((stateAt V c 127 last_lt).1.2.1) (fun t hf => flushed_l V c t hf)
    (fun i => ⟨⟨127, last_lt⟩, (flush1_4 ⟨127, last_lt⟩).mpr rfl, in_blk_l ⟨127, last_lt⟩ i⟩)

end

/-! ## The weighted-sum output -/

/-- The weighted-sum output's block index is zero on both axes at every tile: its one block is the whole array. -/
theorem idx_acc : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- The window is uncut: what is written back of a buffer is the buffer. -/
theorem cut_acc (t : Fin cfg1.N) (X : Vec F S1x4096 .f32) : (cfg1.win 5).cut (grid1.coords t) X = X := rfl

/-- Reading the window's block off an array of the output's shape reads the array. -/
theorem read_blk_acc (t : Fin cfg1.N) (G : Vec F S1x4096 .f32) : ((cfg1.win 5).blk t).view.read (Elt F) G = G := by
  funext j
  show G (((cfg1.win 5).blk t).view.emb j) = G j
  refine congrArg G ?_
  obtain ⟨e0, e1⟩ := idx_acc t
  funext a; apply Fin.ext
  match a with
  | ⟨0, _⟩ => show win1_5.index t (0 : Fin 2) * 1 + 1 * (j 0).val = (j 0).val; omega
  | ⟨1, _⟩ => show win1_5.index t (1 : Fin 2) * 4096 + 1 * (j 1).val = (j 1).val; omega

/-- An index of the array is in tile t's block iff each coordinate is in the block's range on its axis. -/
theorem mem_blk_acc (t : Fin cfg1.N) (i : S1x4096.Idx) :
    i ∈ ((cfg1.win 5).blk t).view.set ↔ ∀ a : Fin 2, win1_5.index t a * S1x4096.size a ≤ (i a).val ∧ (i a).val < win1_5.index t a * S1x4096.size a + S1x4096.size a := by
  show i ∈ ((View.whole main_v1_2).slice (win1_5.rect t)).set ↔ _
  rw [View.set_slice_whole, Rect.mem_set_unit]
  exact Iff.rfl

/-- Every index of the array is in every tile's block. -/
theorem in_blk_acc (t : Fin cfg1.N) (i : S1x4096.Idx) : i ∈ ((cfg1.win 5).blk t).view.set := by
  rw [mem_blk_acc]
  obtain ⟨e0, e1⟩ := idx_acc t
  intro a
  match a with
  | ⟨0, _⟩ =>
    have hi : (i 0).val < 1 := (i 0).isLt
    show win1_5.index t (0 : Fin 2) * 1 ≤ (i 0).val ∧ (i 0).val < win1_5.index t (0 : Fin 2) * 1 + 1; omega
  | ⟨1, _⟩ =>
    have hi : (i 1).val < 4096 := (i 1).isLt
    show win1_5.index t (1 : Fin 2) * 4096 ≤ (i 1).val ∧ (i 1).val < win1_5.index t (1 : Fin 2) * 4096 + 4096; omega

section
variable (V : (c : Dev nD) → (b : Ref sig .tc) → Buf (Elt F) ((c : Thread nD τ).loc b))

/-- What a tile writes back of the weighted-sum output — only the last tile does — is the last tile's copied statistic. -/
theorem flushed_acc (c : Dev nD) (t : Fin cfg1.N) (hf : (cfg1.win 5).flush t = true) :
    (dat V c).flushed 5 t = ((cfg1.win 5).blk t).view.read (Elt F) ((stateAt V c 127 last_lt).1.2.2) := by
  have hv : t.val = 127 := by
    have h := (flush1_5 t).mp hf
    have hN : t.val < 128 := lt_of_lt_of_eq t.isLt (show cfg1.N = 128 from N_1)
    omega
  show (cfg1.win 5).cut (grid1.coords t) ((dat V c).after 5 t) = _
  rw [after_5, read_blk_acc, cut_acc, stateAt_congr V c t.val 127 t.isLt last_lt hv]

/-- THE ARRAY after the call: the weighted-sum the last tile copied out. -/
theorem arr_acc (c : Dev nD) : (dat V c).arrAt 5 cfg1.N = (stateAt V c 127 last_lt).1.2.2 :=
  (dat V c).arrAt_eq_of_cover 5 ((stateAt V c 127 last_lt).1.2.2) (fun t hf => flushed_acc V c t hf)
    (fun i => ⟨⟨127, last_lt⟩, (flush1_5 ⟨127, last_lt⟩).mpr rfl, in_blk_acc ⟨127, last_lt⟩ i⟩)

end

end Cert.KernelIdeal.Flash

end
-- ==== Proof.IdealFlashPieces.lean ====
import proofs.«148700_j48034914238768_1_alg».proof.Proof.IdealFlash
import Idealize.ShloMosaic.Lib.Pipeline.Value

-- membership in a rectangle of 256 x 4096 extents: the structural look recurses once per coordinate of the long axes
set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call's found pieces as the kernel's arithmetic

Each control case's contents (the pieces its run found, read back) equal the kernel's payloads applied to the blocks
the tile was handed and to what the scratch held: one online-softmax update per tile. Generic in the float model. -/

/-- The zero offsets of a rank-2 access, as the constant function. -/
theorem hz2 : (![0, 0] : Fin 2 → Nat) = fun _ => 0 := funext fun a => by fin_cases a <;> rfl

/-- A middle tile leaves in the running maximum the larger of what it held and the tile's largest scaled score. -/
theorem mAfterMid_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) :
    mAfterMid c i arg1 harg1 arg2 harg2 arg3 harg3 arg4 harg4 arg5 harg5 arg6 harg6 arg7 harg7 arg8 harg8 arg9 harg9 hc0 hc1 xq xk xv m0 l0 a0 = k1_pay2 (k1_pay7 xq xk m0) := by
  unfold mAfterMid
  rw [View.read_writes_eq_canon _ _ _ (cover_mAfterMid c i arg1 harg1 arg2 harg2 arg3 harg3 arg4 harg4 arg5 harg5 arg6 harg6 arg7 harg7 arg8 harg8 arg9 harg9 hc0 hc1 xq xk xv m0 l0 a0)]
  unfold runMid
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- A middle tile leaves in the running denominator the old one rescaled to the new maximum plus the tile's sum of exponentials. -/
theorem lAfterMid_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) :
    lAfterMid c i arg1 harg1 arg2 harg2 arg3 harg3 arg4 harg4 arg5 harg5 arg6 harg6 arg7 harg7 arg8 harg8 arg9 harg9 hc0 hc1 xq xk xv m0 l0 a0 = k1_pay10 xq xk m0 m0 l0 := by
  unfold lAfterMid
  rw [View.read_writes_eq_canon _ _ _ (cover_lAfterMid c i arg1 harg1 arg2 harg2 arg3 harg3 arg4 harg4 arg5 harg5 arg6 harg6 arg7 harg7 arg8 harg8 arg9 harg9 hc0 hc1 xq xk xv m0 l0 a0)]
  unfold runMid
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- A middle tile leaves in the running weighted sum the old one rescaled to the new maximum plus the tile's weighted value rows. -/
theorem accAfterMid_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : ¬atLast i)
    (xq : Vec F S1x4096 .f32) (xk : Vec F S256x4096 .f32) (xv : Vec F S256x4096 .f32) (m0 : Vec F S1x1 .f32) (l0 : Vec F S1x1 .f32) (a0 : Vec F S1x4096 .f32) :
    accAfterMid c i arg1 harg1 arg2 harg2 arg3 harg3 arg4 harg4 arg5 harg5 arg6 harg6 arg7 harg7 arg8 harg8 arg9 harg9 hc0 hc1 xq xk xv m0 l0 a0 = k1_pay1 (k1_pay8 xq xk m0 m0) (k1_pay11 xq xk xv m0) a0 := by
  unfold accAfterMid
  rw [View.read_writes_eq_canon _ _ _ (cover_accAfterMid c i arg1 harg1 arg2 harg2 arg3 harg3 arg4 harg4 arg5 harg5 arg6 harg6 arg7 harg7 arg8 harg8 arg9 harg9 hc0 hc1 xq xk xv m0 l0 a0)]
  unfold runMid
  dsimp only
  sl_unfold_words
  rw [View.canon_cons_unit_zero (S := S1x4096) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The last tile updates the running maximum as a middle tile does. -/
theorem mAfterLast_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) :
    mAfterLast c i arg1 harg1 arg2 harg2 arg3 harg3 arg4 harg4 arg5 harg5 arg6 harg6 arg7 harg7 arg8 harg8 arg9 harg9 hc0 hc1 xq xk xv m0 l0 a0 = k1_pay2 (k1_pay7 xq xk m0) := by
  unfold mAfterLast
  rw [View.read_writes_eq_canon _ _ _ (cover_mAfterLast c i arg1 harg1 arg2 harg2 arg3 harg3 arg4 harg4 arg5 harg5 arg6 harg6 arg7 harg7 arg8 harg8 arg9 harg9 hc0 hc1 xq xk xv m0 l0 a0)]
  unfold runLast
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The last tile updates the running denominator as a middle tile does. -/
theorem lAfterLast_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) :
    lAfterLast c i arg1 harg1 arg2 harg2 arg3 harg3 arg4 harg4 arg5 harg5 arg6 harg6 arg7 harg7 arg8 harg8 arg9 harg9 hc0 hc1 xq xk xv m0 l0 a0 = k1_pay10 xq xk m0 m0 l0 := by
  unfold lAfterLast
  rw [View.read_writes_eq_canon _ _ _ (cover_lAfterLast c i arg1 harg1 arg2 harg2 arg3 harg3 arg4 harg4 arg5 harg5 arg6 harg6 arg7 harg7 arg8 harg8 arg9 harg9 hc0 hc1 xq xk xv m0 l0 a0)]
  unfold runLast
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The last tile updates the running weighted sum as a middle tile does. -/
theorem accAfterLast_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) :
    accAfterLast c i arg1 harg1 arg2 harg2 arg3 harg3 arg4 harg4 arg5 harg5 arg6 harg6 arg7 harg7 arg8 harg8 arg9 harg9 hc0 hc1 xq xk xv m0 l0 a0 = k1_pay1 (k1_pay8 xq xk m0 m0) (k1_pay11 xq xk xv m0) a0 := by
  unfold accAfterLast
  rw [View.read_writes_eq_canon _ _ _ (cover_accAfterLast c i arg1 harg1 arg2 harg2 arg3 harg3 arg4 harg4 arg5 harg5 arg6 harg6 arg7 harg7 arg8 harg8 arg9 harg9 hc0 hc1 xq xk xv m0 l0 a0)]
  unfold runLast
  dsimp only
  sl_unfold_words
  rw [View.canon_cons_unit_zero (S := S1x4096) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The last tile copies to the maximum output what it has just stored into the running maximum. -/
theorem outMAtLast_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) :
    outMAtLast c i arg1 harg1 arg2 harg2 arg3 harg3 arg4 harg4 arg5 harg5 arg6 harg6 arg7 harg7 arg8 harg8 arg9 harg9 hc0 hc1 xq xk xv m0 l0 a0 = k1_pay2 (k1_pay7 xq xk m0) := by
  unfold outMAtLast
  rw [View.read_writes_eq_canon _ _ _ (cover_outMAtLast c i arg1 harg1 arg2 harg2 arg3 harg3 arg4 harg4 arg5 harg5 arg6 harg6 arg7 harg7 arg8 harg8 arg9 harg9 hc0 hc1 xq xk xv m0 l0 a0)]
  unfold runLast
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The last tile copies to the denominator output what it has just stored into the running denominator. -/
theorem outLAtLast_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) :
    outLAtLast c i arg1 harg1 arg2 harg2 arg3 harg3 arg4 harg4 arg5 harg5 arg6 harg6 arg7 harg7 arg8 harg8 arg9 harg9 hc0 hc1 xq xk xv m0 l0 a0 = k1_pay10 xq xk m0 m0 l0 := by
  unfold outLAtLast
  rw [View.read_writes_eq_canon _ _ _ (cover_outLAtLast c i arg1 harg1 arg2 harg2 arg3 harg3 arg4 harg4 arg5 harg5 arg6 harg6 arg7 harg7 arg8 harg8 arg9 harg9 hc0 hc1 xq xk xv m0 l0 a0)]
  unfold runLast
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The last tile copies to the weighted-sum output what it has just stored into the running weighted sum. -/
theorem outAccAtLast_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : ¬atFirst i) (hc1 : atLast i)
    (xq : Vec F S1x4096 .f32) (xk : Vec F S256x4096 .f32) (xv : Vec F S256x4096 .f32) (m0 : Vec F S1x1 .f32) (l0 : Vec F S1x1 .f32) (a0 : Vec F S1x4096 .f32) :
    outAccAtLast c i arg1 harg1 arg2 harg2 arg3 harg3 arg4 harg4 arg5 harg5 arg6 harg6 arg7 harg7 arg8 harg8 arg9 harg9 hc0 hc1 xq xk xv m0 l0 a0 = k1_pay1 (k1_pay8 xq xk m0 m0) (k1_pay11 xq xk xv m0) a0 := by
  unfold outAccAtLast
  rw [View.read_writes_eq_canon _ _ _ (cover_outAccAtLast c i arg1 harg1 arg2 harg2 arg3 harg3 arg4 harg4 arg5 harg5 arg6 harg6 arg7 harg7 arg8 harg8 arg9 harg9 hc0 hc1 xq xk xv m0 l0 a0)]
  unfold runLast
  dsimp only
  sl_unfold_words
  rw [View.canon_cons_unit_zero (S := S1x4096) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The first tile leaves in the running maximum the update of the reset value (minus infinity) by its tile. -/
theorem mAfterFirst_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) :
    mAfterFirst c i arg1 harg1 arg2 harg2 arg3 harg3 arg4 harg4 arg5 harg5 arg6 harg6 arg7 harg7 arg8 harg8 arg9 harg9 hc0 hc1 xq xk xv = k1_pay2 (k1_pay7 xq xk k1_pay3) := by
  unfold mAfterFirst
  rw [View.read_writes_eq_canon _ _ _ (cover_mAfterFirst c i arg1 harg1 arg2 harg2 arg3 harg3 arg4 harg4 arg5 harg5 arg6 harg6 arg7 harg7 arg8 harg8 arg9 harg9 hc0 hc1 xq xk xv)]
  unfold runFirst
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The first tile leaves in the running denominator the update of the reset values (minus infinity, zero) by its tile. -/
theorem lAfterFirst_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) :
    lAfterFirst c i arg1 harg1 arg2 harg2 arg3 harg3 arg4 harg4 arg5 harg5 arg6 harg6 arg7 harg7 arg8 harg8 arg9 harg9 hc0 hc1 xq xk xv = k1_pay10 xq xk k1_pay3 k1_pay3 k1_pay4 := by
  unfold lAfterFirst
  rw [View.read_writes_eq_canon _ _ _ (cover_lAfterFirst c i arg1 harg1 arg2 harg2 arg3 harg3 arg4 harg4 arg5 harg5 arg6 harg6 arg7 harg7 arg8 harg8 arg9 harg9 hc0 hc1 xq xk xv)]
  unfold runFirst
  dsimp only
  sl_unfold_words
  rw [View.canon_cons_unit_zero (S := S1x1) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

/-- The first tile leaves in the running weighted sum the update of the reset values (minus infinity, zero row) by its tile. -/
theorem accAfterFirst_eq (c : Dev nD) (i : grid1.Coords) (arg1 : Memref sig .tc .vmem S1x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x4096 .f32) (harg9 : arg9.IsWhole) (hc0 : atFirst i) (hc1 : ¬atLast i)
    (xq : Vec F S1x4096 .f32) (xk : Vec F S256x4096 .f32) (xv : Vec F S256x4096 .f32) :
    accAfterFirst c i arg1 harg1 arg2 harg2 arg3 harg3 arg4 harg4 arg5 harg5 arg6 harg6 arg7 harg7 arg8 harg8 arg9 harg9 hc0 hc1 xq xk xv = k1_pay1 (k1_pay8 xq xk k1_pay3 k1_pay3) (k1_pay11 xq xk xv k1_pay3) k1_pay5 := by
  unfold accAfterFirst
  rw [View.read_writes_eq_canon _ _ _ (cover_accAfterFirst c i arg1 harg1 arg2 harg2 arg3 harg3 arg4 harg4 arg5 harg5 arg6 harg6 arg7 harg7 arg8 harg8 arg9 harg9 hc0 hc1 xq xk xv)]
  unfold runFirst
  dsimp only
  sl_unfold_words
  rw [View.canon_cons_unit_zero (S := S1x4096) hz2]
  simp only [View.readAt_eq_ld, harg1.read_unread, harg2.read_unread, harg3.read_unread, harg4.read_unread, harg5.read_unread, harg6.read_unread, harg7.read_unread, harg8.read_unread, harg9.read_unread, View.ld_unit_zero (S := S1x4096) hz2, View.ld_unit_zero (S := S256x4096) hz2, View.ld_unit_zero (S := S1x1) hz2, View.readCov_unit_zero (S := S1x1) _ hz2, View.readCov_unit_zero (S := S1x4096) _ hz2]

end Cert.KernelIdeal.Flash

end
-- ==== Proof.IdealFlashSteps.lean ====
import proofs.«148700_j48034914238768_1_alg».proof.Proof.IdealFlashPieces

-- membership in a rectangle of 256 x 4096 extents: the structural look recurses once per coordinate of the long axes
set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention call's recurrence, one tile at a time, as the kernel's arithmetic

What the three scratch buffers hold after a tile — and, at the last tile, what the three outputs' staging buffers hold —
is the kernel's payloads applied to the tile's three blocks and to what the scratch held before: from the reset values
at the first tile, from the previous tile's statistics afterwards. Generic in the float model, at the entry contents V. -/

section Steps
variable (V : (c : Dev nD) → (b : Ref sig .tc) → Buf (Elt F) ((c : Thread nD τ).loc b))

/-- After the first tile: one update of the reset values (minus infinity, zero, the zero row) by the tile. -/
theorem scratch_first (c : Dev nD) (t : Fin cfg1.N) (h0 : t.val % 128 = 0) (h1 : ¬t.val % 128 = 127) :
    (stateAt V c t.val t.isLt).2 = (k1_pay2 (k1_pay7 (blk V c 0 t) (blk V c 1 t) k1_pay3), k1_pay10 (blk V c 0 t) (blk V c 1 t) k1_pay3 k1_pay3 k1_pay4, k1_pay1 (k1_pay8 (blk V c 0 t) (blk V c 1 t) k1_pay3 k1_pay3) (k1_pay11 (blk V c 0 t) (blk V c 1 t) (blk V c 2 t) k1_pay3) k1_pay5) := by
  rw [stateAt_first V c t h0 h1]
  dsimp only
  rw [mAfterFirst_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t),
    lAfterFirst_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t),
    accAfterFirst_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (first_of t h0) (notLast_of t h1) (blk V c 0 t) (blk V c 1 t) (blk V c 2 t)]

/-- After a middle tile: one update of the previous tile's statistics (pm, pl, pa) by the tile. -/
theorem scratch_mid (c : Dev nD) (t : Fin cfg1.N) (h0 : ¬t.val % 128 = 0) (h1 : ¬t.val % 128 = 127)
    (pm pl : Vec F S1x1 .f32) (pa : Vec F S1x4096 .f32) (hb : t.val - 1 < cfg1.N)
    (hp : (stateAt V c (t.val - 1) hb).2 = (pm, pl, pa)) :
    (stateAt V c t.val t.isLt).2 = (k1_pay2 (k1_pay7 (blk V c 0 t) (blk V c 1 t) pm), k1_pay10 (blk V c 0 t) (blk V c 1 t) pm pm pl, k1_pay1 (k1_pay8 (blk V c 0 t) (blk V c 1 t) pm pm) (k1_pay11 (blk V c 0 t) (blk V c 1 t) (blk V c 2 t) pm) pa) := by
  rw [stateAt_mid V c t h0 h1]
  dsimp only
  rw [hp]
  dsimp only
  rw [mAfterMid_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) pm pl pa,
    lAfterMid_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) pm pl pa,
    accAfterMid_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (notLast_of t h1) (blk V c 0 t) (blk V c 1 t) (blk V c 2 t) pm pl pa]

/-- After the last tile the scratch holds one more update of the previous tile's statistics, -/
theorem scratch_last (c : Dev nD) (t : Fin cfg1.N) (h0 : ¬t.val % 128 = 0) (h1 : t.val % 128 = 127)
    (pm pl : Vec F S1x1 .f32) (pa : Vec F S1x4096 .f32) (hb : t.val - 1 < cfg1.N)
    (hp : (stateAt V c (t.val - 1) hb).2 = (pm, pl, pa)) :
    (stateAt V c t.val t.isLt).2 = (k1_pay2 (k1_pay7 (blk V c 0 t) (blk V c 1 t) pm), k1_pay10 (blk V c 0 t) (blk V c 1 t) pm pm pl, k1_pay1 (k1_pay8 (blk V c 0 t) (blk V c 1 t) pm pm) (k1_pay11 (blk V c 0 t) (blk V c 1 t) (blk V c 2 t) pm) pa) := by
  rw [stateAt_last V c t h0 h1]
  dsimp only
  rw [hp]
  dsimp only
  rw [mAfterLast_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) pm pl pa,
    lAfterLast_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) pm pl pa,
    accAfterLast_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) pm pl pa]

/-- and the outputs' staging buffers hold the same three: the copy-out stores what has just been stored. -/
theorem out_last (c : Dev nD) (t : Fin cfg1.N) (h0 : ¬t.val % 128 = 0) (h1 : t.val % 128 = 127)
    (pm pl : Vec F S1x1 .f32) (pa : Vec F S1x4096 .f32) (hb : t.val - 1 < cfg1.N)
    (hp : (stateAt V c (t.val - 1) hb).2 = (pm, pl, pa)) :
    (stateAt V c t.val t.isLt).1 = (k1_pay2 (k1_pay7 (blk V c 0 t) (blk V c 1 t) pm), k1_pay10 (blk V c 0 t) (blk V c 1 t) pm pm pl, k1_pay1 (k1_pay8 (blk V c 0 t) (blk V c 1 t) pm pm) (k1_pay11 (blk V c 0 t) (blk V c 1 t) (blk V c 2 t) pm) pa) := by
  rw [stateAt_last V c t h0 h1]
  dsimp only
  rw [hp]
  dsimp only
  rw [outMAtLast_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) pm pl pa,
    outLAtLast_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) pm pl pa,
    outAccAtLast_eq c (grid1.coords t) (stQ t) (hstQ t) (stK t) (hstK t) (stV t) (hstV t) (stM t) (hstM t) (stL t) (hstL t) (stAcc t) (hstAcc t) scrM (Memref.isWhole_whole _) scrL (Memref.isWhole_whole _) scrAcc (Memref.isWhole_whole _) (notFirst_of t h0) (last_of t h1) (blk V c 0 t) (blk V c 1 t) (blk V c 2 t) pm pl pa]

end Steps

end Cert.KernelIdeal.Flash

end
-- ==== Proof.IdealFlashValue.lean ====
import proofs.«148700_j48034914238768_1_alg».proof.Proof.IdealFlash
import proofs.«148700_j48034914238768_1_alg».proof.Proof.IdealFlashStep
import proofs.«148700_j48034914238768_1_alg».proof.Proof.IdealFlashBlocks
import proofs.«148700_j48034914238768_1_alg».proof.Proof.IdealFlashArrays
import proofs.«148700_j48034914238768_1_alg».proof.Proof.IdealFlashSteps
import Idealize.ShloMosaic.Lib.Pipeline.Value
import Idealize.ShloMosaic.Lib.ValueIdx

set_option maxRecDepth 16384

noncomputable section

namespace Cert.KernelIdeal.FlashValue

open Cert.KernelIdeal Cert.KernelIdeal.Gen Cert.Attn
open Idealize.ShloMosaic Idealize.ShloMosaic.TcCoe Idealize.ShloMosaic.ValueIdx Idealize.SL.Sem
open Idealize.ShloMosaic.Pipeline (Dat)

/-! # What the attention call leaves in its three outputs

The call walks the 32768 cached keys in 128 tiles of 256. After tile t the three carried statistics are those of the
softmax over the first 256·(t+1) keys: the running maximum is the largest of their scaled scores, the running denominator
is the sum of their weights exp (score − maximum), and entry d of the running weighted sum is the sum of weight × value
feature d. The first tile establishes this from −∞, 0 and zeros; every further tile keeps it, by the block law of the
softmax sums (the old sums are rescaled by exp (old maximum − new maximum) and the tile's terms are added); and the last
tile copies the three statistics to the outputs, which therefore hold the softmax statistics of all 32768 cached keys. -/

variable (V : (c : Dev nD) → (b : Ref sig .tc) → Buf (Elt Ideal) ((c : Thread nD τ).loc b))

/-! ## The query row and the key and value tiles, at their literal types -/

/-- The query row as tile t sees it. -/
abbrev qrow (c : Dev nD) (t : Fin cfg1.N) : Vec Ideal S1x4096 .f32 := Flash.blk V c 0 t
/-- Tile t of the key cache: rows 256·t … 256·t + 255. -/
abbrev ktile (c : Dev nD) (t : Fin cfg1.N) : Vec Ideal S256x4096 .f32 := Flash.blk V c 1 t
/-- Tile t of the value cache: the same rows. -/
abbrev vtile (c : Dev nD) (t : Fin cfg1.N) : Vec Ideal S256x4096 .f32 := Flash.blk V c 2 t

/-! ## One tile folded in, over real inputs -/

/-- A tile after the first. Its keys are rows 256·t … 256·t + 255 of the cache, so their scores are S (256·t + j) and their
    values Vcol d (256·t + j): from the statistics of the first 256·t keys the tile makes those of the first 256·t + 256. -/
theorem fold_tile (c : Dev nD) {cst : ℝ} (hc : Ideal.ofBits .f32 0x3C800000#32 = ((cst : ℝ) : EReal)) {q : Fin 4096 → ℝ} {Kc Vc : Fin 32768 → Fin 4096 → ℝ} {S : ℕ → ℝ} {Vcol : Fin 4096 → ℕ → ℝ}
    (hq : ∀ d, V c (Pipeline.arrRef spec1 0) (ix2 0 d) = ((q d : ℝ) : EReal))
    (hK : ∀ i d, V c (Pipeline.arrRef spec1 1) (ix2 i d) = ((Kc i d : ℝ) : EReal))
    (hV : ∀ i d, V c (Pipeline.arrRef spec1 2) (ix2 i d) = ((Vc i d : ℝ) : EReal))
    (hS : ∀ i : Fin 32768, S i.val = (∑ d : Fin 4096, q d * Kc i d) * cst) (hVc : ∀ (i : Fin 32768) d, Vcol d i.val = Vc i d)
    (t : Fin cfg1.N) {sm sl : Vec Ideal S1x1 .f32} {sacc : Vec Ideal S1x4096 .f32} (h : FlashStep.Inv S Vcol (256 * t.val) sm sl sacc) :
    FlashStep.Inv S Vcol (256 * t.val + 256) (k1_pay2 (F := Ideal) (k1_pay7 (F := Ideal) (qrow V c t) (ktile V c t) sm))
      (k1_pay10 (F := Ideal) (qrow V c t) (ktile V c t) sm sm sl)
      (k1_pay1 (F := Ideal) (k1_pay8 (F := Ideal) (qrow V c t) (ktile V c t) sm sm) (k1_pay11 (F := Ideal) (qrow V c t) (ktile V c t) (vtile V c t) sm) sacc) :=
  FlashStep.step_mid (qrow V c t) (ktile V c t) (vtile V c t) S Vcol (256 * t.val) hc (q := q) (Kt := fun j d => Kc ⟨256 * t.val + j.val, FlashBlocks.row_lt t j⟩ d) (Vt := fun j d => Vc ⟨256 * t.val + j.val, FlashBlocks.row_lt t j⟩ d)
    (fun d => (FlashBlocks.qblk_eq V c t d).trans (hq d))
    (fun j d => (FlashBlocks.kblk_eq V c t j d).trans (hK ⟨256 * t.val + j.val, FlashBlocks.row_lt t j⟩ d))
    (fun j d => (FlashBlocks.vblk_eq V c t j d).trans (hV ⟨256 * t.val + j.val, FlashBlocks.row_lt t j⟩ d))
    (fun j => hS ⟨256 * t.val + j.val, FlashBlocks.row_lt t j⟩)
    (fun j d => hVc ⟨256 * t.val + j.val, FlashBlocks.row_lt t j⟩ d)
    h

/-- The first tile: from −∞, 0 and zeros it makes the statistics of the first 256 keys. -/
theorem fold_first (c : Dev nD) {cst : ℝ} (hc : Ideal.ofBits .f32 0x3C800000#32 = ((cst : ℝ) : EReal)) {q : Fin 4096 → ℝ} {Kc Vc : Fin 32768 → Fin 4096 → ℝ} {S : ℕ → ℝ} {Vcol : Fin 4096 → ℕ → ℝ}
    (hq : ∀ d, V c (Pipeline.arrRef spec1 0) (ix2 0 d) = ((q d : ℝ) : EReal))
    (hK : ∀ i d, V c (Pipeline.arrRef spec1 1) (ix2 i d) = ((Kc i d : ℝ) : EReal))
    (hV : ∀ i d, V c (Pipeline.arrRef spec1 2) (ix2 i d) = ((Vc i d : ℝ) : EReal))
    (hS : ∀ i : Fin 32768, S i.val = (∑ d : Fin 4096, q d * Kc i d) * cst) (hVc : ∀ (i : Fin 32768) d, Vcol d i.val = Vc i d)
    (t : Fin cfg1.N) (ht : t.val = 0) :
    FlashStep.Inv S Vcol 256 (k1_pay2 (F := Ideal) (k1_pay7 (F := Ideal) (qrow V c t) (ktile V c t) (k1_pay3 (F := Ideal))))
      (k1_pay10 (F := Ideal) (qrow V c t) (ktile V c t) (k1_pay3 (F := Ideal)) (k1_pay3 (F := Ideal)) (k1_pay4 (F := Ideal)))
      (k1_pay1 (F := Ideal) (k1_pay8 (F := Ideal) (qrow V c t) (ktile V c t) (k1_pay3 (F := Ideal)) (k1_pay3 (F := Ideal))) (k1_pay11 (F := Ideal) (qrow V c t) (ktile V c t) (vtile V c t) (k1_pay3 (F := Ideal))) (k1_pay5 (F := Ideal))) :=
  FlashStep.step_first (qrow V c t) (ktile V c t) (vtile V c t) S Vcol hc (q := q) (Kt := fun j d => Kc ⟨256 * t.val + j.val, FlashBlocks.row_lt t j⟩ d) (Vt := fun j d => Vc ⟨256 * t.val + j.val, FlashBlocks.row_lt t j⟩ d)
    (fun d => (FlashBlocks.qblk_eq V c t d).trans (hq d))
    (fun j d => (FlashBlocks.kblk_eq V c t j d).trans (hK ⟨256 * t.val + j.val, FlashBlocks.row_lt t j⟩ d))
    (fun j d => (FlashBlocks.vblk_eq V c t j d).trans (hV ⟨256 * t.val + j.val, FlashBlocks.row_lt t j⟩ d))
    (fun j => by
      have e : 0 + (j : ℕ) = 256 * t.val + j.val := by omega
      rw [e]; exact hS ⟨256 * t.val + j.val, FlashBlocks.row_lt t j⟩)
    (fun j d => by
      have e : 0 + (j : ℕ) = 256 * t.val + j.val := by omega
      rw [e]; exact hVc ⟨256 * t.val + j.val, FlashBlocks.row_lt t j⟩ d)

/-! ## The invariant over the tiles -/

/-- After tile n the carried statistics are those of the first 256·n + 256 cached keys. (Stated as: there are three
    vectors which are what tile n left and which are those statistics.) -/
theorem inv_scratch (c : Dev nD) {cst : ℝ} (hc : Ideal.ofBits .f32 0x3C800000#32 = ((cst : ℝ) : EReal)) {q : Fin 4096 → ℝ} {Kc Vc : Fin 32768 → Fin 4096 → ℝ} {S : ℕ → ℝ} {Vcol : Fin 4096 → ℕ → ℝ}
    (hq : ∀ d, V c (Pipeline.arrRef spec1 0) (ix2 0 d) = ((q d : ℝ) : EReal))
    (hK : ∀ i d, V c (Pipeline.arrRef spec1 1) (ix2 i d) = ((Kc i d : ℝ) : EReal))
    (hV : ∀ i d, V c (Pipeline.arrRef spec1 2) (ix2 i d) = ((Vc i d : ℝ) : EReal))
    (hS : ∀ i : Fin 32768, S i.val = (∑ d : Fin 4096, q d * Kc i d) * cst) (hVc : ∀ (i : Fin 32768) d, Vcol d i.val = Vc i d) :
    ∀ (n : ℕ) (hn : n < cfg1.N), ∃ (pm pl : Vec Ideal S1x1 .f32) (pa : Vec Ideal S1x4096 .f32),
      (Flash.stateAt V c (⟨n, hn⟩ : Fin cfg1.N).val (⟨n, hn⟩ : Fin cfg1.N).isLt).2 = (pm, pl, pa) ∧ FlashStep.Inv S Vcol (256 * n + 256) pm pl pa
  | 0, hn => ⟨_, _, _, Flash.scratch_first V c (⟨0, hn⟩ : Fin cfg1.N) (Nat.zero_mod _) Flash.zero_not_last, fold_first V c hc hq hK hV hS hVc (⟨0, hn⟩ : Fin cfg1.N) rfl⟩
  | n + 1, hn => by
    obtain ⟨pm, pl, pa, hp, hinv⟩ := inv_scratch c hc hq hK hV hS hVc n (Nat.lt_of_succ_lt hn)
    have hb : (⟨n + 1, hn⟩ : Fin cfg1.N).val - 1 < cfg1.N := Nat.lt_of_le_of_lt (Nat.sub_le _ _) (⟨n + 1, hn⟩ : Fin cfg1.N).isLt
    have hp' : (Flash.stateAt V c ((⟨n + 1, hn⟩ : Fin cfg1.N).val - 1) hb).2 = (pm, pl, pa) := by
      rw [Flash.stateAt_congr V c ((⟨n + 1, hn⟩ : Fin cfg1.N).val - 1) (⟨n, Nat.lt_of_succ_lt hn⟩ : Fin cfg1.N).val hb (⟨n, Nat.lt_of_succ_lt hn⟩ : Fin cfg1.N).isLt (Nat.add_sub_cancel n 1)]
      exact hp
    have hinv' : FlashStep.Inv S Vcol (256 * (⟨n + 1, hn⟩ : Fin cfg1.N).val) pm pl pa := by
      have e : 256 * (⟨n + 1, hn⟩ : Fin cfg1.N).val = 256 * n + 256 := by show 256 * (n + 1) = 256 * n + 256; omega
      rw [e]; exact hinv
    have hfold := fold_tile V c hc hq hK hV hS hVc (⟨n + 1, hn⟩ : Fin cfg1.N) hinv'
    have e' : 256 * (⟨n + 1, hn⟩ : Fin cfg1.N).val + 256 = 256 * (n + 1) + 256 := rfl
    rw [e'] at hfold
    by_cases h1 : (n + 1) % 128 = 127
    · exact ⟨_, _, _, Flash.scratch_last V c (⟨n + 1, hn⟩ : Fin cfg1.N) (Flash.succ_not_first n hn) h1 pm pl pa hb hp', hfold⟩
    · exact ⟨_, _, _, Flash.scratch_mid V c (⟨n + 1, hn⟩ : Fin cfg1.N) (Flash.succ_not_first n hn) h1 pm pl pa hb hp', hfold⟩

/-! ## The three outputs -/

theorem lt_126 : 126 < cfg1.N := by have := Flash.last_lt; omega

/-- THE VALUE OF THE ATTENTION CALL. With a real query row, real key and value caches and a real scale, the three output
    arrays end holding the largest of the 32768 scaled scores, the sum of the 32768 weights and, feature by feature, the
    weighted sum of the 32768 values. -/
theorem flash_final (c : Dev nD) (cst : ℝ) (hc : Ideal.ofBits .f32 0x3C800000#32 = ((cst : ℝ) : EReal)) (q : Fin 4096 → ℝ) (Kc Vc : Fin 32768 → Fin 4096 → ℝ) (S : ℕ → ℝ) (Vcol : Fin 4096 → ℕ → ℝ)
    (hq : ∀ d, V c (Pipeline.arrRef spec1 0) (ix2 0 d) = ((q d : ℝ) : EReal))
    (hK : ∀ i d, V c (Pipeline.arrRef spec1 1) (ix2 i d) = ((Kc i d : ℝ) : EReal))
    (hV : ∀ i d, V c (Pipeline.arrRef spec1 2) (ix2 i d) = ((Vc i d : ℝ) : EReal))
    (hS : ∀ i : Fin 32768, S i.val = (∑ d : Fin 4096, q d * Kc i d) * cst) (hVc : ∀ (i : Fin 32768) d, Vcol d i.val = Vc i d) :
    FlashStep.Inv S Vcol 32768 ((Flash.dat V c).arrAt 3 cfg1.N) ((Flash.dat V c).arrAt 4 cfg1.N) ((Flash.dat V c).arrAt 5 cfg1.N) := by
  rw [Flash.arr_m V c, Flash.arr_l V c, Flash.arr_acc V c]
  obtain ⟨pm, pl, pa, hp, hinv⟩ := inv_scratch V c hc hq hK hV hS hVc 126 lt_126
  have hb : (⟨127, Flash.last_lt⟩ : Fin cfg1.N).val - 1 < cfg1.N := Nat.lt_of_le_of_lt (Nat.sub_le _ _) (⟨127, Flash.last_lt⟩ : Fin cfg1.N).isLt
  have hp' : (Flash.stateAt V c ((⟨127, Flash.last_lt⟩ : Fin cfg1.N).val - 1) hb).2 = (pm, pl, pa) := by
    rw [Flash.stateAt_congr V c ((⟨127, Flash.last_lt⟩ : Fin cfg1.N).val - 1) (⟨126, lt_126⟩ : Fin cfg1.N).val hb (⟨126, lt_126⟩ : Fin cfg1.N).isLt rfl]
    exact hp
  have eo := Flash.out_last V c (⟨127, Flash.last_lt⟩ : Fin cfg1.N) (by decide) rfl pm pl pa hb hp'
  rw [Flash.stateAt_congr V c 127 (⟨127, Flash.last_lt⟩ : Fin cfg1.N).val Flash.last_lt (⟨127, Flash.last_lt⟩ : Fin cfg1.N).isLt rfl, eo]
  have hinv' : FlashStep.Inv S Vcol (256 * (⟨127, Flash.last_lt⟩ : Fin cfg1.N).val) pm pl pa := hinv
  exact fold_tile V c hc hq hK hV hS hVc (⟨127, Flash.last_lt⟩ : Fin cfg1.N) hinv'

end Cert.KernelIdeal.FlashValue

end
-- ==== Proof.RefRead.lean ====
/-
  The reference program's output, read at an index on real inputs.

  With every input a real number (read as an extended real), the reference computes, for the one query row:
  three projections x·Wᵀ + b (query, key, value); the keys and the values as the cached rows followed by the freshly
  projected row (32769 rows); the scores, the query against each key row, scaled; their largest, M; the weights
  exp (score − M), their sum, and the normalised weights; and the output, the normalised weights against a column of the
  values. Each stage below reads one of these at an index as a real number; the last theorem says the output entry is
  the softmax attention `Cert.Attn.out`, with M the largest of the 32769 scores.
-/
import proofs.«148700_j48034914238768_1_alg».proof.Proof.Gen.ReferenceIdeal.Run
import proofs.«148700_j48034914238768_1_alg».proof.Proof.Gen.ReferenceIdeal.Read
import proofs.«148700_j48034914238768_1_alg».proof.Proof.AttnMath
import proofs.«148700_j48034914238768_1_alg».proof.Proof.IdealConsts
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

/-- A finite sum of real numbers, each read as an extended real, is their real sum read as an extended real. -/
theorem coe_sum {ι : Type} (s : Finset ι) (f : ι → ℝ) : (∑ i ∈ s, ((f i : ℝ) : EReal)) = ((∑ i ∈ s, f i : ℝ) : EReal) := by
  classical
  refine Finset.induction_on s (by simp) fun a s ha ih => ?_
  rw [Finset.sum_insert ha, Finset.sum_insert ha, ih, EReal.coe_add]

/-- One row of weights against the one input row, plus the bias: a projection's entry, on real inputs. -/
theorem proj_coe (x0 : (⟨S1x4096, .f32⟩ : BufTy).Contents (Elt Ideal)) (W : (⟨S4096x4096, .f32⟩ : BufTy).Contents (Elt Ideal))
    (b : (⟨S4096, .f32⟩ : BufTy).Contents (Elt Ideal)) (x : Fin 4096 → ℝ) (Wr : Fin 4096 → Fin 4096 → ℝ) (br : Fin 4096 → ℝ)
    (hx : ∀ d, x0 (ix2 0 d) = ((x d : ℝ) : EReal)) (hW : ∀ j d, W (ix2 j d) = ((Wr j d : ℝ) : EReal))
    (hb : ∀ j, b (ix1 j) = ((br j : ℝ) : EReal)) (j : Fin 4096) :
    (∑ k : Fin 4096, x0 (ix2 0 k) * W (ix2 j k)) + b (ix1 j) = ((proj x Wr br j : ℝ) : EReal) := by
  have h : ∀ k : Fin 4096, x0 (ix2 0 k) * W (ix2 j k) = ((x k * Wr j k : ℝ) : EReal) := fun k => by
    rw [hx, hW, EReal.coe_mul]
  rw [Finset.sum_congr rfl (fun k _ => h k), coe_sum, hb, ← EReal.coe_add]
  rfl

/-- The query projection's entry `j`. -/
theorem q_at (x0 : (⟨S1x4096, .f32⟩ : BufTy).Contents (Elt Ideal)) (x3 : (⟨S4096x4096, .f32⟩ : BufTy).Contents (Elt Ideal))
    (x4 : (⟨S4096, .f32⟩ : BufTy).Contents (Elt Ideal)) (x : Fin 4096 → ℝ) (Wq : Fin 4096 → Fin 4096 → ℝ) (bq : Fin 4096 → ℝ)
    (hx : ∀ d, x0 (ix2 0 d) = ((x d : ℝ) : EReal)) (hWq : ∀ j d, x3 (ix2 j d) = ((Wq j d : ℝ) : EReal))
    (hbq : ∀ j, x4 (ix1 j) = ((bq j : ℝ) : EReal)) (j : Fin 4096) :
    val_main_v3 (F := Ideal) x0 x3 x4 (ix2 0 j) = ((proj x Wq bq j : ℝ) : EReal) := by
  rw [val_main_v3_apply, val_main_v1_apply, val_main_v2_apply, ← proj_coe x0 x3 x4 x Wq bq hx hWq hbq j]
  simp only [val_main_v0_apply]
  have e1 : ∀ k : Fin 4096, lidx_main_v1 (ix2 (0 : Fin 1) j) k = ix2 0 k := fun k =>
    funext fun a => Fin.ext (by match a with | ⟨0, _⟩ => rfl | ⟨1, _⟩ => rfl)
  have e2 : ∀ k : Fin 4096, idx_main_v0 (ridx_main_v1 (ix2 (0 : Fin 1) j) k) = ix2 j k := fun k =>
    funext fun a => Fin.ext (by match a with | ⟨0, _⟩ => rfl | ⟨1, _⟩ => rfl)
  have e3 : idx_main_v2 (ix2 (0 : Fin 1) j) = ix1 j :=
    funext fun a => Fin.ext (by match a with | ⟨0, _⟩ => rfl)
  simp only [e1, e2, e3]
  rfl

/-- The key projection's entry `j`. -/
theorem k_at (x0 : (⟨S1x4096, .f32⟩ : BufTy).Contents (Elt Ideal)) (x5 : (⟨S4096x4096, .f32⟩ : BufTy).Contents (Elt Ideal))
    (x6 : (⟨S4096, .f32⟩ : BufTy).Contents (Elt Ideal)) (x : Fin 4096 → ℝ) (Wk : Fin 4096 → Fin 4096 → ℝ) (bk : Fin 4096 → ℝ)
    (hx : ∀ d, x0 (ix2 0 d) = ((x d : ℝ) : EReal)) (hWk : ∀ j d, x5 (ix2 j d) = ((Wk j d : ℝ) : EReal))
    (hbk : ∀ j, x6 (ix1 j) = ((bk j : ℝ) : EReal)) (j : Fin 4096) :
    val_main_v7 (F := Ideal) x0 x5 x6 (ix2 0 j) = ((proj x Wk bk j : ℝ) : EReal) := by
  rw [val_main_v7_apply, val_main_v5_apply, val_main_v6_apply, ← proj_coe x0 x5 x6 x Wk bk hx hWk hbk j]
  simp only [val_main_v4_apply]
  have e1 : ∀ k : Fin 4096, lidx_main_v5 (ix2 (0 : Fin 1) j) k = ix2 0 k := fun k =>
    funext fun a => Fin.ext (by match a with | ⟨0, _⟩ => rfl | ⟨1, _⟩ => rfl)
  have e2 : ∀ k : Fin 4096, idx_main_v4 (ridx_main_v5 (ix2 (0 : Fin 1) j) k) = ix2 j k := fun k =>
    funext fun a => Fin.ext (by match a with | ⟨0, _⟩ => rfl | ⟨1, _⟩ => rfl)
  have e3 : idx_main_v6 (ix2 (0 : Fin 1) j) = ix1 j :=
    funext fun a => Fin.ext (by match a with | ⟨0, _⟩ => rfl)
  simp only [e1, e2, e3]
  rfl

/-- The value projection's entry `j`. -/
theorem v_at (x0 : (⟨S1x4096, .f32⟩ : BufTy).Contents (Elt Ideal)) (x7 : (⟨S4096x4096, .f32⟩ : BufTy).Contents (Elt Ideal))
    (x8 : (⟨S4096, .f32⟩ : BufTy).Contents (Elt Ideal)) (x : Fin 4096 → ℝ) (Wv : Fin 4096 → Fin 4096 → ℝ) (bv : Fin 4096 → ℝ)
    (hx : ∀ d, x0 (ix2 0 d) = ((x d : ℝ) : EReal)) (hWv : ∀ j d, x7 (ix2 j d) = ((Wv j d : ℝ) : EReal))
    (hbv : ∀ j, x8 (ix1 j) = ((bv j : ℝ) : EReal)) (j : Fin 4096) :
    val_main_v11 (F := Ideal) x0 x7 x8 (ix2 0 j) = ((proj x Wv bv j : ℝ) : EReal) := by
  rw [val_main_v11_apply, val_main_v9_apply, val_main_v10_apply, ← proj_coe x0 x7 x8 x Wv bv hx hWv hbv j]
  simp only [val_main_v8_apply]
  have e1 : ∀ k : Fin 4096, lidx_main_v9 (ix2 (0 : Fin 1) j) k = ix2 0 k := fun k =>
    funext fun a => Fin.ext (by match a with | ⟨0, _⟩ => rfl | ⟨1, _⟩ => rfl)
  have e2 : ∀ k : Fin 4096, idx_main_v8 (ridx_main_v9 (ix2 (0 : Fin 1) j) k) = ix2 j k := fun k =>
    funext fun a => Fin.ext (by match a with | ⟨0, _⟩ => rfl | ⟨1, _⟩ => rfl)
  have e3 : idx_main_v10 (ix2 (0 : Fin 1) j) = ix1 j :=
    funext fun a => Fin.ext (by match a with | ⟨0, _⟩ => rfl)
  simp only [e1, e2, e3]
  rfl

/-- The cache with one row appended, read at a row of the cache. -/
theorem append_old (y : (⟨S32768x4096, .f32⟩ : BufTy).Contents (Elt Ideal)) (z : (⟨S1x4096, .f32⟩ : BufTy).Contents (Elt Ideal))
    (k : Fin 32769) (h : k.val < 32768) (d : Fin 4096) :
    concatenate S32769x4096 0 [⟨S32768x4096, y⟩, ⟨S1x4096, z⟩] concatenates_S32768x4096_S1x4096_S32769x4096_d0 (ix2 k d)
      = y (ix2 ⟨k.val, h⟩ d) :=
  concatenate_pair_apply_left 0 y z concatenates_S32768x4096_S1x4096_S32769x4096_d0 (ix2 k d) rfl (ix2 ⟨k.val, h⟩ d)
    (fun b => match b with | ⟨0, _⟩ => rfl | ⟨1, _⟩ => rfl)

/-- The cache with one row appended, read at the appended row. -/
theorem append_new (y : (⟨S32768x4096, .f32⟩ : BufTy).Contents (Elt Ideal)) (z : (⟨S1x4096, .f32⟩ : BufTy).Contents (Elt Ideal))
    (k : Fin 32769) (h : ¬ k.val < 32768) (d : Fin 4096) :
    concatenate S32769x4096 0 [⟨S32768x4096, y⟩, ⟨S1x4096, z⟩] concatenates_S32768x4096_S1x4096_S32769x4096_d0 (ix2 k d)
      = z (ix2 0 d) :=
  concatenate_pair_apply_right 0 y z concatenates_S32768x4096_S1x4096_S32769x4096_d0 (ix2 k d) rfl rfl (ix2 0 d)
    (fun b => match b with | ⟨0, _⟩ => fun hne => absurd rfl hne | ⟨1, _⟩ => fun _ => rfl)
    (by show 0 + 32768 = k.val; have := k.isLt; omega)

/-- Row `k` of the keys, the cached rows first and the projected key last. -/
theorem keys_at (x0 : (⟨S1x4096, .f32⟩ : BufTy).Contents (Elt Ideal)) (x1 : (⟨S32768x4096, .f32⟩ : BufTy).Contents (Elt Ideal))
    (x5 : (⟨S4096x4096, .f32⟩ : BufTy).Contents (Elt Ideal)) (x6 : (⟨S4096, .f32⟩ : BufTy).Contents (Elt Ideal))
    (x : Fin 4096 → ℝ) (Kc : Fin 32768 → Fin 4096 → ℝ) (Wk : Fin 4096 → Fin 4096 → ℝ) (bk : Fin 4096 → ℝ)
    (hx : ∀ d, x0 (ix2 0 d) = ((x d : ℝ) : EReal)) (hK : ∀ i d, x1 (ix2 i d) = ((Kc i d : ℝ) : EReal))
    (hWk : ∀ j d, x5 (ix2 j d) = ((Wk j d : ℝ) : EReal)) (hbk : ∀ j, x6 (ix1 j) = ((bk j : ℝ) : EReal))
    (k : Fin 32769) (d : Fin 4096) :
    val_main_v12 (F := Ideal) x0 x1 x5 x6 (ix2 k d)
      = (((if h : k.val < 32768 then Kc ⟨k.val, h⟩ d else proj x Wk bk d) : ℝ) : EReal) := by
  unfold val_main_v12
  by_cases h : k.val < 32768
  · rw [dif_pos h, append_old _ _ k h d, hK]
  · rw [dif_neg h, append_new _ _ k h d, k_at x0 x5 x6 x Wk bk hx hWk hbk d]

/-- Row `k` of the values, the cached rows first and the projected value last: column `d` of the values at key `k`. -/
theorem vals_at (x0 : (⟨S1x4096, .f32⟩ : BufTy).Contents (Elt Ideal)) (x2 : (⟨S32768x4096, .f32⟩ : BufTy).Contents (Elt Ideal))
    (x7 : (⟨S4096x4096, .f32⟩ : BufTy).Contents (Elt Ideal)) (x8 : (⟨S4096, .f32⟩ : BufTy).Contents (Elt Ideal))
    (x : Fin 4096 → ℝ) (Vc : Fin 32768 → Fin 4096 → ℝ) (Wv : Fin 4096 → Fin 4096 → ℝ) (bv : Fin 4096 → ℝ)
    (hx : ∀ d, x0 (ix2 0 d) = ((x d : ℝ) : EReal)) (hV : ∀ i d, x2 (ix2 i d) = ((Vc i d : ℝ) : EReal))
    (hWv : ∀ j d, x7 (ix2 j d) = ((Wv j d : ℝ) : EReal)) (hbv : ∀ j, x8 (ix1 j) = ((bv j : ℝ) : EReal))
    (k : Fin 32769) (d : Fin 4096) :
    val_main_v13 (F := Ideal) x0 x2 x7 x8 (ix2 k d) = ((valcol x Vc Wv bv d k.val : ℝ) : EReal) := by
  unfold val_main_v13 valcol
  by_cases h : k.val < 32768
  · rw [dif_pos h, append_old _ _ k h d, hV]
  · rw [dif_neg h, append_new _ _ k h d, v_at x0 x7 x8 x Wv bv hx hWv hbv d]

/-- The scaled score of key `k`. -/
theorem score_at (c : ℝ) (hc : Ideal.ofBits .f32 0x3C800000#32 = ((c : ℝ) : EReal))
    (x0 : (⟨S1x4096, .f32⟩ : BufTy).Contents (Elt Ideal)) (x1 : (⟨S32768x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x : Fin 4096 → ℝ) (Kc : Fin 32768 → Fin 4096 → ℝ) (Wq Wk : Fin 4096 → Fin 4096 → ℝ) (bq bk : Fin 4096 → ℝ)
    (hx : ∀ d, x0 (ix2 0 d) = ((x d : ℝ) : EReal)) (hK : ∀ i d, x1 (ix2 i d) = ((Kc i d : ℝ) : EReal))
    (hWq : ∀ j d, x3 (ix2 j d) = ((Wq j d : ℝ) : EReal)) (hbq : ∀ j, x4 (ix1 j) = ((bq j : ℝ) : EReal))
    (hWk : ∀ j d, x5 (ix2 j d) = ((Wk j d : ℝ) : EReal)) (hbk : ∀ j, x6 (ix1 j) = ((bk j : ℝ) : EReal))
    (k : Fin 32769) :
    val_main_v17 (F := Ideal) x0 x1 x3 x4 x5 x6 (ix2 0 k) = ((score c x Kc Wq Wk bq bk k.val : ℝ) : EReal) := by
  rw [val_main_v17_apply, val_main_v15_apply, val_main_v16_apply, val_main_cst_apply]
  have e1 : ∀ d : Fin 4096, lidx_main_v15 (ix2 (0 : Fin 1) k) d = ix2 0 d := fun d =>
    funext fun a => Fin.ext (by match a with | ⟨0, _⟩ => rfl | ⟨1, _⟩ => rfl)
  have e2 : ∀ d : Fin 4096, idx_main_v14 (ridx_main_v15 (ix2 (0 : Fin 1) k) d) = ix2 k d := fun d =>
    funext fun a => Fin.ext (by match a with | ⟨0, _⟩ => rfl | ⟨1, _⟩ => rfl)
  have h : ∀ d : Fin 4096, val_main_v3 (F := Ideal) x0 x3 x4 (lidx_main_v15 (ix2 (0 : Fin 1) k) d)
        * val_main_v14 (F := Ideal) x0 x1 x5 x6 (ridx_main_v15 (ix2 (0 : Fin 1) k) d)
      = ((proj x Wq bq d * (if h : k.val < 32768 then Kc ⟨k.val, h⟩ d else proj x Wk bk d) : ℝ) : EReal) := fun d => by
    rw [val_main_v14_apply, e1, e2, q_at x0 x3 x4 x Wq bq hx hWq hbq d, keys_at x0 x1 x5 x6 x Kc Wk bk hx hK hWk hbk k d,
      EReal.coe_mul]
  rw [Finset.sum_congr rfl (fun d _ => h d), coe_sum, Ideal.ofBits_def, hc, Ideal.mulf_def, ← EReal.coe_mul]
  refine congrArg (fun r : ℝ => (r : EReal)) ?_
  unfold score
  by_cases h' : k.val < 32768
  · simp only [dif_pos h']
  · simp only [dif_neg h']

/-- Finitely many real numbers read as extended reals, folded by `max` from negative infinity: the result is one of
    them, and above them all. -/
theorem fold_max_coe (n : ℕ) (hn : 0 < n) (S : ℕ → ℝ) :
    ∃ M : ℝ, IsTop S n M
      ∧ (Finset.univ : Finset (Fin n)).fold max (⊥ : EReal) (fun k => ((S k.val : ℝ) : EReal)) = ((M : ℝ) : EReal) := by
  obtain ⟨m, -, hm⟩ := Finset.exists_max_image (Finset.univ : Finset (Fin n)) (fun k => S k.val)
    ⟨⟨0, hn⟩, Finset.mem_univ _⟩
  refine ⟨S m.val, ⟨⟨m.val, m.isLt, rfl⟩, fun i hi => hm ⟨i, hi⟩ (Finset.mem_univ _)⟩, le_antisymm ?_ ?_⟩
  · rw [Finset.fold_max_le]
    exact ⟨bot_le, fun k _ => EReal.coe_le_coe_iff.2 (hm k (Finset.mem_univ _))⟩
  · rw [Finset.le_fold_max]
    exact Or.inr ⟨m, Finset.mem_univ _, le_rfl⟩

/-- The one row's index with the key coordinate `k` put back. -/
theorem lift_row (hR : S1x32769.Reduces [1] S1) (k : Fin 32769) : hR.lift (ix1 (0 : Fin 1)) k = ix2 0 k := by
  funext c
  apply Fin.ext
  show hR.liftVal (ix1 (0 : Fin 1)) k.val c = (ix2 (0 : Fin 1) k c).val
  unfold Shape.Reduces.liftVal
  match c with
  | ⟨0, _⟩ => first | rfl | simp
  | ⟨1, _⟩ => first | rfl | simp

/-- The largest score, which every key's score is lowered by. -/
theorem max_at (c : ℝ) (hc : Ideal.ofBits .f32 0x3C800000#32 = ((c : ℝ) : EReal))
    (x0 : (⟨S1x4096, .f32⟩ : BufTy).Contents (Elt Ideal)) (x1 : (⟨S32768x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x : Fin 4096 → ℝ) (Kc : Fin 32768 → Fin 4096 → ℝ) (Wq Wk : Fin 4096 → Fin 4096 → ℝ) (bq bk : Fin 4096 → ℝ)
    (hx : ∀ d, x0 (ix2 0 d) = ((x d : ℝ) : EReal)) (hK : ∀ i d, x1 (ix2 i d) = ((Kc i d : ℝ) : EReal))
    (hWq : ∀ j d, x3 (ix2 j d) = ((Wq j d : ℝ) : EReal)) (hbq : ∀ j, x4 (ix1 j) = ((bq j : ℝ) : EReal))
    (hWk : ∀ j d, x5 (ix2 j d) = ((Wk j d : ℝ) : EReal)) (hbk : ∀ j, x6 (ix1 j) = ((bk j : ℝ) : EReal)) :
    ∃ M : ℝ, IsTop (score c x Kc Wq Wk bq bk) 32769 M
      ∧ ∀ k : Fin 32769, val_main_v22 (F := Ideal) x0 x1 x3 x4 x5 x6 (ix2 0 k) = ((M : ℝ) : EReal) := by
  have hR : S1x32769.Reduces [1] S1 := by decide
  obtain ⟨M, hM, hfold⟩ := fold_max_coe 32769 (by norm_num) (score c x Kc Wq Wk bq bk)
  refine ⟨M, hM, fun k => ?_⟩
  rw [val_main_v22_apply, val_main_v21_apply, val_main_v20_apply, val_main_v19_apply, val_main_cst_1_apply]
  have e : idx_main_v21 (idx_main_v22 (ix2 (0 : Fin 1) k)) = ix1 0 :=
    funext fun a => Fin.ext (by match a with | ⟨0, _⟩ => rfl)
  rw [e]
  unfold val_main_v18
  rw [Host.reduce_eq_fold_single FloatOps.maximumf _ _ reducesTo_S1x32769_S1_d1 hR h_S_ (ix1 0)]
  have hf : (val_main_v17 (F := Ideal) x0 x1 x3 x4 x5 x6 ∘ hR.lift (ix1 0))
      = fun k : Fin 32769 => ((score c x Kc Wq Wk bq bk k.val : ℝ) : EReal) := by
    funext k
    rw [Function.comp_apply, lift_row hR k, score_at c hc x0 x1 x3 x4 x5 x6 x Kc Wq Wk bq bk hx hK hWq hbq hWk hbk k]
  rw [hf, val_main_cst_0_apply, Ideal.ofBits_def, Cert.Consts.neg_inf, Ideal.maximumf_def, max_bot_left]
  exact hfold

/-- A key's weight before normalisation: the exponential of its score less the largest score. -/
theorem expo_at (c : ℝ) (hc : Ideal.ofBits .f32 0x3C800000#32 = ((c : ℝ) : EReal))
    (x0 : (⟨S1x4096, .f32⟩ : BufTy).Contents (Elt Ideal)) (x1 : (⟨S32768x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x : Fin 4096 → ℝ) (Kc : Fin 32768 → Fin 4096 → ℝ) (Wq Wk : Fin 4096 → Fin 4096 → ℝ) (bq bk : Fin 4096 → ℝ)
    (hx : ∀ d, x0 (ix2 0 d) = ((x d : ℝ) : EReal)) (hK : ∀ i d, x1 (ix2 i d) = ((Kc i d : ℝ) : EReal))
    (hWq : ∀ j d, x3 (ix2 j d) = ((Wq j d : ℝ) : EReal)) (hbq : ∀ j, x4 (ix1 j) = ((bq j : ℝ) : EReal))
    (hWk : ∀ j d, x5 (ix2 j d) = ((Wk j d : ℝ) : EReal)) (hbk : ∀ j, x6 (ix1 j) = ((bk j : ℝ) : EReal))
    (M : ℝ) (hM : ∀ k : Fin 32769, val_main_v22 (F := Ideal) x0 x1 x3 x4 x5 x6 (ix2 0 k) = ((M : ℝ) : EReal))
    (k : Fin 32769) :
    val_main_v24 (F := Ideal) x0 x1 x3 x4 x5 x6 (ix2 0 k)
      = ((Real.exp (score c x Kc Wq Wk bq bk k.val - M) : ℝ) : EReal) := by
  rw [val_main_v24_apply, val_main_v23_apply, score_at c hc x0 x1 x3 x4 x5 x6 x Kc Wq Wk bq bk hx hK hWq hbq hWk hbk k, hM k, Ideal.subf_def, ← EReal.coe_sub,
    Ideal.hostUnary_exp_def, Ideal.exp_coe]

/-- The sum of the weights, as every key reads it. -/
theorem wsum_at (c : ℝ) (hc : Ideal.ofBits .f32 0x3C800000#32 = ((c : ℝ) : EReal))
    (x0 : (⟨S1x4096, .f32⟩ : BufTy).Contents (Elt Ideal)) (x1 : (⟨S32768x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x : Fin 4096 → ℝ) (Kc : Fin 32768 → Fin 4096 → ℝ) (Wq Wk : Fin 4096 → Fin 4096 → ℝ) (bq bk : Fin 4096 → ℝ)
    (hx : ∀ d, x0 (ix2 0 d) = ((x d : ℝ) : EReal)) (hK : ∀ i d, x1 (ix2 i d) = ((Kc i d : ℝ) : EReal))
    (hWq : ∀ j d, x3 (ix2 j d) = ((Wq j d : ℝ) : EReal)) (hbq : ∀ j, x4 (ix1 j) = ((bq j : ℝ) : EReal))
    (hWk : ∀ j d, x5 (ix2 j d) = ((Wk j d : ℝ) : EReal)) (hbk : ∀ j, x6 (ix1 j) = ((bk j : ℝ) : EReal))
    (M : ℝ) (hM : ∀ k : Fin 32769, val_main_v22 (F := Ideal) x0 x1 x3 x4 x5 x6 (ix2 0 k) = ((M : ℝ) : EReal))
    (k : Fin 32769) :
    val_main_v27 (F := Ideal) x0 x1 x3 x4 x5 x6 (ix2 0 k) = ((wsum (score c x Kc Wq Wk bq bk) M 32769 : ℝ) : EReal) := by
  rw [val_main_v27_apply, val_main_v26_apply, val_main_v25_apply, val_main_cst_2_apply, Ideal.ofBits_def,
    Ideal.ofBits_zero_f32, zero_add]
  have e : ∀ j : Fin 32769, idx_main_v25 (idx_main_v26 (idx_main_v27 (ix2 (0 : Fin 1) k))) j = ix2 0 j := fun j =>
    funext fun a => Fin.ext (by match a with | ⟨0, _⟩ => rfl | ⟨1, _⟩ => rfl)
  have h : ∀ j : Fin 32769, val_main_v24 (F := Ideal) x0 x1 x3 x4 x5 x6
        (idx_main_v25 (idx_main_v26 (idx_main_v27 (ix2 (0 : Fin 1) k))) j)
      = ((Real.exp (score c x Kc Wq Wk bq bk j.val - M) : ℝ) : EReal) := fun j => by
    rw [e, expo_at c hc x0 x1 x3 x4 x5 x6 x Kc Wq Wk bq bk hx hK hWq hbq hWk hbk M hM j]
  rw [Finset.sum_congr rfl (fun j _ => h j), coe_sum]
  refine congrArg (fun r : ℝ => (r : EReal)) ?_
  unfold wsum
  exact Fin.sum_univ_eq_sum_range (fun i => Real.exp (score c x Kc Wq Wk bq bk i - M)) 32769

/-- A key's normalised weight. -/
theorem weight_at (c : ℝ) (hc : Ideal.ofBits .f32 0x3C800000#32 = ((c : ℝ) : EReal))
    (x0 : (⟨S1x4096, .f32⟩ : BufTy).Contents (Elt Ideal)) (x1 : (⟨S32768x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x : Fin 4096 → ℝ) (Kc : Fin 32768 → Fin 4096 → ℝ) (Wq Wk : Fin 4096 → Fin 4096 → ℝ) (bq bk : Fin 4096 → ℝ)
    (hx : ∀ d, x0 (ix2 0 d) = ((x d : ℝ) : EReal)) (hK : ∀ i d, x1 (ix2 i d) = ((Kc i d : ℝ) : EReal))
    (hWq : ∀ j d, x3 (ix2 j d) = ((Wq j d : ℝ) : EReal)) (hbq : ∀ j, x4 (ix1 j) = ((bq j : ℝ) : EReal))
    (hWk : ∀ j d, x5 (ix2 j d) = ((Wk j d : ℝ) : EReal)) (hbk : ∀ j, x6 (ix1 j) = ((bk j : ℝ) : EReal))
    (M : ℝ) (hM : ∀ k : Fin 32769, val_main_v22 (F := Ideal) x0 x1 x3 x4 x5 x6 (ix2 0 k) = ((M : ℝ) : EReal))
    (k : Fin 32769) :
    val_main_v28 (F := Ideal) x0 x1 x3 x4 x5 x6 (ix2 0 k)
      = ((Real.exp (score c x Kc Wq Wk bq bk k.val - M) / wsum (score c x Kc Wq Wk bq bk) M 32769 : ℝ) : EReal) := by
  rw [val_main_v28_apply, expo_at c hc x0 x1 x3 x4 x5 x6 x Kc Wq Wk bq bk hx hK hWq hbq hWk hbk M hM k, wsum_at c hc x0 x1 x3 x4 x5 x6 x Kc Wq Wk bq bk hx hK hWq hbq hWk hbk M hM k, Ideal.hostDivf_def,
    Ideal.div_coe (ne_of_gt (wsum_pos _ _ (by norm_num))), ← EReal.coe_mul]
  refine congrArg (fun r : ℝ => (r : EReal)) ?_
  rw [mul_one_div]

/-- The reference's output entry `d` on real inputs: the softmax attention of the one query over the 32769 keys. -/
theorem ref_value (c : ℝ) (hc : Ideal.ofBits .f32 0x3C800000#32 = ((c : ℝ) : EReal))
    (x0 : (⟨S1x4096, .f32⟩ : BufTy).Contents (Elt Ideal)) (x1 x2 : (⟨S32768x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x7 : (⟨S4096x4096, .f32⟩ : BufTy).Contents (Elt Ideal)) (x8 : (⟨S4096, .f32⟩ : BufTy).Contents (Elt Ideal))
    (x : Fin 4096 → ℝ) (Kc Vc : Fin 32768 → Fin 4096 → ℝ) (Wq Wk Wv : Fin 4096 → Fin 4096 → ℝ) (bq bk bv : Fin 4096 → ℝ)
    (hx : ∀ d, x0 (ix2 0 d) = ((x d : ℝ) : EReal)) (hK : ∀ i d, x1 (ix2 i d) = ((Kc i d : ℝ) : EReal))
    (hV : ∀ i d, x2 (ix2 i d) = ((Vc i d : ℝ) : EReal))
    (hWq : ∀ j d, x3 (ix2 j d) = ((Wq j d : ℝ) : EReal)) (hbq : ∀ j, x4 (ix1 j) = ((bq j : ℝ) : EReal))
    (hWk : ∀ j d, x5 (ix2 j d) = ((Wk j d : ℝ) : EReal)) (hbk : ∀ j, x6 (ix1 j) = ((bk j : ℝ) : EReal))
    (hWv : ∀ j d, x7 (ix2 j d) = ((Wv j d : ℝ) : EReal)) (hbv : ∀ j, x8 (ix1 j) = ((bv j : ℝ) : EReal))
    (d : Fin 4096) :
    ∃ M : ℝ, IsTop (score c x Kc Wq Wk bq bk) 32769 M
      ∧ val_main_v29 (F := Ideal) x0 x1 x2 x3 x4 x5 x6 x7 x8 (ix2 0 d)
          = ((out c x Kc Vc Wq Wk Wv bq bk bv M d : ℝ) : EReal) := by
  obtain ⟨M, hTop, hM⟩ := max_at c hc x0 x1 x3 x4 x5 x6 x Kc Wq Wk bq bk hx hK hWq hbq hWk hbk
  refine ⟨M, hTop, ?_⟩
  rw [val_main_v29_apply]
  have e1 : ∀ k : Fin 32769, lidx_main_v29 (ix2 (0 : Fin 1) d) k = ix2 0 k := fun k =>
    funext fun a => Fin.ext (by match a with | ⟨0, _⟩ => rfl | ⟨1, _⟩ => rfl)
  have e2 : ∀ k : Fin 32769, ridx_main_v29 (ix2 (0 : Fin 1) d) k = ix2 k d := fun k =>
    funext fun a => Fin.ext (by match a with | ⟨0, _⟩ => rfl | ⟨1, _⟩ => rfl)
  have h : ∀ k : Fin 32769, val_main_v28 (F := Ideal) x0 x1 x3 x4 x5 x6 (lidx_main_v29 (ix2 (0 : Fin 1) d) k)
        * val_main_v13 (F := Ideal) x0 x2 x7 x8 (ridx_main_v29 (ix2 (0 : Fin 1) d) k)
      = ((Real.exp (score c x Kc Wq Wk bq bk k.val - M) / wsum (score c x Kc Wq Wk bq bk) M 32769
          * valcol x Vc Wv bv d k.val : ℝ) : EReal) := fun k => by
    rw [e1, e2, weight_at c hc x0 x1 x3 x4 x5 x6 x Kc Wq Wk bq bk hx hK hWq hbq hWk hbk M hM k, vals_at x0 x2 x7 x8 x Vc Wv bv hx hV hWv hbv k d, ← EReal.coe_mul]
  rw [Finset.sum_congr rfl (fun k _ => h k), coe_sum]
  refine congrArg (fun r : ℝ => (r : EReal)) ?_
  unfold out
  rw [wacc_div]
  exact Fin.sum_univ_eq_sum_range (fun i => Real.exp (score c x Kc Wq Wk bq bk i - M)
    / wsum (score c x Kc Wq Wk bq bk) M 32769 * valcol x Vc Wv bv d i) 32769

end Cert.ReferenceIdeal.RefValue
end
-- ==== Proof.IdealKernelValue.lean ====
/-
  The kernel's result at the ideal instance: what the result buffer holds when the program ends, at an index, as the real
  attention formula of real inputs.

  The host operations read six arrays: q, k, v as the projection region leaves them (x · Wᵀ + b, real on real inputs) and the
  running maximum, weight sum and weighted value sum as the flash region leaves them (the invariant over the 32768 cached keys,
  whose scores are q against the cached keys and whose values are the cached rows). The merge is one more step for the appended
  key, whose score is q · k scaled and whose value row is v, followed by the division: the formula over all 32769 keys.
-/
import proofs.«148700_j48034914238768_1_alg».proof.Proof.IdealRun
import proofs.«148700_j48034914238768_1_alg».proof.Proof.IdealTail
import proofs.«148700_j48034914238768_1_alg».proof.Proof.IdealTailValue
import proofs.«148700_j48034914238768_1_alg».proof.Proof.IdealProjValue
import proofs.«148700_j48034914238768_1_alg».proof.Proof.IdealFlashValue
import proofs.«148700_j48034914238768_1_alg».proof.Proof.IdealFlashStep
import proofs.«148700_j48034914238768_1_alg».proof.Proof.RefRead
import proofs.«148700_j48034914238768_1_alg».proof.Proof.AttnMath
import proofs.«148700_j48034914238768_1_alg».proof.Proof.IdealConsts
import Idealize.ShloMosaic.Lib.ValueIdx

noncomputable section

namespace Cert.KernelIdeal.KValue

open Cert.KernelIdeal Cert.KernelIdeal.Gen Cert.Attn
open Idealize.ShloMosaic Idealize.ShloMosaic.TcCoe Idealize.SL.Sem ValueIdx

theorem kernel_value (m : (ℓ : Loc nD τ sig) → Buf (Elt Ideal) ℓ) (c : Dev nD)
    (cst : ℝ) (hc : Ideal.ofBits .f32 0x3C800000#32 = ((cst : ℝ) : EReal))
    (x : Fin 4096 → ℝ) (Kc Vc : Fin 32768 → Fin 4096 → ℝ) (Wq Wk Wv : Fin 4096 → Fin 4096 → ℝ) (bq bk bv : Fin 4096 → ℝ)
    (hx : ∀ d, m ((c.tc : Thread nD τ).loc main_arg0) (ix2 0 d) = ((x d : ℝ) : EReal))
    (hK : ∀ i d, m ((c.tc : Thread nD τ).loc main_arg1) (ix2 i d) = ((Kc i d : ℝ) : EReal))
    (hV : ∀ i d, m ((c.tc : Thread nD τ).loc main_arg2) (ix2 i d) = ((Vc i d : ℝ) : EReal))
    (hWq : ∀ j d, m ((c.tc : Thread nD τ).loc main_arg3) (ix2 j d) = ((Wq j d : ℝ) : EReal))
    (hbq : ∀ j, m ((c.tc : Thread nD τ).loc main_arg4) (ix1 j) = ((bq j : ℝ) : EReal))
    (hWk : ∀ j d, m ((c.tc : Thread nD τ).loc main_arg5) (ix2 j d) = ((Wk j d : ℝ) : EReal))
    (hbk : ∀ j, m ((c.tc : Thread nD τ).loc main_arg6) (ix1 j) = ((bk j : ℝ) : EReal))
    (hWv : ∀ j d, m ((c.tc : Thread nD τ).loc main_arg7) (ix2 j d) = ((Wv j d : ℝ) : EReal))
    (hbv : ∀ j, m ((c.tc : Thread nD τ).loc main_arg8) (ix1 j) = ((bv j : ℝ) : EReal))
    (d : Fin 4096) :
    ∃ M : ℝ, IsTop (score cst x Kc Wq Wk bq bk) 32769 M
      ∧ Whole.W3 (F := Ideal) m c (Proc.devRef .tc main_v20) (ix2 0 d) = ((out cst x Kc Vc Wq Wk Wv bq bk bv M d : ℝ) : EReal) := by
  -- the three projections, as the first region leaves them
  have hqa : ∀ j : Fin 4096, (Proj.dat (F := Ideal) (Whole.V0 m) c).arrAt 7 cfg0.N (ix2 0 j) = ((proj x Wq bq j : ℝ) : EReal) := fun j =>
    (ProjValue.q_final (Whole.V0 m) c j).trans ((ProjValue.proj_def _ _ _ j).trans (Cert.ReferenceIdeal.RefValue.proj_coe _ _ _ x Wq bq hx hWq hbq j))
  have hka : ∀ j : Fin 4096, (Proj.dat (F := Ideal) (Whole.V0 m) c).arrAt 8 cfg0.N (ix2 0 j) = ((proj x Wk bk j : ℝ) : EReal) := fun j =>
    (ProjValue.k_final (Whole.V0 m) c j).trans ((ProjValue.proj_def _ _ _ j).trans (Cert.ReferenceIdeal.RefValue.proj_coe _ _ _ x Wk bk hx hWk hbk j))
  have hva : ∀ j : Fin 4096, (Proj.dat (F := Ideal) (Whole.V0 m) c).arrAt 9 cfg0.N (ix2 0 j) = ((proj x Wv bv j : ℝ) : EReal) := fun j =>
    (ProjValue.v_final (Whole.V0 m) c j).trans ((ProjValue.proj_def _ _ _ j).trans (Cert.ReferenceIdeal.RefValue.proj_coe _ _ _ x Wv bv hx hWv hbv j))
  -- the statistics over the cached keys, as the second region leaves them
  have hfl := FlashValue.flash_final (Whole.V1 m) c cst hc (proj x Wq bq) Kc Vc (score cst x Kc Wq Wk bq bk) (valcol x Vc Wv bv)
    (fun j => (congrFun (Whole.W1_arr m c 7) (ix2 0 j)).trans (hqa j))
    (fun i j => (congrFun (Whole.W1_of_ne m c main_arg1 (by decide)) (ix2 i j)).trans (hK i j))
    (fun i j => (congrFun (Whole.W1_of_ne m c main_arg2 (by decide)) (ix2 i j)).trans (hV i j))
    (fun i => by unfold score; rw [dif_pos i.isLt])
    (fun i j => by unfold valcol; rw [dif_pos i.isLt])
  obtain ⟨M, hM, hmo, hlo, hacc⟩ := hfl
  -- the merge of the appended key
  have hW : Whole.W3 (F := Ideal) m c (Proc.devRef .tc main_v20)
      = Tail.merge (F := Ideal) ((Proj.dat (F := Ideal) (Whole.V0 m) c).arrAt 7 cfg0.N) ((Proj.dat (F := Ideal) (Whole.V0 m) c).arrAt 8 cfg0.N)
          ((Proj.dat (F := Ideal) (Whole.V0 m) c).arrAt 9 cfg0.N) ((Flash.dat (F := Ideal) (Whole.V1 m) c).arrAt 3 cfg1.N)
          ((Flash.dat (F := Ideal) (Whole.V1 m) c).arrAt 4 cfg1.N) ((Flash.dat (F := Ideal) (Whole.V1 m) c).arrAt 5 cfg1.N) := by
    rw [show Whole.W3 (F := Ideal) m c (Proc.devRef .tc main_v20) = _ from Tail.after_merge (Whole.W2 m c)]
    rw [show Whole.W2 m c (Proc.devRef .tc main_v0_0) = (Proj.dat (F := Ideal) (Whole.V0 m) c).arrAt 7 cfg0.N from
        (Whole.W2_arr m c 0).trans (((Flash.dat (F := Ideal) (Whole.V1 m) c).arrAt_in 0 rfl _).trans ((Flash.A_eq (Whole.V1 m) c 0).trans (Whole.W1_arr m c 7))),
      Whole.W2_of_ne m c main_v0_1 (by decide), Whole.W2_of_ne m c main_v0_2 (by decide)]
    rw [show Whole.W1 m c (Proc.devRef .tc main_v0_1) = _ from Whole.W1_arr m c 8,
      show Whole.W1 m c (Proc.devRef .tc main_v0_2) = _ from Whole.W1_arr m c 9]
    rw [show Whole.W2 m c (Proc.devRef .tc main_v1_0) = _ from Whole.W2_arr m c 3, show Whole.W2 m c (Proc.devRef .tc main_v1_1) = _ from Whole.W2_arr m c 4,
      show Whole.W2 m c (Proc.devRef .tc main_v1_2) = _ from Whole.W2_arr m c 5]
  obtain ⟨M', hM', hout⟩ := TailValue.merge_apply cst hc (proj x Wq bq) (proj x Wk bk) (proj x Wv bv) (score cst x Kc Wq Wk bq bk) (valcol x Vc Wv bv) 32768 (by norm_num) M
    _ _ _ _ _ _ hqa hka hva hM hmo hlo hacc
    (by unfold score; rw [dif_neg (by norm_num)])
    (fun j => by unfold valcol; rw [dif_neg (by norm_num)]) d
  exact ⟨M', hM', by rw [hW, hout]; rfl⟩

end Cert.KernelIdeal.KValue

end
-- ==== Proof.IdealFinite.lean ====
/-
  Finiteness of the inputs. The certificate's precondition says that, on every device, the conjunction over the nine
  input arrays of "every entry x satisfies |x| < +∞" is true. Read in the extended reals, |x| = max x (-x) and the
  comparison is the strict order, so the two infinities are excluded and every entry of every input array is a real
  number. One lemma, generic in the array's shape, turns "the conjunction over the whole array is one" into "each entry
  is a coerced real"; the theorem splits the eight binary conjunctions of the predicate and applies it nine times.
-/
import proofs.«148700_j48034914238768_1_alg».proof.Defs
import proofs.«148700_j48034914238768_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.KernelIdeal.Finite

open Idealize.ShloMosaic Idealize.SL.Sem
open Cert.Pre_finite_inputs (S_)

/-- The shape of a scalar has exactly one index. -/
instance scalarIdxSubsingleton : Subsingleton S_.Idx := ⟨fun a b => funext fun d => d.elim0⟩

/-- The word with sign clear, exponent all ones and fraction zero denotes positive infinity. -/
theorem pos_inf : Ideal.ofBits .f32 0x7F800000#32 = (⊤ : EReal) := by
  simp [Ideal.ofBits, Ideal.ieee]

/-- An extended real whose absolute value lies strictly below positive infinity is a real number. -/
theorem real_of_abs_lt_top (x : EReal) (h : max x (-x) < (⊤ : EReal)) : ∃ r : ℝ, x = ((r : ℝ) : EReal) := by
  induction x using EReal.rec with
  | bot => simp at h
  | coe r => exact ⟨r, rfl⟩
  | top => simp at h

/-- If the conjunction over a whole array of the tests |x| < +∞ is one, every entry of the array is a real number. -/
theorem entries_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
          init hr hu ValueIdx.ix0 = 1#1)
    (i : s.Idx) : ∃ r : ℝ, x i = ((r : ℝ) : EReal) := by
  have h := Host.reduce_andi_all _ _ hr hu _ e i
  refine real_of_abs_lt_top (x i) ?_
  have h2 : BitVec.ofBool (decide (max (x i) (-(x i)) < Ideal.ofBits .f32 0x7F800000#32)) = 1#1 := h
  rw [pos_inf] at h2
  by_contra hn
  rw [decide_eq_false hn] at h2
  exact absurd h2 (by decide)

/-- Under the certificate's precondition every entry of each of the nine input arrays is a real number. -/
theorem reals_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal))
    ∧ (∀ i, ∃ r : ℝ, m ((c.tc : Thread Cert.KernelIdeal.nD Cert.KernelIdeal.τ).loc Cert.KernelIdeal.main_arg2) i = ((r : ℝ) : EReal))
    ∧ (∀ i, ∃ r : ℝ, m ((c.tc : Thread Cert.KernelIdeal.nD Cert.KernelIdeal.τ).loc Cert.KernelIdeal.main_arg3) i = ((r : ℝ) : EReal))
    ∧ (∀ i, ∃ r : ℝ, m ((c.tc : Thread Cert.KernelIdeal.nD Cert.KernelIdeal.τ).loc Cert.KernelIdeal.main_arg4) i = ((r : ℝ) : EReal))
    ∧ (∀ i, ∃ r : ℝ, m ((c.tc : Thread Cert.KernelIdeal.nD Cert.KernelIdeal.τ).loc Cert.KernelIdeal.main_arg5) i = ((r : ℝ) : EReal))
    ∧ (∀ i, ∃ r : ℝ, m ((c.tc : Thread Cert.KernelIdeal.nD Cert.KernelIdeal.τ).loc Cert.KernelIdeal.main_arg6) i = ((r : ℝ) : EReal))
    ∧ (∀ i, ∃ r : ℝ, m ((c.tc : Thread Cert.KernelIdeal.nD Cert.KernelIdeal.τ).loc Cert.KernelIdeal.main_arg7) i = ((r : ℝ) : EReal))
    ∧ (∀ i, ∃ r : ℝ, m ((c.tc : Thread Cert.KernelIdeal.nD Cert.KernelIdeal.τ).loc Cert.KernelIdeal.main_arg8) i = ((r : ℝ) : EReal)) := by
  have h0 := congrFun (h c) ValueIdx.ix0
  dsimp only [Cert.Pre_finite_inputs.fn, Cert.Pre_finite_inputs.fn_part1, Cert.Pre_finite_inputs.fn_part2, andi] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨entries_real _ _ _ _ _ h0, entries_real _ _ _ _ _ h1, entries_real _ _ _ _ _ h2,
    entries_real _ _ _ _ _ h3, entries_real _ _ _ _ _ h4, entries_real _ _ _ _ _ h5,
    entries_real _ _ _ _ _ h6, entries_real _ _ _ _ _ h7, entries_real _ _ _ _ _ h8⟩

end Cert.KernelIdeal.Finite

end
-- ==== Proof.lean ====
/-
  Single-query attention over a key/value cache with one freshly projected token appended: a two-kernel implementation against
  the plain softmax reference, equal over the extended reals under finite inputs.

  The implementation projects q, k, v tile by tile (first kernel), folds the 32768 cached keys into a running maximum, weight sum
  and weighted value sum, 256 keys per step (second kernel), then merges the appended token's key and value as one more step on
  the host and divides. The reference concatenates the appended row to the cache, takes the softmax of the 32769 scaled scores
  and multiplies by the values. With M the largest score, both are (∑ exp (sᵢ - M) vᵢ) / (∑ exp (sᵢ - M)): the block-by-block
  accumulation rescales by exp of the maximum's shift, and the quotient of the sums is the sum of the quotients. Finiteness of
  the inputs makes every quantity a real number, which is what the exponent law and the distribution of the division need.

  The frames: each kernel region's body is run on its staging buffers at every grid point (the second region's scratch carried
  in its invariant), the host operations write only their own result buffers, so every argument array ends as launched — for
  the program read at the machine's words and at the extended reals alike. The reference is host operations only.
-/
import proofs.«148700_j48034914238768_1_alg».proof.Defs
import proofs.«148700_j48034914238768_1_alg».proof.Proof.Gen.Kernel
import proofs.«148700_j48034914238768_1_alg».proof.Proof.Gen.KernelIdeal
import proofs.«148700_j48034914238768_1_alg».proof.Proof.Gen.ReferenceIdeal
import proofs.«148700_j48034914238768_1_alg».proof.Proof.Gen.Pre_finite_inputs
import proofs.«148700_j48034914238768_1_alg».proof.Proof.Gen.ReferenceIdeal.Run
import proofs.«148700_j48034914238768_1_alg».proof.Proof.Gen.ReferenceIdeal.Read
import proofs.«148700_j48034914238768_1_alg».proof.Proof.BitsRun
import proofs.«148700_j48034914238768_1_alg».proof.Proof.IdealRun
import proofs.«148700_j48034914238768_1_alg».proof.Proof.IdealKernelValue
import proofs.«148700_j48034914238768_1_alg».proof.Proof.IdealFinite
import proofs.«148700_j48034914238768_1_alg».proof.Proof.RefRead
import proofs.«148700_j48034914238768_1_alg».proof.Proof.AttnMath
import proofs.«148700_j48034914238768_1_alg».proof.Proof.IdealConsts
import Idealize.ShloMosaic.Adequacy
import Idealize.ShloMosaic.Init

noncomputable section

namespace Cert.Proof

open Idealize.ShloMosaic Idealize.ShloMosaic.TcCoe Idealize.SL.Sem ValueIdx Cert.Attn

theorem frame_bits : Cert.frame_Kernel := fun m ρ _ => Cert.Kernel.Whole.frame (F := Bits) m ρ

theorem frame_ideal : Cert.frame_KernelIdeal := fun m ρ _ => Cert.KernelIdeal.Whole.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the result buffer at the same function of the arguments: entry (0, d) of each is the real attention
    formula at its own largest score, and the largest score is unique. -/
theorem algebraic : Cert.algebraic_KernelIdeal_ReferenceIdeal := by
  intro m ρ m' ρ' hpre hagree
  refine ⟨fun c => Cert.KernelIdeal.Whole.W3 (F := Ideal) m c (Proc.devRef .tc Cert.KernelIdeal.main_v20),
    Cert.KernelIdeal.Whole.run_result (F := Ideal) m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  obtain ⟨h0, h1, h2, h3, h4, h5, h6, h7, h8⟩ := Cert.KernelIdeal.Finite.reals_of_pre m hpre c
  choose r0 e0 using h0
  choose r1 e1 using h1
  choose r2 e2 using h2
  choose r3 e3 using h3
  choose r4 e4 using h4
  choose r5 e5 using h5
  choose r6 e6 using h6
  choose r7 e7 using h7
  choose r8 e8 using h8
  obtain ⟨cst, hc⟩ := Cert.Consts.scale_real
  funext i
  obtain ⟨p, d, rfl⟩ : ∃ (p : Fin 1) (d : Fin 4096), i = ix2 p d := ⟨i 0, i 1, eq_ix2 i⟩
  obtain rfl : p = 0 := Subsingleton.elim _ _
  obtain ⟨M, hM, hr⟩ := Cert.ReferenceIdeal.RefValue.ref_value cst hc _ _ _ _ _ _ _ _ _
    (fun d => r0 (ix2 0 d)) (fun i d => r1 (ix2 i d)) (fun i d => r2 (ix2 i d)) (fun j d => r3 (ix2 j d)) (fun j d => r5 (ix2 j d)) (fun j d => r7 (ix2 j d))
    (fun j => r4 (ix1 j)) (fun j => r6 (ix1 j)) (fun j => r8 (ix1 j))
    (fun d => e0 _) (fun i d => e1 _) (fun i d => e2 _) (fun j d => e3 _) (fun j => e4 _) (fun j d => e5 _) (fun j => e6 _) (fun j d => e7 _) (fun j => e8 _) d
  obtain ⟨M', hM', hk⟩ := Cert.KernelIdeal.KValue.kernel_value m c cst hc
    (fun d => r0 (ix2 0 d)) (fun i d => r1 (ix2 i d)) (fun i d => r2 (ix2 i d)) (fun j d => r3 (ix2 j d)) (fun j d => r5 (ix2 j d)) (fun j d => r7 (ix2 j d))
    (fun j => r4 (ix1 j)) (fun j => r6 (ix1 j)) (fun j => r8 (ix1 j))
    (fun d => e0 _) (fun i d => e1 _) (fun i d => e2 _) (fun j d => e3 _) (fun j => e4 _) (fun j d => e5 _) (fun j => e6 _) (fun j d => e7 _) (fun j => e8 _) d
  exact hr.trans ((congrArg (fun M => ((out cst _ _ _ _ _ _ _ _ _ M d : ℝ) : EReal)) (hM.unique hM')).trans hk.symm)

theorem claim : Cert.Claim := ⟨Cert.Kernel.Gen.facts, Cert.KernelIdeal.Gen.facts, Cert.ReferenceIdeal.Gen.facts, Cert.Pre_finite_inputs.Gen.facts,
  frame_bits, frame_ideal, frame_reference, trivial, algebraic⟩

end Cert.Proof

end
